-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  IdealRules.named_const.Statement Cert.KernelIdeal.κ "neg_big" .f32 0xFF333332#32 ⊥
  ∧ IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v23) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x1024 : Shape := ⟨2, ![4096, 1024]⟩
abbrev S1024x1024 : Shape := ⟨2, ![1024, 1024]⟩
abbrev S_ : Shape := ⟨0, ![]⟩

class Facts : Prop where
  bcast_S_S4096x1024 : S_.BroadcastsInDim S4096x1024 (![] : Fin 0 → Fin S4096x1024.rank)
  reducesTo_S4096x1024_S_d0_1 : S4096x1024.ReducesTo [0, 1] S_
  h_S_ : 0 < S_.numel
  bcast_S_S1024x1024 : S_.BroadcastsInDim S1024x1024 (![] : Fin 0 → Fin S1024x1024.rank)
  reducesTo_S1024x1024_S_d0_1 : S1024x1024.ReducesTo [0, 1] S_

variable [Facts]

def fn_part1 {F : FTy → Type} [FloatOps F] (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  main_v18

def fn {F : FTy → Type} [FloatOps F] (main_arg0 : FVec F S4096x1024 .f32) (main_arg1 : FVec F S1024x1024 .f32) (main_arg2 : FVec F S1024x1024 .f32) (main_arg3 : FVec F S1024x1024 .f32) : IVec S_ 1 :=
  let main_v0 : FVec F S4096x1024 .f32 := Host.absf main_arg0
  let main_cst : FVec F S_ .f32 := constant S_ .f32 0x7F800000#32
  let main_v1 : FVec F S4096x1024 .f32 := broadcastInDim S4096x1024 ![] bcast_S_S4096x1024 main_cst
  let main_v2 : IVec S4096x1024 1 := cmpf .olt main_v0 main_v1
  let main_c : IVec S_ 1 := constantI S_ 1 1#1
  let main_v3 : IVec S_ 1 := (fun x v => Host.reduce IntOp.andi x v reducesTo_S4096x1024_S_d0_1 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024x1024 .f32 := Host.absf main_arg2
  let main_cst_2 : FVec F S_ .f32 := constant S_ .f32 0x7F800000#32
  let main_v10 : FVec F S1024x1024 .f32 := broadcastInDim S1024x1024 ![] bcast_S_S1024x1024 main_cst_2
  let main_v11 : IVec S1024x1024 1 := cmpf .olt main_v9 main_v10
  let main_c_3 : IVec S_ 1 := constantI S_ 1 1#1
  let main_v12 : IVec S_ 1 := (fun x v => Host.reduce IntOp.andi x v reducesTo_S1024x1024_S_d0_1 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_v13 main_v16
-- ==== Kernel.lean ====
abbrev S4096x1024 : Shape := ⟨2, ![4096, 1024]⟩
abbrev S1024x1024 : Shape := ⟨2, ![1024, 1024]⟩
abbrev S2x10 : Shape := ⟨2, ![2, 10]⟩
abbrev S1024x3072 : Shape := ⟨2, ![1024, 3072]⟩
abbrev S4096x3072 : Shape := ⟨2, ![4096, 3072]⟩
abbrev S512x1024 : Shape := ⟨2, ![512, 1024]⟩
abbrev S512x3072 : Shape := ⟨2, ![512, 3072]⟩
abbrev S1x1 : Shape := ⟨2, ![1, 1]⟩
abbrev S1024x1 : Shape := ⟨2, ![1024, 1]⟩
abbrev S1024x512 : Shape := ⟨2, ![1024, 512]⟩
abbrev S1024 : Shape := ⟨1, ![1024]⟩

abbrev nBuf : Space → Nat
  | .hbm => 8
  | .vmem => 16
  | .smem => 4
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S1024x3072, .f32⟩
  | .hbm, ⟨5, _⟩ => ⟨S1024x3072, .bf16⟩
  | .hbm, ⟨6, _⟩ => ⟨S4096x3072, .bf16⟩
  | .hbm, ⟨7, _⟩ => ⟨S4096x1024, .f32⟩
  | .local _ .vmem, ⟨0, _⟩ => ⟨S512x1024, .f32⟩
  | .local _ .vmem, ⟨1, _⟩ => ⟨S512x1024, .f32⟩
  | .local _ .vmem, ⟨2, _⟩ => ⟨S1024x3072, .bf16⟩
  | .local _ .vmem, ⟨3, _⟩ => ⟨S512x3072, .bf16⟩
  | .local _ .vmem, ⟨4, _⟩ => ⟨S512x3072, .bf16⟩
  | .local _ .vmem, ⟨5, _⟩ => ⟨S1024x1024, .bf16⟩
  | .local _ .vmem, ⟨6, _⟩ => ⟨S1024x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S1024x1024, .f32⟩
  | .local _ .vmem, ⟨12, _⟩ => ⟨S1024x1024, .f32⟩
  | .local _ .vmem, ⟨13, _⟩ => ⟨S1024x1024, .f32⟩
  | .local _ .vmem, ⟨14, _⟩ => ⟨S1024x1, .f32⟩
  | .local _ .vmem, ⟨15, _⟩ => ⟨S1024x1, .f32⟩
  | .local _ .smem, ⟨0, _⟩ => ⟨S2x10, .i32⟩
  | .local _ .smem, ⟨1, _⟩ => ⟨S2x10, .i32⟩
  | .local _ .smem, ⟨2, _⟩ => ⟨S2x10, .i32⟩
  | .local _ .smem, ⟨3, _⟩ => ⟨S2x10, .i32⟩
  | _, _ => ⟨S4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_c : Ref sig .tc := ⟨.smem, 0, rfl⟩
abbrev main_c_0 : Ref sig .tc := ⟨.smem, 1, rfl⟩
abbrev main_c_1 : Ref sig .tc := ⟨.smem, 2, rfl⟩
abbrev main_c_2 : Ref sig .tc := ⟨.smem, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg2_1 : Ref sig .tc := ⟨.vmem, 10, rfl⟩
abbrev cc1_stg3_0 : Ref sig .tc := ⟨.vmem, 11, rfl⟩
abbrev cc1_stg3_1 : Ref sig .tc := ⟨.vmem, 12, rfl⟩
abbrev cc1_scratch0 : Ref sig .tc := ⟨.vmem, 13, rfl⟩
abbrev cc1_scratch1 : Ref sig .tc := ⟨.vmem, 14, rfl⟩
abbrev cc1_scratch2 : Ref sig .tc := ⟨.vmem, 15, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem2_1 : DmaSem sig := 10
abbrev cc1_sem3_0 : DmaSem sig := 11
abbrev cc1_sem3_1 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x3072 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x3072 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![2, 10], ![false, false]⟩

abbrev pre1 : Pipeline.Prefetch sig := ⟨4, ![main_c.idx, main_c_0.idx, main_c_1.idx, main_c_2.idx], fun | 0 => main_c.names | 1 => main_c_0.names | 2 => main_c_1.names | 3 => main_c_2.names | ⟨_ + 4, h⟩ => absurd h (Nat.not_lt.2 (Nat.le_add_left _ _)), fun | 0 => rfl | 1 => rfl | 2 => rfl | 3 => rfl | ⟨_ + 4, h⟩ => absurd h (Nat.not_lt.2 (Nat.le_add_left _ _))⟩

def k1_off1 (i : grid1.Coords) : Fin 2 → Nat :=
  let arg0 : BitVec 32 := BitVec.ofNat 32 (i 0).val
  let v0 : Index := Scalar.indexCast arg0
  let arg1 : BitVec 32 := BitVec.ofNat 32 (i 1).val
  let v1 : Index := Scalar.indexCast arg1
  ![v0.toNat, v1.toNat]
def k1_cond2 (v11 : BitVec 32) : BitVec 1 :=
  let c1_i32_22 : BitVec 32 := 1#32
  let v64 : BitVec 1 := Scalar.cmpi .eq v11 c1_i32_22
  let v65 : BitVec 32 := Scalar.extui v64
  let c0_i32_23 : BitVec 32 := 0#32
  let v66 : BitVec 1 := Scalar.cmpi .ne v65 c0_i32_23
  v66

def cc1_transform_0 (k1_off1_inb : ∀ i : grid1.Coords, ∀ a, (k1_off1 i) a + S1x1.size a ≤ S2x10.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x10) ![v0.toNat, v1.toNat] S1x1.size (k1_off1_inb i)) numel1_S1x1
  let c0_i32 : BitVec 32 := 0#32
  let c0_i32_0 : BitVec 32 := 0#32
  ![v2.toNat, c0_i32.toNat]

def cc1_transform_1 (k1_off1_inb : ∀ i : grid1.Coords, ∀ a, (k1_off1 i) a + S1x1.size a ≤ S2x10.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x10) ![v0.toNat, v1.toNat] S1x1.size (k1_off1_inb i)) numel1_S1x1
  let c1_i32 : BitVec 32 := 1#32
  let c0_i32 : BitVec 32 := 0#32
  ![v2.toNat, c1_i32.toNat]

def cc1_transform_2 (k1_off1_inb : ∀ i : grid1.Coords, ∀ a, (k1_off1 i) a + S1x1.size a ≤ S2x10.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 1 (Rect.unit (s := S2x10) ![v0.toNat, v1.toNat] S1x1.size (k1_off1_inb i)) numel1_S1x1
  let c2_i32 : BitVec 32 := 2#32
  let c0_i32 : BitVec 32 := 0#32
  ![v2.toNat, c2_i32.toNat]

def cc1_transform_3 (k1_off1_inb : ∀ i : grid1.Coords, ∀ a, (k1_off1 i) a + S1x1.size a ≤ S2x10.size a) (numel1_S1x1 : S1x1.numel = 1) (pf : pre1.Contents (Elt F)) (i : grid1.Coords) : Fin 2 → Nat :=
  let arg0 : BitVec 32 := BitVec.ofNat 32 (i 0).val
  let arg1 : BitVec 32 := BitVec.ofNat 32 (i 1).val
  let v0 : Index := Scalar.indexCast arg0
  let v1 : Index := Scalar.indexCast arg1
  let v2 : BitVec 32 := pf.at 0 (Rect.unit (s := S2x10) ![v0.toNat, v1.toNat] S1x1.size (k1_off1_inb i)) numel1_S1x1
  let c0_i32 : BitVec 32 := 0#32
  let c0_i32_0 : BitVec 32 := 0#32
  ![v2.toNat, c0_i32.toNat]

abbrev stage1_0 : Fin 2 → Memref sig .tc .vmem S1024x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S512x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 2 → Memref sig .tc .vmem S512x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev stage1_3 : Fin 2 → Memref sig .tc .vmem S1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true]

class Facts₀ : Prop where
  concatenates_S1024x1024_S1024x1024_S1024x1024_S1024x3072_d1 : Shape.Concatenates [S1024x1024, S1024x1024, S1024x1024] S1024x3072 1
  bitsLt_bf16_f32 : FTy.bits .bf16 < FTy.bits .f32
  inb_S512x1024_S512x1024_0_0 : ∀ a, (![0, 0] : Fin 2 → Nat) a + S512x1024.size a ≤ S512x1024.size a
  h_S512x1024 : 0 < S512x1024.numel
  inb_S1024x3072_S1024x3072_0_0 : ∀ a, (![0, 0] : Fin 2 → Nat) a + S1024x3072.size a ≤ S1024x3072.size a
  h_S1024x3072 : 0 < S1024x3072.numel
  shapeCasts_S1024x3072_S1024x3072 : S1024x3072.ShapeCasts S1024x3072
  inb_S512x3072_S512x3072_0_0 : ∀ a, (![0, 0] : Fin 2 → Nat) a + S512x3072.size a ≤ S512x3072.size a
  h_S512x3072 : 0 < S512x3072.numel
  packedbf16_S512x3072_S512x3072_0_0 : (Rect.unit (s := S512x3072) ![0, 0] S512x3072.size inb_S512x3072_S512x3072_0_0).PackedRows (EltTy.packing .bf16)
  numel1_S1x1 : S1x1.numel = 1
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  shapeCasts_S512x1024_S512x1024 : S512x1024.ShapeCasts S512x1024
  iota_S1024x512_d0_w32 : S1024x512.Iotas .tc 32 [0]
  iota_S1024x512_d1_w32 : S1024x512.Iotas .tc 32 [1]
  reduces_S1024x512_S1024 : S1024x512.Reduces [1] S1024
  shapeCasts_S1024_S1024x1 : S1024.ShapeCasts S1024x1
  broadcasts_S1024x1_S1024x512 : S1024x1.Broadcasts S1024x512
  broadcasts_S1024x1_S1024x1024 : S1024x1.Broadcasts S1024x1024
  dot_S512x1024_S1024x3072_S512x3072_1_0_0_1_n_n_wf : DotDims.WF S512x1024 S1024x3072 S512x3072 [1] [0] [0] [1] [] []
  dot_S1024x1024_S512x1024_S1024x512_1_1_0_0_n_n_wf : DotDims.WF S1024x1024 S512x1024 S1024x512 [1] [1] [0] [0] [] []
  dot_S1024x512_S512x1024_S1024x1024_1_0_0_1_n_n_wf : DotDims.WF S1024x512 S512x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S4096x1024.size a
  hwx0_0 : ∀ i : grid0.Coords, EltTy.bits .f32 = 32 ∨ (Rect.block (s := S4096x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x3072.size a ≤ S1024x3072.size a
  hwx0_1 : ∀ i : grid0.Coords, EltTy.bits .bf16 = 32 ∨ (Rect.block (s := S1024x3072) S1024x3072.size (cc0_transform_1 i) (hinb0_1 i)).WholeWords (EltTy.packing .bf16)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x3072.size a ≤ S4096x3072.size a
  hwx0_2 : ∀ i : grid0.Coords, EltTy.bits .bf16 = 32 ∨ (Rect.block (s := S4096x3072) S512x3072.size (cc0_transform_2 i) (hinb0_2 i)).WholeWords (EltTy.packing .bf16)
  hrank1 : 0 < grid1.rank
  k1_off1_inb : ∀ i : grid1.Coords, ∀ a, (k1_off1 i) a + S1x1.size a ≤ S2x10.size a
  hstage1_0 : ∀ j, (stage1_0 j).IsWhole
  nbuf1_0 : grid1.bufCount reads1_0 false = 2
  hreads1_0 : ∀ {F : FTy → Type} [FloatOps F] (pf : pre1.Contents (Elt F)) (i i' : grid1.Coords), (∀ a, reads1_0 a = true → i a = i' a) → cc1_transform_0 k1_off1_inb numel1_S1x1 pf i = cc1_transform_0 k1_off1_inb numel1_S1x1 pf i'
  hstage1_1 : ∀ j, (stage1_1 j).IsWhole
  nbuf1_1 : grid1.bufCount reads1_1 false = 2
  hreads1_1 : ∀ {F : FTy → Type} [FloatOps F] (pf : pre1.Contents (Elt F)) (i i' : grid1.Coords), (∀ a, reads1_1 a = true → i a = i' a) → cc1_transform_1 k1_off1_inb numel1_S1x1 pf i = cc1_transform_1 k1_off1_inb numel1_S1x1 pf i'
  hstage1_2 : ∀ j, (stage1_2 j).IsWhole
  nbuf1_2 : grid1.bufCount reads1_2 false = 2
  hreads1_2 : ∀ {F : FTy → Type} [FloatOps F] (pf : pre1.Contents (Elt F)) (i i' : grid1.Coords), (∀ a, reads1_2 a = true → i a = i' a) → cc1_transform_2 k1_off1_inb numel1_S1x1 pf i = cc1_transform_2 k1_off1_inb numel1_S1x1 pf i'
  hstage1_3 : ∀ j, (stage1_3 j).IsWhole
  nbuf1_3 : grid1.bufCount reads1_3 false = 2
  hreads1_3 : ∀ {F : FTy → Type} [FloatOps F] (pf : pre1.Contents (Elt F)) (i i' : grid1.Coords), (∀ a, reads1_3 a = true → i a = i' a) → cc1_transform_3 k1_off1_inb numel1_S1x1 pf i = cc1_transform_3 k1_off1_inb numel1_S1x1 pf i'

variable [Facts₀]

def dot_S512x1024_S1024x3072_S512x3072_1_0_0_1_n_n : DotDims S512x1024 S1024x3072 S512x3072 where
  lhsContracting := [1]
  rhsContracting := [0]
  lhsNonContracting := [0]
  rhsNonContracting := [1]
  lhsBatch := []
  rhsBatch := []
  wf := dot_S512x1024_S1024x3072_S512x3072_1_0_0_1_n_n_wf
def dot_S1024x1024_S512x1024_S1024x512_1_1_0_0_n_n : DotDims S1024x1024 S512x1024 S1024x512 where
  lhsContracting := [1]
  rhsContracting := [1]
  lhsNonContracting := [0]
  rhsNonContracting := [0]
  lhsBatch := []
  rhsBatch := []
  wf := dot_S1024x1024_S512x1024_S1024x512_1_1_0_0_n_n_wf
def dot_S1024x512_S512x1024_S1024x1024_1_0_0_1_n_n : DotDims S1024x512 S512x1024 S1024x1024 where
  lhsContracting := [1]
  rhsContracting := [0]
  lhsNonContracting := [0]
  rhsNonContracting := [1]
  lhsBatch := []
  rhsBatch := []
  wf := dot_S1024x512_S512x1024_S1024x1024_1_0_0_1_n_n_wf

abbrev win0_0 : Pipeline.Window sig grid0 :=
  Pipeline.Window.ofSpec (Memref.whole main_arg0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1024x3072.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v2) S512x3072.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev spec1_0 : Pipeline.WinSpec sig grid1.rank :=
  Pipeline.WinSpec.ofSpec (Memref.whole main_v2) S1024x1024.size reads1_0 false false 2 stage1_0 sem1_0 nbuf1_0 hstage1_0

abbrev spec1_1 : Pipeline.WinSpec sig grid1.rank :=
  Pipeline.WinSpec.ofSpec (Memref.whole main_v2) S512x1024.size reads1_1 false false 2 stage1_1 sem1_1 nbuf1_1 hstage1_1

abbrev spec1_2 : Pipeline.WinSpec sig grid1.rank :=
  Pipeline.WinSpec.ofSpec (Memref.whole main_v2) S512x1024.size reads1_2 false false 2 stage1_2 sem1_2 nbuf1_2 hstage1_2

abbrev spec1_3 : Pipeline.WinSpec sig grid1.rank :=
  Pipeline.WinSpec.ofSpec (Memref.whole main_v3) S1024x1024.size reads1_3 true false 2 stage1_3 sem1_3 nbuf1_3 hstage1_3

abbrev spec1 : Fin 4 → Pipeline.WinSpec sig grid1.rank := fun | 0 => spec1_0 | 1 => spec1_1 | 2 => spec1_2 | 3 => spec1_3 | ⟨_ + 4, h⟩ => absurd h (Nat.not_lt.2 (Nat.le_add_left _ _))
theorem hcount1 : ∀ w, grid1.bufCount (spec1 w).reads (spec1 w).sync = (spec1 w).nbuf := fun | 0 => nbuf1_0 | 1 => nbuf1_1 | 2 => nbuf1_2 | 3 => nbuf1_3 | ⟨_ + 4, h⟩ => absurd h (Nat.not_lt.2 (Nat.le_add_left _ _))
abbrev ix1 (pf : pre1.Contents (Elt F)) : (w : Fin 4) → grid1.Coords → Fin (spec1 w).shape.rank → Nat := fun | 0 => cc1_transform_0 k1_off1_inb numel1_S1x1 pf | 1 => cc1_transform_1 k1_off1_inb numel1_S1x1 pf | 2 => cc1_transform_2 k1_off1_inb numel1_S1x1 pf | 3 => cc1_transform_3 k1_off1_inb numel1_S1x1 pf | ⟨_ + 4, h⟩ => absurd h (Nat.not_lt.2 (Nat.le_add_left _ _))
theorem hreads1 : ∀ (pf : pre1.Contents (Elt F)) w (i i' : grid1.Coords), (∀ a, (spec1 w).reads a = true → i a = i' a) → ix1 pf w i = ix1 pf w i' := fun pf => fun | 0 => hreads1_0 pf | 1 => hreads1_1 pf | 2 => hreads1_2 pf | 3 => hreads1_3 pf | ⟨_ + 4, h⟩ => absurd h (Nat.not_lt.2 (Nat.le_add_left _ _))
def ok1 (pf : pre1.Contents (Elt F)) : Prop :=
  (∀ i : grid1.Coords, ∃ h : (∀ a, (cc1_transform_0 k1_off1_inb numel1_S1x1 pf i a + 1) * S1024x1024.size a ≤ S4096x3072.size a), EltTy.bits .bf16 = 32 ∨ (Rect.block (s := S4096x3072) S1024x1024.size (cc1_transform_0 k1_off1_inb numel1_S1x1 pf i) h).WholeWords (EltTy.packing .bf16)) ∧
  (∀ i : grid1.Coords, ∃ h : (∀ a, (cc1_transform_1 k1_off1_inb numel1_S1x1 pf i a + 1) * S512x1024.size a ≤ S4096x3072.size a), EltTy.bits .bf16 = 32 ∨ (Rect.block (s := S4096x3072) S512x1024.size (cc1_transform_1 k1_off1_inb numel1_S1x1 pf i) h).WholeWords (EltTy.packing .bf16)) ∧
  (∀ i : grid1.Coords, ∃ h : (∀ a, (cc1_transform_2 k1_off1_inb numel1_S1x1 pf i a + 1) * S512x1024.size a ≤ S4096x3072.size a), EltTy.bits .bf16 = 32 ∨ (Rect.block (s := S4096x3072) S512x1024.size (cc1_transform_2 k1_off1_inb numel1_S1x1 pf i) h).WholeWords (EltTy.packing .bf16)) ∧
  (∀ i : grid1.Coords, ∃ h : (∀ a, (cc1_transform_3 k1_off1_inb numel1_S1x1 pf i a + 1) * S1024x1024.size a ≤ S4096x1024.size a), EltTy.bits .f32 = 32 ∨ (Rect.block (s := S4096x1024) S1024x1024.size (cc1_transform_3 k1_off1_inb numel1_S1x1 pf i) h).WholeWords (EltTy.packing .f32))
instance (pf : pre1.Contents (Elt F)) : Decidable (ok1 pf) := decidable_of_iff' _ (Iff.of_eq (ok1.eq_1 pf))
theorem hinb1 : ∀ (pf : pre1.Contents (Elt F)), ok1 pf → ∀ w (i : grid1.Coords) a, (ix1 pf w i a + 1) * (spec1 w).size a ≤ (spec1 w).shape.size a :=
  fun pf hok => fun | 0 => fun i a => (hok.1 i).elim fun h _ => h a | 1 => fun i a => (hok.2.1 i).elim fun h _ => h a | 2 => fun i a => (hok.2.2.1 i).elim fun h _ => h a | 3 => fun i a => (hok.2.2.2 i).elim fun h _ => h a | ⟨_ + 4, h⟩ => absurd h (Nat.not_lt.2 (Nat.le_add_left _ _))
theorem hwx1 : ∀ (pf : pre1.Contents (Elt F)) (hok : ok1 pf) w (i : grid1.Coords), (spec1 w).elt.bits = 32 ∨ (Rect.block (spec1 w).size (ix1 pf w i) (hinb1 pf hok w i)).WholeWords (spec1 w).elt.packing :=
  fun pf hok => fun | 0 => fun i => (hok.1 i).elim fun _ h => h | 1 => fun i => (hok.2.1 i).elim fun _ h => h | 2 => fun i => (hok.2.2.1 i).elim fun _ h => h | 3 => fun i => (hok.2.2.2 i).elim fun _ h => h | ⟨_ + 4, h⟩ => absurd h (Nat.not_lt.2 (Nat.le_add_left _ _))
abbrev idle1 (pf : pre1.Contents (Elt F)) : Fin 4 → grid1.Coords → Bool := fun | 0 => fun _ => false | 1 => fun _ => false | 2 => fun _ => false | 3 => fun i => !(k1_cond2 (pf.atD 3 (k1_off1 i)) == 1#1) | ⟨_ + 4, h⟩ => absurd h (Nat.not_lt.2 (Nat.le_add_left _ _))

class Facts : Prop extends Facts₀ where
  harr1 : ∀ w, (spec1 w).arr.IsWhole

variable [Facts]
-- ==== ReferenceIdeal.lean ====
abbrev S4096x1024 : Shape := ⟨2, ![4096, 1024]⟩
abbrev S1024x1024 : Shape := ⟨2, ![1024, 1024]⟩
abbrev S1024x4096 : Shape := ⟨2, ![1024, 4096]⟩
abbrev S4096x4096 : Shape := ⟨2, ![4096, 4096]⟩
abbrev S_ : Shape := ⟨0, ![]⟩
abbrev S4096 : Shape := ⟨1, ![4096]⟩
abbrev S4096x1 : Shape := ⟨2, ![4096, 1]⟩

abbrev nBuf : Space → Nat
  | .hbm => 45
  | .vmem => 0
  | .smem => 0
  | _ => 0

abbrev bufTy : (tb : Table) → Fin (tcTables nBuf tb) → BufTy
  | .hbm, ⟨0, _⟩ => ⟨S4096x1024, .f32⟩
  | .hbm, ⟨1, _⟩ => ⟨S1024x1024, .f32⟩
  | .hbm, ⟨2, _⟩ => ⟨S1024x1024, .f32⟩
  | .hbm, ⟨3, _⟩ => ⟨S1024x1024, .f32⟩
  | .hbm, ⟨4, _⟩ => ⟨S4096x1024, .f32⟩
  | .hbm, ⟨5, _⟩ => ⟨S4096x1024, .f32⟩
  | .hbm, ⟨6, _⟩ => ⟨S4096x1024, .f32⟩
  | .hbm, ⟨7, _⟩ => ⟨S1024x4096, .f32⟩
  | .hbm, ⟨8, _⟩ => ⟨S4096x4096, .f32⟩
  | .hbm, ⟨9, _⟩ => ⟨S_, .i1⟩
  | .hbm, ⟨10, _⟩ => ⟨S4096x4096, .i1⟩
  | .hbm, ⟨11, _⟩ => ⟨S4096x4096, .i32⟩
  | .hbm, ⟨12, _⟩ => ⟨S_, .i32⟩
  | .hbm, ⟨13, _⟩ => ⟨S4096x4096, .i32⟩
  | .hbm, ⟨14, _⟩ => ⟨S4096x4096, .i32⟩
  | .hbm, ⟨15, _⟩ => ⟨S4096x4096, .i32⟩
  | .hbm, ⟨16, _⟩ => ⟨S4096x4096, .i1⟩
  | .hbm, ⟨17, _⟩ => ⟨S_, .i1⟩
  | .hbm, ⟨18, _⟩ => ⟨S4096x4096, .i1⟩
  | .hbm, ⟨19, _⟩ => ⟨S4096x4096, .i1⟩
  | .hbm, ⟨20, _⟩ => ⟨S_, .f32⟩
  | .hbm, ⟨21, _⟩ => ⟨S_, .f32⟩
  | .hbm, ⟨22, _⟩ => ⟨S4096x4096, .f32⟩
  | .hbm, ⟨23, _⟩ => ⟨S4096x4096, .f32⟩
  | .hbm, ⟨24, _⟩ => ⟨S_, .f32⟩
  | .hbm, ⟨25, _⟩ => ⟨S_, .f32⟩
  | .hbm, ⟨26, _⟩ => ⟨S_, .f32⟩
  | .hbm, ⟨27, _⟩ => ⟨S_, .f32⟩
  | .hbm, ⟨28, _⟩ => ⟨S4096x4096, .f32⟩
  | .hbm, ⟨29, _⟩ => ⟨S4096x4096, .f32⟩
  | .hbm, ⟨30, _⟩ => ⟨S_, .f32⟩
  | .hbm, ⟨31, _⟩ => ⟨S4096, .f32⟩
  | .hbm, ⟨32, _⟩ => ⟨S_, .f32⟩
  | .hbm, ⟨33, _⟩ => ⟨S4096, .f32⟩
  | .hbm, ⟨34, _⟩ => ⟨S4096, .f32⟩
  | .hbm, ⟨35, _⟩ => ⟨S4096x1, .f32⟩
  | .hbm, ⟨36, _⟩ => ⟨S4096x4096, .f32⟩
  | .hbm, ⟨37, _⟩ => ⟨S4096x4096, .f32⟩
  | .hbm, ⟨38, _⟩ => ⟨S4096x4096, .f32⟩
  | .hbm, ⟨39, _⟩ => ⟨S_, .f32⟩
  | .hbm, ⟨40, _⟩ => ⟨S4096, .f32⟩
  | .hbm, ⟨41, _⟩ => ⟨S4096x1, .f32⟩
  | .hbm, ⟨42, _⟩ => ⟨S4096x4096, .f32⟩
  | .hbm, ⟨43, _⟩ => ⟨S4096x4096, .f32⟩
  | .hbm, ⟨44, _⟩ => ⟨S4096x1024, .f32⟩
  | _, _ => ⟨S4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c : Ref sig .tc := ⟨.hbm, 9, rfl⟩
abbrev main_v5 : Ref sig .tc := ⟨.hbm, 10, rfl⟩
abbrev main_call0_v0 : Ref sig .tc := ⟨.hbm, 11, rfl⟩
abbrev main_call0_c : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_call0_c_0 : Ref sig .tc := ⟨.hbm, 17, rfl⟩
abbrev main_call0_v5 : Ref sig .tc := ⟨.hbm, 18, rfl⟩
abbrev main_v6 : Ref sig .tc := ⟨.hbm, 19, rfl⟩
abbrev main_cst : Ref sig .tc := ⟨.hbm, 20, rfl⟩
abbrev main_call1_v0 : Ref sig .tc := ⟨.hbm, 21, rfl⟩
abbrev main_call1_v1 : Ref sig .tc := ⟨.hbm, 22, rfl⟩
abbrev main_v7 : Ref sig .tc := ⟨.hbm, 23, rfl⟩
abbrev main_cst_0 : Ref sig .tc := ⟨.hbm, 24, rfl⟩
abbrev main_v8 : Ref sig .tc := ⟨.hbm, 25, rfl⟩
abbrev main_cst_1 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_cst_2 : Ref sig .tc := ⟨.hbm, 30, rfl⟩
abbrev main_v12 : Ref sig .tc := ⟨.hbm, 31, rfl⟩
abbrev main_cst_3 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_cst_4 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩

abbrev nD : Nat := 1
abbrev τ : Topo := Topo.v7x

variable {F : FTy → Type} [FloatOps F]

class Facts₀ : Prop where
  transposes_S4096x1024_S1024x4096_1_0 : S4096x1024.Transposes [1, 0] S1024x4096
  bcast_S_S4096x4096 : S_.BroadcastsInDim S4096x4096 (![] : Fin 0 → Fin S4096x4096.rank)
  reducesTo_S4096x4096_S4096_d1 : S4096x4096.ReducesTo [1] S4096
  h_S_ : 0 < S_.numel
  bcast_S_S4096 : S_.BroadcastsInDim S4096 (![] : Fin 0 → Fin S4096.rank)
  bcast_S4096_S4096x1_0 : S4096.BroadcastsInDim S4096x1 (![0] : Fin 1 → Fin S4096x1.rank)
  bcast_S4096x1_S4096x4096_0_1 : S4096x1.BroadcastsInDim S4096x4096 (![0, 1] : Fin 2 → Fin S4096x4096.rank)
  dot_S4096x1024_S1024x1024_S4096x1024_1_0_0_1_n_n_wf : DotDims.WF S4096x1024 S1024x1024 S4096x1024 [1] [0] [0] [1] [] []
  dot_S4096x1024_S1024x4096_S4096x4096_1_0_0_1_n_n_wf : DotDims.WF S4096x1024 S1024x4096 S4096x4096 [1] [0] [0] [1] [] []
  dot_S4096x4096_S4096x1024_S4096x1024_1_0_0_1_n_n_wf : DotDims.WF S4096x4096 S4096x1024 S4096x1024 [1] [0] [0] [1] [] []

variable [Facts₀]

def dot_S4096x1024_S1024x1024_S4096x1024_1_0_0_1_n_n : DotDims S4096x1024 S1024x1024 S4096x1024 where
  lhsContracting := [1]
  rhsContracting := [0]
  lhsNonContracting := [0]
  rhsNonContracting := [1]
  lhsBatch := []
  rhsBatch := []
  wf := dot_S4096x1024_S1024x1024_S4096x1024_1_0_0_1_n_n_wf
def dot_S4096x1024_S1024x4096_S4096x4096_1_0_0_1_n_n : DotDims S4096x1024 S1024x4096 S4096x4096 where
  lhsContracting := [1]
  rhsContracting := [0]
  lhsNonContracting := [0]
  rhsNonContracting := [1]
  lhsBatch := []
  rhsBatch := []
  wf := dot_S4096x1024_S1024x4096_S4096x4096_1_0_0_1_n_n_wf
def dot_S4096x4096_S4096x1024_S4096x1024_1_0_0_1_n_n : DotDims S4096x4096 S4096x1024 S4096x1024 where
  lhsContracting := [1]
  rhsContracting := [0]
  lhsNonContracting := [0]
  rhsNonContracting := [1]
  lhsBatch := []
  rhsBatch := []
  wf := dot_S4096x4096_S4096x1024_S4096x1024_1_0_0_1_n_n_wf

class Facts : Prop extends Facts₀ where

variable [Facts]
-- ==== Proof.K.Step.lean ====
/-
  One grid point of the attention kernel as pure functions of what it reads: the query block, the key and value
  blocks, the two schedule words that place the blocks (the query block's and the key block's number), and the three
  running quantities a row carries from one key block to the next — the running maximum, the running denominator
  and the running numerator. `stepM`, `stepL`, `stepA` are what the point stores back into the three; `outO` is the
  quotient stored into the output block at the last key block of a query block. At the first key block of a query
  block the three start from `initM` (the mask value), `initL` and `initA` (zeros).
-/
import proofs.«415724_j60610578481678_3_alg».proof.Proof.Gen.Kernel.Launch
import proofs.«415724_j60610578481678_3_alg».proof.Proof.Gen.Kernel.Points
import proofs.«415724_j60610578481678_3_alg».proof.Proof.Gen.Kernel.Skeleton
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The running maximum, denominator and numerator a query block starts from. -/
def initM : Vec F S1024x1 .f32 := k1_pay6 (F := F)
def initL : Vec F S1024x1 .f32 := k1_pay7 (F := F)
def initA : Vec F S1024x1024 .f32 := k1_pay8 (F := F)

/-- The masked, scaled scores of the point: query block against key block, placed by the two schedule words. -/
def scoreB (w2 w5 : Elt F .i32) (q : Vec F S1024x1024 .bf16) (k : Vec F S512x1024 .bf16) : Vec F S1024x512 .f32 :=
  k1_pay10 w2 w5 q k

/-- The running maximum after the point. -/
def stepM (w2 w5 : Elt F .i32) (q : Vec F S1024x1024 .bf16) (k : Vec F S512x1024 .bf16) (mm : Vec F S1024x1 .f32) : Vec F S1024x1 .f32 :=
  k1_pay4 (k1_pay11 w2 w5 q k mm)

/-- The running denominator after the point. -/
def stepL (w2 w5 : Elt F .i32) (q : Vec F S1024x1024 .bf16) (k : Vec F S512x1024 .bf16) (mm ll : Vec F S1024x1 .f32) : Vec F S1024x1 .f32 :=
  k1_pay2 (k1_pay10 w2 w5 q k) (k1_pay11 w2 w5 q k mm) (k1_pay12 w2 w5 q k mm) ll

/-- The running numerator after the point. -/
def stepA (w2 w5 : Elt F .i32) (q : Vec F S1024x1024 .bf16) (k v : Vec F S512x1024 .bf16) (mm : Vec F S1024x1 .f32)
    (acc : Vec F S1024x1024 .f32) : Vec F S1024x1024 .f32 :=
  k1_pay3 (k1_pay9 v) (k1_pay10 w2 w5 q k) (k1_pay11 w2 w5 q k mm) (k1_pay12 w2 w5 q k mm) acc

/-- The output block: numerator over denominator. -/
def outO (acc : Vec F S1024x1024 .f32) (ll : Vec F S1024x1 .f32) : Vec F S1024x1024 .f32 := k1_pay5 acc ll

/-! ## The schedule tables as the body is handed them -/

/-- Each table's whole buffer as a memref. -/
abbrev tbM0 : Memref sig .tc .smem S2x10 .i32 := Memref.whole main_c
abbrev tbM1 : Memref sig .tc .smem S2x10 .i32 := Memref.whole main_c_0
abbrev tbM2 : Memref sig .tc .smem S2x10 .i32 := Memref.whole main_c_1
abbrev tbM3 : Memref sig .tc .smem S2x10 .i32 := Memref.whole main_c_2

/-- A table's contents type on core `c`, and the table held whole at contents `f`. -/
abbrev TbBuf (c : Dev nD) (M : Memref sig .tc .smem S2x10 .i32) : Type := Buf (Elt F) (M.view.loc (c : Thread nD τ))
abbrev tbPt (c : Dev nD) (M : Memref sig .tc .smem S2x10 .i32) (f : TbBuf (F := F) c M) : sProp 𝕄 :=
  M.view.loc (c : Thread nD τ) ↦{fullShare} f

/-- The cell of a table the body reads at grid point `i`: row = the core axis, column = the step axis. -/
abbrev rW (i : grid1.Coords) : Rect S2x10 := Rect.unit (s := S2x10) (k1_off1 i) S1x1.size (k1_off1_inb i)

/-- The word of table `M`, held at `xt`, that the body loads at grid point `i`. -/
abbrev tword (c : Dev nD) (M : Memref sig .tc .smem S2x10 .i32) (xt : TbBuf (F := F) c M) (i : grid1.Coords) : Elt F .i32 :=
  M.view.readAt (Elt F) (rW i).toLoadRect xt (Shape.Idx.first (numel1_S1x1.symm ▸ Nat.one_pos))

/-- The body's two branch conditions as functions of the words it loads: "first key block of the query block" and
    "last key block of the query block". -/
abbrev condF (w8 : BitVec 32) : Prop := Scalar.cmpi .ne (Scalar.extui (Scalar.cmpi .eq w8 1#32)) 0#32 = 1#1
abbrev condL (w11 : BitVec 32) : Prop := k1_cond2 w11 = 1#1

end Cert.Kernel.Hand

end
-- ==== Proof.K.Region0.lean ====
/-
  The first call of the program, one projection: each of its 8 grid points multiplies a block of 512 rows of the
  input (f32, rounded to bf16) by the whole weight (bf16, 1024 × 3072) and stores the product, rounded to bf16, as a
  block of 512 rows of the output. This module states, for ANY contents `V` of the core's buffers when the call is
  entered, what each of the three windows holds at each point, what the body leaves in the output window's buffer —
  the matrix product of the two input blocks —, and proves the body's triple and the pipeline's body obligation
  from it. The inputs are left as found: the row block is fetched at every point, the weight once, at the first.
-/
import proofs.«415724_j60610578481678_3_alg».proof.Proof.K.Step
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current buffer holds its block at every point, for any proof data whose array is
    `V`'s and whose body leaves the block in place: the window is an input, uncut and never idle, so where it is
    not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the weight window, which is fetched at the first point only: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The offsets of every access are zero. -/
theorem hz0 : (![0, 0] : Fin 2 → Nat) = fun _ => 0 := funext fun a => by fin_cases a <;> rfl

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output window's buffer -/

/-- The output buffer after the body, from the two input blocks: the rounded product. -/
def out0_2 (x0 : Vec F S512x1024 .f32) (x1 : Vec F S1024x3072 .bf16) : Vec F S512x3072 .bf16 := k0_pay1 x0 x1

/-- The same as the body's one store leaves it: one piece, the whole buffer, its payload computed from the two
    whole-buffer loads. -/
def out0_2c (x0 : Vec F S512x1024 .f32) (x1 : Vec F S1024x3072 .bf16) : Vec F S512x3072 .bf16 :=
  View.canon [⟨r0_2, k0_pay1 (View.ld x0 r0_0) (View.ld x1 r0_1)⟩]

/-- One store through the whole buffer leaves its payload, and a load through a whole buffer reads its contents. -/
theorem out0_2c_eq (x0 : Vec F S512x1024 .f32) (x1 : Vec F S1024x3072 .bf16) : out0_2c x0 x1 = out0_2 x0 x1 := by
  unfold out0_2c out0_2
  rw [View.canon_unit_zero hz0, View.ld_unit_zero (S := S512x1024) hz0, View.ld_unit_zero (S := S1024x3072) hz0]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  ⟨_, List.mem_singleton_self _, View.mem_set_unit_zero hz0 inb_S512x3072_S512x3072_0_0 y⟩

/-! ## The body's triple -/

set_option maxHeartbeats 1000000 in
/-- The body on whole staging memrefs, the two inputs' at contents `x0`, `x1` and the output's at anything, runs to
    the continuation holding the inputs' as they were and the output's at `out0_2 x0 x1`. -/
theorem sound_kernel0 (c : Dev nD) (E : Set ℕ) (i : grid0.Coords)
    (arg0 : Memref sig .tc .vmem S512x1024 .f32) (harg0 : arg0.IsWhole)
    (arg1 : Memref sig .tc .vmem S1024x3072 .bf16) (harg1 : arg1.IsWhole)
    (arg2 : Memref sig .tc .vmem S512x3072 .bf16) (harg2 : arg2.IsWhole)
    (x0 : Vec F S512x1024 .f32) (x1 : Vec F S1024x3072 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine Eq.trans (b := out0_2c (arg0.view.read (Elt F) f0) (arg1.view.read (Elt F) f1)) ?_ (out0_2c_eq _ _)
  exact View.read_writes_eq_canon _ _ _ (cover0_2 _)

/-! ## The pipeline's proof data -/

/-- The proof data of the call on core `c`: the arrays as the call finds them; after the body at point `t` each
    input's buffer at its block and the output's at the product of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.Kernel.Hand

end
-- ==== Proof.K.Tables.lean ====
/-
  The attention kernel's schedule. The second pallas_call walks a grid of 2 × 10 points; four small integer tables,
  written by the host as constants, say for each point which query block (1024 rows) and which key block (512 rows)
  it works on and whether the key block is the first or the last one of its query block. Flattened in grid order the
  twenty points visit query blocks 0, 0, 3 × 8, 1 × 4, 2 × 6 with key blocks 0..1, 0..7, 0..3, 0..5: every query
  block `qi` meets exactly the key blocks `0 … 2·qi + 1`, in order, the first flagged "first" and the last flagged "last".
  Here: the tables as contents, that every block they select lies inside its array, and the four words at each point
  in closed form.
-/
import proofs.«415724_j60610578481678_3_alg».proof.Proof.K.Step
import Idealize.ShloMosaic.PureOps.Ideal

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The four schedule tables as the host writes them. -/
def tbl : pre1.Contents (Elt F) := fun
  | 0 => fun i => lit0 (S2x10.rowMajor i)
  | 1 => fun i => lit1 (S2x10.rowMajor i)
  | 2 => fun i => lit2 (S2x10.rowMajor i)
  | 3 => fun i => lit3 (S2x10.rowMajor i)

/-- Every block the tables select lies inside its array, whole words at both ends: decided over the twenty points
    (the tables' words do not depend on the float instance, so it is decided at one). -/
theorem ok_tblI : ok1 (F := Ideal) tbl := by
  decide +kernel

theorem ok_tbl : ok1 (F := F) tbl := ok_tblI

/-- The admissible tables of the two pipelines: none for the projection, the schedule for the attention. -/
def adm : (p : Fin 2) → (pcfgs (F := F) p).Adm
  | ⟨0, _⟩ => cfg0.toPCfg_adm
  | ⟨1, _⟩ => ⟨tbl, ok_tbl⟩

/-- The attention pipeline at the schedule. -/
abbrev cfgA : Pipeline.Cfg sig Λ₀ := cfg1 (F := F) ⟨tbl, ok_tbl⟩

/-- It has twenty points. -/
theorem NA : (cfgA (F := F)).N = 20 := N_1

/-- The four words at point `n` (query block, key block, first, last), in grid order. -/
def wQ (n : ℕ) : BitVec 32 := ([0, 0, 3, 3, 3, 3, 3, 3, 3, 3, 1, 1, 1, 1, 2, 2, 2, 2, 2, 2] : List (BitVec 32)).getD n 0#32
def wK (n : ℕ) : BitVec 32 := ([0, 1, 0, 1, 2, 3, 4, 5, 6, 7, 0, 1, 2, 3, 0, 1, 2, 3, 4, 5] : List (BitVec 32)).getD n 0#32
def wF (n : ℕ) : BitVec 32 := ([1, 0, 1, 0, 0, 0, 0, 0, 0, 0, 1, 0, 0, 0, 1, 0, 0, 0, 0, 0] : List (BitVec 32)).getD n 0#32
def wL (n : ℕ) : BitVec 32 := ([0, 1, 0, 0, 0, 0, 0, 0, 0, 1, 0, 0, 0, 1, 0, 0, 0, 0, 0, 1] : List (BitVec 32)).getD n 0#32

/-- The table cell the body reads at point `t`, as an index of the table. -/
abbrev cellAt (t : Fin grid1.N) : S2x10.Idx :=
  (rW (grid1.coords t)).emb (Shape.Idx.first (Gen.numel1_S1x1.symm ▸ Nat.one_pos))

/-- The literal tables at that cell are the closed forms (no float instance in sight: decided). -/
theorem lit0_at : ∀ t : Fin grid1.N, lit0 (S2x10.rowMajor (cellAt t)) = wQ t.val := by decide +kernel
theorem lit1_at : ∀ t : Fin grid1.N, lit1 (S2x10.rowMajor (cellAt t)) = wK t.val := by decide +kernel
theorem lit2_at : ∀ t : Fin grid1.N, lit2 (S2x10.rowMajor (cellAt t)) = wF t.val := by decide +kernel
theorem lit3_at : ∀ t : Fin grid1.N, lit3 (S2x10.rowMajor (cellAt t)) = wL t.val := by decide +kernel

/-- So the words the body loads at point `t` from the tables held at `tbl` are the closed forms. -/
theorem tword0 (c : Dev nD) (t : Fin grid1.N) : tword (F := F) c tbM0 (tbl 0) (grid1.coords t) = wQ t.val := lit0_at t
theorem tword1 (c : Dev nD) (t : Fin grid1.N) : tword (F := F) c tbM1 (tbl 1) (grid1.coords t) = wK t.val := lit1_at t
theorem tword2 (c : Dev nD) (t : Fin grid1.N) : tword (F := F) c tbM2 (tbl 2) (grid1.coords t) = wF t.val := lit2_at t
theorem tword3 (c : Dev nD) (t : Fin grid1.N) : tword (F := F) c tbM3 (tbl 3) (grid1.coords t) = wL t.val := lit3_at t

/-- The two branch conditions at each point, decided: "first" at points 0, 2, 10, 14; "last" at points 1, 9, 13, 19. -/
theorem condF_iff : ∀ n : Fin 20, condF (wF n.val) ↔ (n.val = 0 ∨ n.val = 2 ∨ n.val = 10 ∨ n.val = 14) := by decide +kernel
theorem condL_iff : ∀ n : Fin 20, condL (wL n.val) ↔ (n.val = 1 ∨ n.val = 9 ∨ n.val = 13 ∨ n.val = 19) := by decide +kernel
theorem wF_eq_one_iff : ∀ n : Fin 20, wF n.val = 1#32 ↔ (n.val = 0 ∨ n.val = 2 ∨ n.val = 10 ∨ n.val = 14) := by decide +kernel

end Cert.Kernel.Hand

end
-- ==== Proof.K.Data1.lean ====
/-
  The attention region's proof data: what each window's staging buffer holds after the body at each of the twenty
  points, and the region's invariant between points. The three input windows (query, key and value blocks, all cut
  from the one projected array, which the three hold at a third of its share each) are left as found. The three
  scratch buffers carry a query block's running numerator, maximum and denominator from one key block to the next:
  `sc1 n` is what they hold after `n` points, by recursion along the schedule — restarted where the schedule says
  "first", advanced by the point's step functions. The output window's buffer receives numerator / denominator at
  the points the schedule calls "last"; elsewhere the body does not touch it.
-/
import proofs.«415724_j60610578481678_3_alg».proof.Proof.K.Tables

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef spec1 w))

/-- The running numerator, maximum and denominator after `n` points. -/
def sc1 (c : Dev nD) : ℕ → Vec F S1024x1024 .f32 × Vec F S1024x1 .f32 × Vec F S1024x1 .f32
  | 0 => (initA, initM, initL)
  | n + 1 =>
    if h : n < (cfgA (F := F)).N then
      (stepA (wQ n) (wK n) (iblk1 V c 0 ⟨n, h⟩) (iblk1 V c 1 ⟨n, h⟩) (iblk1 V c 2 ⟨n, h⟩)
          (if wF n = 1#32 then initM else (sc1 c n).2.1) (if wF n = 1#32 then initA else (sc1 c n).1),
       stepM (wQ n) (wK n) (iblk1 V c 0 ⟨n, h⟩) (iblk1 V c 1 ⟨n, h⟩) (if wF n = 1#32 then initM else (sc1 c n).2.1),
       stepL (wQ n) (wK n) (iblk1 V c 0 ⟨n, h⟩) (iblk1 V c 1 ⟨n, h⟩)
          (if wF n = 1#32 then initM else (sc1 c n).2.1) (if wF n = 1#32 then initL else (sc1 c n).2.2))
    else sc1 c n

/-- The scratch buffers as memrefs. -/
abbrev scM0 : Memref sig .tc .vmem S1024x1024 .f32 := Memref.whole cc1_scratch0
abbrev scM1 : Memref sig .tc .vmem S1024x1 .f32 := Memref.whole cc1_scratch1
abbrev scM2 : Memref sig .tc .vmem S1024x1 .f32 := Memref.whole cc1_scratch2

/-- The first pallas_call's staging buffers, which this region never touches: each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `n`: the three scratch buffers — at anything before the first point, afterwards at
    what the points so far left (`sc1 n`) —, the four tables at the schedule, the untouched staging buffers. -/
def Phi1 (c : Dev nD) (n : ℕ) : sProp 𝕄 :=
  iprop((∃ (a : Vec F S1024x1024 .f32) (mm ll : Vec F S1024x1 .f32), ⌜n ≠ 0 → a = (sc1 V c n).1 ∧ mm = (sc1 V c n).2.1 ∧ ll = (sc1 V c n).2.2⌝
      ∗ owns (c : Thread nD τ) scM0 fullShare a ∗ owns (c : Thread nD τ) scM1 fullShare mm ∗ owns (c : Thread nD τ) scM2 fullShare ll)
    ∗ tbPt c tbM0 (tbl 0) ∗ tbPt c tbM1 (tbl 1) ∗ tbPt c tbM2 (tbl 2) ∗ tbPt c tbM3 (tbl 3)
    ∗ otherStaging c)

/-- The proof data of the attention pipeline on core `c`. -/
def dat1 (c : Dev nD) : Dat τ (Elt F) Unit ℕ (UR sig nD τ) ℕ (cfgA (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (sc1 V c (t.val + 1)).1 (sc1 V c (t.val + 1)).2.2
  Φ t := Phi1 V c t.val
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin (cfgA (F := F)).W) : (dat1 V c).A w = V c (Pipeline.arrRef spec1 w) := by
  dsimp only [dat1]

theorem after1_0 (c : Dev nD) (t : Fin (cfgA (F := F)).N) : (dat1 V c).after 0 t = iblk1 V c 0 t := by dsimp only [dat1]; rfl
theorem after1_1 (c : Dev nD) (t : Fin (cfgA (F := F)).N) : (dat1 V c).after 1 t = iblk1 V c 1 t := by dsimp only [dat1]; rfl
theorem after1_2 (c : Dev nD) (t : Fin (cfgA (F := F)).N) : (dat1 V c).after 2 t = iblk1 V c 2 t := by dsimp only [dat1]; rfl
theorem after1_3 (c : Dev nD) (t : Fin (cfgA (F := F)).N) :
    (dat1 V c).after 3 t = outO (sc1 V c (t.val + 1)).1 (sc1 V c (t.val + 1)).2.2 := by dsimp only [dat1]; rfl
theorem Phi1_eq (c : Dev nD) (t : Fin ((cfgA (F := F)).N + 1)) : (dat1 V c).Φ t = Phi1 V c t.val := rfl
theorem owed1 (c : Dev nD) (t : Fin ((cfgA (F := F)).N + 1)) : (dat1 V c).owed t = 0 := rfl

/-- One step of the recursion, spelt out. -/
theorem sc1_succ (c : Dev nD) (n : ℕ) (h : n < (cfgA (F := F)).N) :
    sc1 V c (n + 1) =
      (stepA (wQ n) (wK n) (iblk1 V c 0 ⟨n, h⟩) (iblk1 V c 1 ⟨n, h⟩) (iblk1 V c 2 ⟨n, h⟩)
          (if wF n = 1#32 then initM else (sc1 V c n).2.1) (if wF n = 1#32 then initA else (sc1 V c n).1),
       stepM (wQ n) (wK n) (iblk1 V c 0 ⟨n, h⟩) (iblk1 V c 1 ⟨n, h⟩) (if wF n = 1#32 then initM else (sc1 V c n).2.1),
       stepL (wQ n) (wK n) (iblk1 V c 0 ⟨n, h⟩) (iblk1 V c 1 ⟨n, h⟩)
          (if wF n = 1#32 then initM else (sc1 V c n).2.1) (if wF n = 1#32 then initL else (sc1 V c n).2.2)) := by
  rw [sc1, dif_pos h]

end Cert.Kernel.Hand

end
-- ==== Proof.K.Chain.lean ====
/-
  The contents of the TensorCore's buffers at the three boundaries of @main — after the host operations that write
  the schedule tables and lay the three weight matrices side by side (`W1`), after the projection region, which
  changes only the projected array (`W2`), after the attention region, which changes only the result (`W3`) — and
  the run of the whole program to the last of them.
-/
import proofs.«415724_j60610578481678_3_alg».proof.Proof.K.Region0
import proofs.«415724_j60610578481678_3_alg».proof.Proof.K.Data1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev W0 (c : Dev nD) : Valuation τ sig (Elt F) := fun b => m (c, b)
/-- after the host operations, -/
abbrev W1 (c : Dev nD) : Valuation τ sig (Elt F) := StableHlo.after hostOps0 (W0 m c)
/-- the same read at the TensorCore's references: what the projection region is entered with, -/
abbrev V1 : (c : Dev nD) → (b : Ref sig .tc) → Buf (Elt F) ((c : Thread nD τ).loc b) := fun c b => W1 m c b
/-- after the projection region: the projected array at what its write-backs leave, -/
def W2 (c : Dev nD) : Valuation τ sig (Elt F) :=
  Function.update (W1 m c) main_v2 ((dat0 (V1 m) c).arrAt 2 cfg0.N)
abbrev V2 : (c : Dev nD) → (b : Ref sig .tc) → Buf (Elt F) ((c : Thread nD τ).loc b) := fun c b => W2 m c b
/-- after the attention region: the result at what its write-backs leave. -/
def W3 (c : Dev nD) : Valuation τ sig (Elt F) :=
  Function.update (W2 m c) main_v3 ((dat1 (V2 m) c).arrAt 3 (cfgA (F := F)).N)

theorem W2_v2 (c : Dev nD) : W2 m c main_v2 = (dat0 (V1 m) c).arrAt 2 cfg0.N := by
  unfold W2; exact Function.update_self ..
theorem W2_of_ne (c : Dev nD) (b : Ref sig .tc) (h : b ≠ main_v2) : W2 m c b = W1 m c b := by
  unfold W2; exact Function.update_of_ne (StableHlo.devRef_ne_of_ne h) ..
theorem W3_v3 (c : Dev nD) : W3 m c main_v3 = (dat1 (V2 m) c).arrAt 3 (cfgA (F := F)).N := by
  unfold W3; exact Function.update_self ..
theorem W3_of_ne (c : Dev nD) (b : Ref sig .tc) (h : b ≠ main_v3) : W3 m c b = W2 m c b := by
  unfold W3; exact Function.update_of_ne (StableHlo.devRef_ne_of_ne h) ..

/-- The two pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

end Cert.Kernel.Hand

end
-- ==== Proof.K.Reg1Aux.lean ====
/-
  The attention region's invariant at its two ends. At entry the region is handed the four schedule tables, each held
  whole, and the core's scoped buffers that are no staging buffer of its own: the five staging buffers of the
  projection and the three scratch buffers, each whole at some contents. That is the invariant before the first point:
  there the scratch buffers may hold anything (the fact about them is stated only after at least one point). After
  any number of points the invariant gives the same resources back, the scratch contents forgotten.
-/
import proofs.«415724_j60610578481678_3_alg».proof.Proof.K.Data1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (V : (c : Dev nD) → (b : Ref sig .tc) → Buf (Elt F) ((c : Thread nD τ).loc b))

/-- The four tables held whole, one by one. -/
private theorem prefHeld1_eq (c : Dev nD) :
    (Pipeline.prefHeld pre1 c (fun _ => fullShare) (tbl (F := F)) : sProp 𝕄)
      = iprop(tbPt c tbM0 (tbl 0) ∗ tbPt c tbM1 (tbl 1) ∗ tbPt c tbM2 (tbl 2) ∗ tbPt c tbM3 (tbl 3)) := by
  unfold Pipeline.prefHeld
  rw [bigSep_W1]
  rfl

/-- What the region is handed at entry is its invariant before the first point. -/
theorem reg1_hin (c : Dev nD) :
    iprop(Pipeline.prefHeld pre1 c (fun _ => fullShare) (tbl (F := F))
        ∗ Pipeline.scopedRest (Ix := Unit) (Name := ℕ) (U := UR sig nD τ) (Lvl := ℕ) spec1 c) ⊢ (Phi1 V c 0 : sProp 𝕄) := by
  rw [prefHeld1_eq, scopedRest1_eq]
  unfold Phi1 otherStaging
  simp only [scM0, scM1, scM2, owns_whole]
  iintro ⟨⟨T0, T1, T2, T3⟩, S0, S1, S2, S3, S4, ⟨%a, A⟩, ⟨%mm, Mm⟩, ⟨%ll, Ll⟩⟩
  isplitl [A Mm Ll]
  · iexists a; iexists mm; iexists ll
    isplitr; · ipureintro; intro h; exact absurd rfl h
    isplitl [A]; · iexact A
    isplitl [Mm]; · iexact Mm
    iexact Ll
  isplitl [T0]; · iexact T0
  isplitl [T1]; · iexact T1
  isplitl [T2]; · iexact T2
  isplitl [T3]; · iexact T3
  isplitl [S0]; · iexact S0
  isplitl [S1]; · iexact S1
  isplitl [S2]; · iexact S2
  isplitl [S3]; · iexact S3
  iexact S4

/-- The invariant after any number of points gives back what the region was handed. -/
theorem reg1_hout (c : Dev nD) (n : ℕ) :
    (Phi1 V c n : sProp 𝕄) ⊢ iprop(Pipeline.prefHeld pre1 c (fun _ => fullShare) (tbl (F := F))
        ∗ Pipeline.scopedRest (Ix := Unit) (Name := ℕ) (U := UR sig nD τ) (Lvl := ℕ) spec1 c) := by
  rw [prefHeld1_eq, scopedRest1_eq]
  unfold Phi1 otherStaging
  simp only [scM0, scM1, scM2, owns_whole]
  iintro ⟨⟨%a, %mm, %ll, -, A, Mm, Ll⟩, T0, T1, T2, T3, S0, S1, S2, S3, S4⟩
  isplitl [T0 T1 T2 T3]
  · isplitl [T0]; · iexact T0
    isplitl [T1]; · iexact T1
    isplitl [T2]; · iexact T2
    iexact T3
  isplitl [S0]; · iexact S0
  isplitl [S1]; · iexact S1
  isplitl [S2]; · iexact S2
  isplitl [S3]; · iexact S3
  isplitl [S4]; · iexact S4
  isplitl [A]; · iexists a; iexact A
  isplitl [Mm]; · iexists mm; iexact Mm
  iexists ll; iexact Ll

end Cert.Kernel.Hand

end
-- ==== Proof.K.Run1.lean ====
/-
  One grid point of the attention kernel, run: the body's triple in each of its three control cases. The body reads four
  schedule words, starts the three running quantities afresh when the point is the first key block of its query
  block, reads the query block and the key and value blocks, replaces the running maximum, denominator and numerator
  by their updates, and at the last key block of the query block stores numerator over denominator into the output
  block. Every store replaces a WHOLE buffer, so each written buffer ends holding exactly one value: the step function
  of what the point read. Case A: first key block, not the last (the running quantities start from their initial
  values); case B: neither first nor last; case C: last, not first (the output block is written).
-/
import proofs.«415724_j60610578481678_3_alg».proof.Proof.K.Step
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The zero offsets of a rank-2 buffer, as the constant function. -/
private theorem hz : (![0, 0] : Fin 2 → Nat) = fun _ => 0 := funext fun a => by fin_cases a <;> rfl

/-- After a store of the whole buffer, whatever was stored before it, the buffer reads as the stored value. -/
private theorem read_writes_last {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- Case A, the first key block of a query block that is not its last: whatever the three running buffers held, they
    end holding the updates computed from the initial maximum, denominator and numerator; the inputs, the output
    block and the tables are as they were. -/
theorem run1_A (c : Dev nD) (i : grid1.Coords)
    (arg6 : Memref sig .tc .vmem S1024x1024 .bf16) (harg6 : arg6.IsWhole) (arg7 : Memref sig .tc .vmem S512x1024 .bf16) (harg7 : arg7.IsWhole)
    (arg8 : Memref sig .tc .vmem S512x1024 .bf16) (harg8 : arg8.IsWhole) (arg9 : Memref sig .tc .vmem S1024x1024 .f32) (harg9 : arg9.IsWhole)
    (arg10 : Memref sig .tc .vmem S1024x1024 .f32) (harg10 : arg10.IsWhole) (arg11 : Memref sig .tc .vmem S1024x1 .f32) (harg11 : arg11.IsWhole)
    (arg12 : Memref sig .tc .vmem S1024x1 .f32) (harg12 : arg12.IsWhole)
    (xt0 : TbBuf (F := F) c tbM0) (xt1 : TbBuf (F := F) c tbM1) (xt2 : TbBuf (F := F) c tbM2) (xt3 : TbBuf (F := F) c tbM3)
    (hF : condF (tword c tbM2 xt2 i)) (hL : ¬ condL (tword c tbM3 xt3 i))
    (q0 : Vec F S1024x1024 .bf16) (k0 v0 : Vec F S512x1024 .bf16) (o0 : Vec F S1024x1024 .f32) (E : Set ℕ) (K : PUnit → sProp 𝕄) :
    iprop(owns (c : Thread nD τ) arg6 fullShare q0 ∗ owns (c : Thread nD τ) arg7 fullShare k0 ∗ owns (c : Thread nD τ) arg8 fullShare v0
        ∗ owns (c : Thread nD τ) arg9 fullShare o0
        ∗ (∃ d, owns (c : Thread nD τ) arg10 fullShare d) ∗ (∃ d, owns (c : Thread nD τ) arg11 fullShare d) ∗ (∃ d, owns (c : Thread nD τ) arg12 fullShare d)
        ∗ tbPt c tbM0 xt0 ∗ tbPt c tbM1 xt1 ∗ tbPt c tbM2 xt2 ∗ tbPt c tbM3 xt3
        ∗ (iprop(owns (c : Thread nD τ) arg6 fullShare q0 ∗ owns (c : Thread nD τ) arg7 fullShare k0 ∗ owns (c : Thread nD τ) arg8 fullShare v0
            ∗ owns (c : Thread nD τ) arg9 fullShare o0
            ∗ owns (c : Thread nD τ) arg10 fullShare (stepA (tword c tbM0 xt0 i) (tword c tbM1 xt1 i) q0 k0 v0 initM initA)
            ∗ owns (c : Thread nD τ) arg11 fullShare (stepM (tword c tbM0 xt0 i) (tword c tbM1 xt1 i) q0 k0 initM)
            ∗ owns (c : Thread nD τ) arg12 fullShare (stepL (tword c tbM0 xt0 i) (tword c tbM1 xt1 i) q0 k0 initM initL)
            ∗ tbPt c tbM0 xt0 ∗ tbPt c tbM1 xt1 ∗ tbPt c tbM2 xt2 ∗ tbPt c tbM3 xt3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, HT0, HT1, HT2, HT3, Hk⟩
  obtain rfl := harg6.eq_unread hf6; obtain rfl := harg7.eq_unread hf7; obtain rfl := harg8.eq_unread hf8
  obtain rfl := harg9.eq_unread hf9
  sl_exec (disch := first | sl_exact hF | sl_exact hL)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    on_goal 2 => iexact H10
    ipureintro
    refine (read_writes_last _ _ hz _ _ _).trans ?_
    sl_unfold_run_names
    unfold stepA initM initA
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H11]
  · iexists _; isplitr
    on_goal 2 => iexact H11
    ipureintro
    refine (read_writes_last _ _ hz _ _ _).trans ?_
    sl_unfold_run_names
    unfold stepM initM
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H12]
  · iexists _; isplitr
    on_goal 2 => iexact H12
    ipureintro
    refine (read_writes_last _ _ hz _ _ _).trans ?_
    sl_unfold_run_names
    unfold stepL initM initL
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [HT0]; · iexact HT0
  isplitl [HT1]; · iexact HT1
  isplitl [HT2]; · iexact HT2
  iexact HT3

set_option maxHeartbeats 1000000 in
/-- Case B, a key block that is neither first nor last: the three running buffers, holding `a0`, `m0`, `l0`, end
    holding their updates; the inputs, the output block and the tables are as they were. -/
theorem run1_B (c : Dev nD) (i : grid1.Coords)
    (arg6 : Memref sig .tc .vmem S1024x1024 .bf16) (harg6 : arg6.IsWhole) (arg7 : Memref sig .tc .vmem S512x1024 .bf16) (harg7 : arg7.IsWhole)
    (arg8 : Memref sig .tc .vmem S512x1024 .bf16) (harg8 : arg8.IsWhole) (arg9 : Memref sig .tc .vmem S1024x1024 .f32) (harg9 : arg9.IsWhole)
    (arg10 : Memref sig .tc .vmem S1024x1024 .f32) (harg10 : arg10.IsWhole) (arg11 : Memref sig .tc .vmem S1024x1 .f32) (harg11 : arg11.IsWhole)
    (arg12 : Memref sig .tc .vmem S1024x1 .f32) (harg12 : arg12.IsWhole)
    (xt0 : TbBuf (F := F) c tbM0) (xt1 : TbBuf (F := F) c tbM1) (xt2 : TbBuf (F := F) c tbM2) (xt3 : TbBuf (F := F) c tbM3)
    (hF : ¬ condF (tword c tbM2 xt2 i)) (hL : ¬ condL (tword c tbM3 xt3 i))
    (q0 : Vec F S1024x1024 .bf16) (k0 v0 : Vec F S512x1024 .bf16) (o0 : Vec F S1024x1024 .f32)
    (a0 : Vec F S1024x1024 .f32) (m0 l0 : Vec F S1024x1 .f32) (E : Set ℕ) (K : PUnit → sProp 𝕄) :
    iprop(owns (c : Thread nD τ) arg6 fullShare q0 ∗ owns (c : Thread nD τ) arg7 fullShare k0 ∗ owns (c : Thread nD τ) arg8 fullShare v0
        ∗ owns (c : Thread nD τ) arg9 fullShare o0
        ∗ owns (c : Thread nD τ) arg10 fullShare a0 ∗ owns (c : Thread nD τ) arg11 fullShare m0 ∗ owns (c : Thread nD τ) arg12 fullShare l0
        ∗ tbPt c tbM0 xt0 ∗ tbPt c tbM1 xt1 ∗ tbPt c tbM2 xt2 ∗ tbPt c tbM3 xt3
        ∗ (iprop(owns (c : Thread nD τ) arg6 fullShare q0 ∗ owns (c : Thread nD τ) arg7 fullShare k0 ∗ owns (c : Thread nD τ) arg8 fullShare v0
            ∗ owns (c : Thread nD τ) arg9 fullShare o0
            ∗ owns (c : Thread nD τ) arg10 fullShare (stepA (tword c tbM0 xt0 i) (tword c tbM1 xt1 i) q0 k0 v0 m0 a0)
            ∗ owns (c : Thread nD τ) arg11 fullShare (stepM (tword c tbM0 xt0 i) (tword c tbM1 xt1 i) q0 k0 m0)
            ∗ owns (c : Thread nD τ) arg12 fullShare (stepL (tword c tbM0 xt0 i) (tword c tbM1 xt1 i) q0 k0 m0 l0)
            ∗ tbPt c tbM0 xt0 ∗ tbPt c tbM1 xt1 ∗ tbPt c tbM2 xt2 ∗ tbPt c tbM3 xt3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, HT1, HT2, HT3, Hk⟩
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12
  sl_exec (disch := first | sl_exact hF | sl_exact hL)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    on_goal 2 => iexact H10
    ipureintro
    refine (read_writes_last _ _ hz _ _ _).trans ?_
    sl_unfold_run_names
    unfold stepA
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz]
  isplitl [H11]
  · iexists _; isplitr
    on_goal 2 => iexact H11
    ipureintro
    refine (read_writes_last _ _ hz _ _ _).trans ?_
    sl_unfold_run_names
    unfold stepM
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz]
  isplitl [H12]
  · iexists _; isplitr
    on_goal 2 => iexact H12
    ipureintro
    refine (read_writes_last _ _ hz _ _ _).trans ?_
    sl_unfold_run_names
    unfold stepL
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz]
  isplitl [HT0]; · iexact HT0
  isplitl [HT1]; · iexact HT1
  isplitl [HT2]; · iexact HT2
  iexact HT3

set_option maxHeartbeats 1000000 in
/-- Case C, the last key block of a query block, not its first: the three running buffers end holding their updates,
    and the output block, whatever it held, ends holding the updated numerator over the updated denominator. -/
theorem run1_C (c : Dev nD) (i : grid1.Coords)
    (arg6 : Memref sig .tc .vmem S1024x1024 .bf16) (harg6 : arg6.IsWhole) (arg7 : Memref sig .tc .vmem S512x1024 .bf16) (harg7 : arg7.IsWhole)
    (arg8 : Memref sig .tc .vmem S512x1024 .bf16) (harg8 : arg8.IsWhole) (arg9 : Memref sig .tc .vmem S1024x1024 .f32) (harg9 : arg9.IsWhole)
    (arg10 : Memref sig .tc .vmem S1024x1024 .f32) (harg10 : arg10.IsWhole) (arg11 : Memref sig .tc .vmem S1024x1 .f32) (harg11 : arg11.IsWhole)
    (arg12 : Memref sig .tc .vmem S1024x1 .f32) (harg12 : arg12.IsWhole)
    (xt0 : TbBuf (F := F) c tbM0) (xt1 : TbBuf (F := F) c tbM1) (xt2 : TbBuf (F := F) c tbM2) (xt3 : TbBuf (F := F) c tbM3)
    (hF : ¬ condF (tword c tbM2 xt2 i)) (hL : condL (tword c tbM3 xt3 i))
    (q0 : Vec F S1024x1024 .bf16) (k0 v0 : Vec F S512x1024 .bf16)
    (a0 : Vec F S1024x1024 .f32) (m0 l0 : Vec F S1024x1 .f32) (E : Set ℕ) (K : PUnit → sProp 𝕄) :
    iprop(owns (c : Thread nD τ) arg6 fullShare q0 ∗ owns (c : Thread nD τ) arg7 fullShare k0 ∗ owns (c : Thread nD τ) arg8 fullShare v0
        ∗ (∃ d, owns (c : Thread nD τ) arg9 fullShare d)
        ∗ owns (c : Thread nD τ) arg10 fullShare a0 ∗ owns (c : Thread nD τ) arg11 fullShare m0 ∗ owns (c : Thread nD τ) arg12 fullShare l0
        ∗ tbPt c tbM0 xt0 ∗ tbPt c tbM1 xt1 ∗ tbPt c tbM2 xt2 ∗ tbPt c tbM3 xt3
        ∗ (iprop(owns (c : Thread nD τ) arg6 fullShare q0 ∗ owns (c : Thread nD τ) arg7 fullShare k0 ∗ owns (c : Thread nD τ) arg8 fullShare v0
            ∗ owns (c : Thread nD τ) arg9 fullShare (outO (stepA (tword c tbM0 xt0 i) (tword c tbM1 xt1 i) q0 k0 v0 m0 a0) (stepL (tword c tbM0 xt0 i) (tword c tbM1 xt1 i) q0 k0 m0 l0))
            ∗ owns (c : Thread nD τ) arg10 fullShare (stepA (tword c tbM0 xt0 i) (tword c tbM1 xt1 i) q0 k0 v0 m0 a0)
            ∗ owns (c : Thread nD τ) arg11 fullShare (stepM (tword c tbM0 xt0 i) (tword c tbM1 xt1 i) q0 k0 m0)
            ∗ owns (c : Thread nD τ) arg12 fullShare (stepL (tword c tbM0 xt0 i) (tword c tbM1 xt1 i) q0 k0 m0 l0)
            ∗ tbPt c tbM0 xt0 ∗ tbPt c tbM1 xt1 ∗ tbPt c tbM2 xt2 ∗ tbPt c tbM3 xt3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, HT0, HT1, HT2, HT3, Hk⟩
  obtain rfl := harg6.eq_unread hf6; obtain rfl := harg7.eq_unread hf7; obtain rfl := harg8.eq_unread hf8
  obtain rfl := harg10.eq_unread hf10; obtain rfl := harg11.eq_unread hf11
  obtain rfl := harg12.eq_unread hf12
  sl_exec (disch := first | sl_exact hF | sl_exact hL)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    on_goal 2 => iexact H9
    ipureintro
    refine (read_writes_last _ _ hz _ _ _).trans ?_
    sl_unfold_run_names
    unfold outO stepA stepL
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H10]
  · iexists _; isplitr
    on_goal 2 => iexact H10
    ipureintro
    refine (read_writes_last _ _ hz _ _ _).trans ?_
    sl_unfold_run_names
    unfold stepA
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H11]
  · iexists _; isplitr
    on_goal 2 => iexact H11
    ipureintro
    refine (read_writes_last _ _ hz _ _ _).trans ?_
    sl_unfold_run_names
    unfold stepM
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H12]
  · iexists _; isplitr
    on_goal 2 => iexact H12
    ipureintro
    refine (read_writes_last _ _ hz _ _ _).trans ?_
    sl_unfold_run_names
    unfold stepL
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [HT0]; · iexact HT0
  isplitl [HT1]; · iexact HT1
  isplitl [HT2]; · iexact HT2
  iexact HT3

end Cert.Kernel.Hand

end
-- ==== Proof.K.Obl1.lean ====
import proofs.«415724_j60610578481678_3_alg».proof.Proof.K.Run1
import proofs.«415724_j60610578481678_3_alg».proof.Proof.K.Data1
import Idealize.ShloMosaic.Lib.Pipeline.Value
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (V : (c : Dev nD) → (b : Ref sig .tc) → Buf (Elt F) ((c : Thread nD τ).loc b))

/-! ## The body as the pipeline calls it -/

/-- Each window's current staging buffer at point `t`, and that it is a whole buffer. -/
abbrev ms1_0 (t : Fin (cfgA (F := F)).N) : Memref sig .tc .vmem S1024x1024 .bf16 := spec1_0.stage ((cfgA (F := F)).slots t 0)
abbrev hs1_0 (t : Fin (cfgA (F := F)).N) : (ms1_0 (F := F) t).IsWhole := hstage1_0 (((cfgA (F := F)).slots t 0).cast nbuf1_0)
abbrev ms1_1 (t : Fin (cfgA (F := F)).N) : Memref sig .tc .vmem S512x1024 .bf16 := spec1_1.stage ((cfgA (F := F)).slots t 1)
abbrev hs1_1 (t : Fin (cfgA (F := F)).N) : (ms1_1 (F := F) t).IsWhole := hstage1_1 (((cfgA (F := F)).slots t 1).cast nbuf1_1)
abbrev ms1_2 (t : Fin (cfgA (F := F)).N) : Memref sig .tc .vmem S512x1024 .bf16 := spec1_2.stage ((cfgA (F := F)).slots t 2)
abbrev hs1_2 (t : Fin (cfgA (F := F)).N) : (ms1_2 (F := F) t).IsWhole := hstage1_2 (((cfgA (F := F)).slots t 2).cast nbuf1_2)
abbrev ms1_3 (t : Fin (cfgA (F := F)).N) : Memref sig .tc .vmem S1024x1024 .f32 := spec1_3.stage ((cfgA (F := F)).slots t 3)
abbrev hs1_3 (t : Fin (cfgA (F := F)).N) : (ms1_3 (F := F) t).IsWhole := hstage1_3 (((cfgA (F := F)).slots t 3).cast nbuf1_3)

/-- The attention body at point `t`: the grid coordinates, the four tables, the four windows' current buffers, the
    three scratch buffers. -/
abbrev bodyAt1 (t : Fin (cfgA (F := F)).N) : Prog (TpuEff nD τ sig (Elt F) Λ₀ .tc) PUnit :=
  cc1__attn_kernel (grid1.coords t) tbM0 (Memref.isWhole_whole _) tbM1 (Memref.isWhole_whole _) tbM2 (Memref.isWhole_whole _) tbM3 (Memref.isWhole_whole _)
    (ms1_0 (F := F) t) (hs1_0 t) (ms1_1 (F := F) t) (hs1_1 t) (ms1_2 (F := F) t) (hs1_2 t) (ms1_3 (F := F) t) (hs1_3 t)
    scM0 (Memref.isWhole_whole _) scM1 (Memref.isWhole_whole _) scM2 (Memref.isWhole_whole _)

/-! ## The schedule's cases -/

/-- A point that opens a query block does not close it; the opening points are those whose "first" word is 1;
    point 0 opens. -/
theorem first_not_last : ∀ n : Fin 20, condF (wF n.val) → ¬ condL (wL n.val) := by decide +kernel
theorem first_iff_one : ∀ n : Fin 20, condF (wF n.val) ↔ wF n.val = 1#32 := by decide +kernel
theorem first_zero : ∀ n : Fin 20, n.val = 0 → condF (wF n.val) := by decide +kernel

/-! ## Where the windows are idle -/

/-- The three input windows are never idle. -/
theorem live1_0 (t : Fin (cfgA (F := F)).N) : (cfgA (F := F)).idle 0 ((cfgA (F := F)).grid.coords t) = false := rfl
theorem live1_1 (t : Fin (cfgA (F := F)).N) : (cfgA (F := F)).idle 1 ((cfgA (F := F)).grid.coords t) = false := rfl
theorem live1_2 (t : Fin (cfgA (F := F)).N) : (cfgA (F := F)).idle 2 ((cfgA (F := F)).grid.coords t) = false := rfl

/-- The output window is live exactly at the points that close a query block, and where it is idle its block is
    not written back: decided over the twenty points (the tables' words do not depend on the float instance). -/
theorem live1_3I : ∀ t : Fin grid1.N, condL (wL t.val) → (cfgA (F := Ideal)).idle 3 (grid1.coords t) = false := by decide +kernel
theorem idle1_3I : ∀ t : Fin grid1.N, ¬ condL (wL t.val) → (cfgA (F := Ideal)).idle 3 (grid1.coords t) = true := by decide +kernel
theorem noFlush1_3I : ∀ t : Fin grid1.N, ¬ condL (wL t.val) → ((cfgA (F := Ideal)).win 3).flush t = false := by decide +kernel

theorem live1_3 (t : Fin (cfgA (F := F)).N) (h : condL (wL t.val)) : (cfgA (F := F)).idle 3 ((cfgA (F := F)).grid.coords t) = false := live1_3I t h
theorem idle1_3 (t : Fin (cfgA (F := F)).N) (h : ¬ condL (wL t.val)) : (cfgA (F := F)).idle 3 ((cfgA (F := F)).grid.coords t) = true := idle1_3I t h
theorem noFlush1_3 (t : Fin (cfgA (F := F)).N) (h : ¬ condL (wL t.val)) : ((cfgA (F := F)).win 3).flush t = false := noFlush1_3I t h

/-! ## The input windows hold their blocks -/

/-- Each input window's current buffer holds its block at every point, fetched there or not: the window is an
    input, uncut and never idle, so where it is not fetched its block index has not moved. -/
theorem before1_0 (c : Dev nD) (t : Fin (cfgA (F := F)).N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfgA (F := F)).N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin (cfgA (F := F)).N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin (cfgA (F := F)).N) : sProp 𝕄 :=
  iprop((dat1 V c).Φ t.castSucc ∗ (dat1 V c).owesAt () t.castSucc
    ∗ (∃ d, owns (c : Thread nD τ) (ms1_0 (F := F) t) fullShare ((dat1 V c).before 0 t d))
    ∗ (∃ d, owns (c : Thread nD τ) (ms1_1 (F := F) t) fullShare ((dat1 V c).before 1 t d))
    ∗ (∃ d, owns (c : Thread nD τ) (ms1_2 (F := F) t) fullShare ((dat1 V c).before 2 t d))
    ∗ (∃ d, owns (c : Thread nD τ) (ms1_3 (F := F) t) fullShare ((dat1 V c).before 3 t d)))

/-- and what it returns: each window's buffer at what the body leaves, the output's as found where it is idle. -/
def bodyPost1 (c : Dev nD) (t : Fin (cfgA (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks; the four words the body loads are the schedule's
    closed forms; the point is in one of three cases. It OPENS a query block (then it does not close it): the scratch
    buffers may hold anything, the body restarts the three running quantities and advances them by the point's step,
    and leaves the output buffer alone. It neither opens nor closes: it is not the first point, so the scratch buffers
    hold what the points so far left, and the body advances them. It CLOSES a query block without opening it: as
    before, and the output buffer receives numerator over denominator. In each case what the scratch buffers then hold
    is the next value of the recursion. The tables, the other staging buffers and what the core owes pass through. -/
theorem sound_body1 (c : Dev nD) (t : Fin (cfgA (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.castSucc = Phi1 V c t.val from rfl,
    show (dat1 V c).Φ t.succ = Phi1 V c (t.val + 1) from rfl]
  rw [show (dat1 V c).leavesExact 0 t = owns (c : Thread nD τ) (ms1_0 (F := F) t) fullShare ((dat1 V c).after 0 t) from by
        unfold Dat.leavesExact; rw [live1_0 t]; rfl,
    show (dat1 V c).leavesExact 1 t = owns (c : Thread nD τ) (ms1_1 (F := F) t) fullShare ((dat1 V c).after 1 t) from by
        unfold Dat.leavesExact; rw [live1_1 t]; rfl,
    show (dat1 V c).leavesExact 2 t = owns (c : Thread nD τ) (ms1_2 (F := F) t) fullShare ((dat1 V c).after 2 t) from by
        unfold Dat.leavesExact; rw [live1_2 t]; rfl,
    after1_0, after1_1, after1_2]
  have hN : t.val < 20 := lt_of_lt_of_eq t.isLt (NA (F := F))
  have hstep := sc1_succ V c t.val t.isLt
  -- the three triples at this point, the loaded words in closed form
  have e0 := tword0 (F := F) c t
  have e1 := tword1 (F := F) c t
  have e2 := tword2 (F := F) c t
  have e3 := tword3 (F := F) c t
  have hA := run1_A (F := F) c (grid1.coords t) (ms1_0 (F := F) t) (hs1_0 t) (ms1_1 (F := F) t) (hs1_1 t) (ms1_2 (F := F) t) (hs1_2 t)
    (ms1_3 (F := F) t) (hs1_3 t) scM0 (Memref.isWhole_whole _) scM1 (Memref.isWhole_whole _) scM2 (Memref.isWhole_whole _)
    (tbl 0) (tbl 1) (tbl 2) (tbl 3)
  have hB := run1_B (F := F) c (grid1.coords t) (ms1_0 (F := F) t) (hs1_0 t) (ms1_1 (F := F) t) (hs1_1 t) (ms1_2 (F := F) t) (hs1_2 t)
    (ms1_3 (F := F) t) (hs1_3 t) scM0 (Memref.isWhole_whole _) scM1 (Memref.isWhole_whole _) scM2 (Memref.isWhole_whole _)
    (tbl 0) (tbl 1) (tbl 2) (tbl 3)
  have hC := run1_C (F := F) c (grid1.coords t) (ms1_0 (F := F) t) (hs1_0 t) (ms1_1 (F := F) t) (hs1_1 t) (ms1_2 (F := F) t) (hs1_2 t)
    (ms1_3 (F := F) t) (hs1_3 t) scM0 (Memref.isWhole_whole _) scM1 (Memref.isWhole_whole _) scM2 (Memref.isWhole_whole _)
    (tbl 0) (tbl 1) (tbl 2) (tbl 3)
  rw [e0, e1, e2, e3] at hA hB hC
  unfold Phi1
  by_cases hF : condF (wF t.val)
  · -- the point opens a query block
    have hL : ¬ condL (wL t.val) := first_not_last ⟨t.val, hN⟩ hF
    have hw : wF t.val = 1#32 := (first_iff_one ⟨t.val, hN⟩).mp hF
    rw [Dat.leavesExact_idle (dat1 V c) 3 t (idle1_3 t hL) (noFlush1_3 t hL)]
    simp only [if_pos hw] at hstep
    iintro ⟨⟨⟨%a, %mm, %ll, -, HS0, HS1, HS2⟩, HT0, HT1, HT2, HT3, HO⟩, Ho, ⟨%d0, H0⟩, ⟨%d1, H1⟩, ⟨%d2, H2⟩, ⟨%d3, H3⟩⟩
    iapply (hA hF hL (iblk1 V c 0 t) (iblk1 V c 1 t) (iblk1 V c 2 t) ((dat1 V c).before 3 t d3) Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    isplitl [HT3]; · iexact HT3
    iintro ⟨H0, H1, H2, H3, HS0, HS1, HS2, HT0, HT1, HT2, HT3⟩
    isplitl [HS0 HS1 HS2 HT0 HT1 HT2 HT3 HO]
    · isplitl [HS0 HS1 HS2]
      · iexists _; iexists _; iexists _
        isplitr
        swap
        · isplitl [HS0]; · iexact HS0
          isplitl [HS1]; · iexact HS1
          iexact HS2
        ipureintro
        intro _
        rw [hstep]
        exact ⟨rfl, rfl, rfl⟩
      isplitl [HT0]; · iexact HT0
      isplitl [HT1]; · iexact HT1
      isplitl [HT2]; · iexact HT2
      isplitl [HT3]; · iexact HT3
      iexact HO
    isplitl [Ho]; · iexact Ho
    isplitl [H0]; · iexact H0
    isplitl [H1]; · iexact H1
    isplitl [H2]; · iexact H2
    iexists _; iexact H3
  · -- the point continues a query block: it is not the first point, and the scratch buffers hold the recursion's value
    have hne : t.val ≠ 0 := fun h0 => hF (first_zero ⟨t.val, hN⟩ h0)
    have hw : ¬ wF t.val = 1#32 := fun h => hF ((first_iff_one ⟨t.val, hN⟩).mpr h)
    simp only [if_neg hw] at hstep
    by_cases hL : condL (wL t.val)
    · -- and closes it
      rw [show (dat1 V c).leavesExact 3 t = owns (c : Thread nD τ) (ms1_3 (F := F) t) fullShare ((dat1 V c).after 3 t) from by
            unfold Dat.leavesExact; rw [live1_3 t hL]; rfl, after1_3, hstep]
      iintro ⟨⟨⟨%a, %mm, %ll, %hsc, HS0, HS1, HS2⟩, HT0, HT1, HT2, HT3, HO⟩, Ho, ⟨%d0, H0⟩, ⟨%d1, H1⟩, ⟨%d2, H2⟩, ⟨%d3, H3⟩⟩
      obtain ⟨rfl, rfl, rfl⟩ := hsc hne
      iapply (hC hF hL (iblk1 V c 0 t) (iblk1 V c 1 t) (iblk1 V c 2 t) (sc1 V c t.val).1 (sc1 V c t.val).2.1 (sc1 V c t.val).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      isplitl [HT2]; · iexact HT2
      isplitl [HT3]; · iexact HT3
      iintro ⟨H0, H1, H2, H3, HS0, HS1, HS2, HT0, HT1, HT2, HT3⟩
      isplitl [HS0 HS1 HS2 HT0 HT1 HT2 HT3 HO]
      · isplitl [HS0 HS1 HS2]
        · iexists _; iexists _; iexists _
          isplitr
          swap
          · isplitl [HS0]; · iexact HS0
            isplitl [HS1]; · iexact HS1
            iexact HS2
          ipureintro
          intro _
          exact ⟨rfl, rfl, rfl⟩
        isplitl [HT0]; · iexact HT0
        isplitl [HT1]; · iexact HT1
        isplitl [HT2]; · iexact HT2
        isplitl [HT3]; · iexact HT3
        iexact HO
      isplitl [Ho]; · iexact Ho
      isplitl [H0]; · iexact H0
      isplitl [H1]; · iexact H1
      isplitl [H2]; · iexact H2
      iexact H3
    · -- and does not close it
      rw [Dat.leavesExact_idle (dat1 V c) 3 t (idle1_3 t hL) (noFlush1_3 t hL)]
      iintro ⟨⟨⟨%a, %mm, %ll, %hsc, HS0, HS1, HS2⟩, HT0, HT1, HT2, HT3, HO⟩, Ho, ⟨%d0, H0⟩, ⟨%d1, H1⟩, ⟨%d2, H2⟩, ⟨%d3, H3⟩⟩
      obtain ⟨rfl, rfl, rfl⟩ := hsc hne
      iapply (hB hF hL (iblk1 V c 0 t) (iblk1 V c 1 t) (iblk1 V c 2 t) ((dat1 V c).before 3 t d3)
        (sc1 V c t.val).1 (sc1 V c t.val).2.1 (sc1 V c t.val).2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      isplitl [HT2]; · iexact HT2
      isplitl [HT3]; · iexact HT3
      iintro ⟨H0, H1, H2, H3, HS0, HS1, HS2, HT0, HT1, HT2, HT3⟩
      isplitl [HS0 HS1 HS2 HT0 HT1 HT2 HT3 HO]
      · isplitl [HS0 HS1 HS2]
        · iexists _; iexists _; iexists _
          isplitr
          swap
          · isplitl [HS0]; · iexact HS0
            isplitl [HS1]; · iexact HS1
            iexact HS2
          ipureintro
          intro _
          rw [hstep]
          exact ⟨rfl, rfl, rfl⟩
        isplitl [HT0]; · iexact HT0
        isplitl [HT1]; · iexact HT1
        isplitl [HT2]; · iexact HT2
        isplitl [HT3]; · iexact HT3
        iexact HO
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.Kernel.Hand

end
-- ==== Proof.K.Launch.lean ====
/-
  The run of the whole program. @main is three items: the host operations, which write the four schedule tables as
  constants and lay the three weight matrices side by side; the projection region; the attention region. One thread
  state is carried from item to item: every unscoped buffer of the core held whole at the contents of the boundary
  reached (`W0` at launch, then `W1`, `W2`, `W3`), beside the core's generator register and its owing nothing.
  The projection region takes its three arrays out of that state and puts them back, the output at what its
  write-backs leave. The attention region reads one array, the projected one, through three input windows: the
  array's full share is dealt to the three (a half, a quarter, a quarter) at entry and gathered back at exit, the
  array unchanged since no input window is ever written back; its result array comes back at what its write-backs
  leave; the four tables go into the region's invariant at the schedule and come back as they went; the six buffers
  the region never names pass it by. The launch theorem for a program of several regions then says: every weakly fair
  execution terminates, and at the end every unscoped buffer holds `W3`.
-/
import proofs.«415724_j60610578481678_3_alg».proof.Proof.K.Chain
import proofs.«415724_j60610578481678_3_alg».proof.Proof.K.Reg1Aux
import proofs.«415724_j60610578481678_3_alg».proof.Proof.K.Obl1
set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ
variable (m : (ℓ : Loc nD τ sig) → Buf (Elt F) ℓ) (ρ : Dev nD → PrngReg)

/-! ## The pinned pipelines -/

example : Pipeline.pin (pcfgs (F := F)) adm 1 = cfgA (F := F) := rfl
example : Pipeline.pin (pcfgs (F := F)) adm 0 = cfg0 := rfl

/-! ## What the host operations leave in the four schedule tables -/

theorem V2_tbl0 (c : Dev nD) : V2 m c main_c = tbl (F := F) 0 := by
  show W2 m c main_c = _
  rw [W2_of_ne m c main_c (by decide)]
  show StableHlo.after hostOps0 (W0 m c) (Proc.devRef .tc main_c) = _
  after_results
  rfl
theorem V2_tbl1 (c : Dev nD) : V2 m c main_c_0 = tbl (F := F) 1 := by
  show W2 m c main_c_0 = _
  rw [W2_of_ne m c main_c_0 (by decide)]
  show StableHlo.after hostOps0 (W0 m c) (Proc.devRef .tc main_c_0) = _
  after_results
  rfl
theorem V2_tbl2 (c : Dev nD) : V2 m c main_c_1 = tbl (F := F) 2 := by
  show W2 m c main_c_1 = _
  rw [W2_of_ne m c main_c_1 (by decide)]
  show StableHlo.after hostOps0 (W0 m c) (Proc.devRef .tc main_c_1) = _
  after_results
  rfl
theorem V2_tbl3 (c : Dev nD) : V2 m c main_c_2 = tbl (F := F) 3 := by
  show W2 m c main_c_2 = _
  rw [W2_of_ne m c main_c_2 (by decide)]
  show StableHlo.after hostOps0 (W0 m c) (Proc.devRef .tc main_c_2) = _
  after_results
  rfl

/-- The tables as the attention region finds them are the schedule. -/
theorem V2_tbl (c : Dev nD) : (fun k => V2 m c (pre1.ref k)) = tbl (F := F) := by
  funext k
  match k with
  | ⟨0, _⟩ => exact V2_tbl0 m c
  | ⟨1, _⟩ => exact V2_tbl1 m c
  | ⟨2, _⟩ => exact V2_tbl2 m c
  | ⟨3, _⟩ => exact V2_tbl3 m c

/-! ## The thread state between the program's items -/

abbrev 𝒱₀ : Variants := Variants.none
/-- No core owes another anything: no level is assigned. -/
abbrev L : GSem nD τ sig → Finset Unit := fun _ => ∅
abbrev lv : GSem nD τ sig → Unit → ℕ := fun _ _ => 0
/-- Beside the unscoped buffers a core carries its generator register, at some state, and owes nothing. -/
abbrev R (c : Dev nD) : sProp 𝕄 := iprop((∃ r, prngReg c r) ∗ ∃ W, owes (c : Thread nD τ) (0 : CellTallies nD τ sig Unit) W)

/-- A stretch of host operations run over the unscoped buffers from contents `W`, `R` untouched beside them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- None of the six host operations allocates a buffer. -/
theorem ops_fresh : (hostOps0 : List (HloOp τ sig (Elt F))).Forall fun op => op.fresh = ∅ := by
  simp only [List.Forall]; repeat' constructor

/-- An unscoped reference of the TensorCore is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for what the core owes: every unscoped buffer at the last boundary's contents. -/
abbrev Tₙ (c : Dev nD) : sProp 𝕄 := iprop(StableHlo.held (c : Thread nD τ) (Pipeline.ucRefs τ sig) (W3 m c) ∗ ∃ r, prngReg c r)

/-! ## The projection region -/

/-- At the projection's exit each of its three arrays holds what the boundary's contents say: the two inputs are
    never written back, the output is the one buffer the boundary updates. -/
theorem exitArr0 (c : Dev nD) (w : Fin cfg0.W) : (dat0 (V1 m) c).arrAt w cfg0.N = V2 m c (Pipeline.arrRef spec0 w) := by
  match w with
  | ⟨0, _⟩ =>
    exact ((dat0 (V1 m) c).arrAt_in 0 rfl _).trans ((A_eq0 (V1 m) c 0).trans (W2_of_ne m c main_arg0 (by decide)).symm)
  | ⟨1, _⟩ =>
    exact ((dat0 (V1 m) c).arrAt_in 1 rfl _).trans ((A_eq0 (V1 m) c 1).trans (W2_of_ne m c main_v1 (by decide)).symm)
  | ⟨2, _⟩ => exact (W2_v2 m c).symm
/-- and every other buffer what it held at entry. -/
theorem exitRest0 (c : Dev nD) : ∀ b, b ∉ Finset.univ.image (Pipeline.arrRef spec0) → V2 m c b = V1 m c b :=
  fun b hb => W2_of_ne m c b fun e => hb (Finset.mem_image.mpr ⟨2, Finset.mem_univ _, e.symm⟩)

set_option backward.isDefEq.respectTransparency.types false in
/-- The projection region over the thread state: entered with every unscoped buffer at `W1`, left with them at `W2`.
    Its three arrays are split out of the unscoped buffers and put back at the exit contents; the generator
    register goes through the region's invariant; nothing is owed; the kernel has no semaphore of its own. -/
def reg0 : Pipeline.RegionSeg (pcfgs (F := F)) adm (pdats m) () defs₀ 𝒱₀ L lv 0 where
  win := winFacts0.to₀
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) winFacts0 arr_whole0 c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      winFacts0 arr_whole0 c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region: its share of the unscoped buffers

Its three input windows are cut from the one projected array, so that array's full share is dealt among them
(a half, a quarter, a quarter) on the way in and gathered back on the way out. -/

/-- The region's windows sit on two buffers: the projected array (three windows) and the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs
  exact bigSep_eq_bigSepL_of_eq [main_v2, main_v3] (by decide) (by decide) _

/-- A core's unscoped buffers at a valuation `W` whose tables read `T`, sorted for the region: the two arrays, the four
    tables, the six buffers the region passes by. -/
theorem ucSplit1 (c : Dev nD) (W : Valuation τ sig (Elt F)) (T : pre1.Contents (Elt F)) (hT : (fun k => W (pre1.ref k)) = T) :
    (StableHlo.held (c : Thread nD τ) (Pipeline.ucRefs τ sig) W : sProp 𝕄)
      = iprop(((((c : Thread nD τ).loc main_v2) ↦{fullShare} W main_v2) ∗ (((c : Thread nD τ).loc main_v3) ↦{fullShare} W main_v3))
          ∗ Pipeline.prefHeld pre1 c (fun _ => fullShare) T
          ∗ Pipeline.unscopedRestP pre1 spec1 c (fun b => W b)) := by
  subst hT
  have h : (unscopedBufs c (fun b => W b) : sProp 𝕄)
      = iprop(Pipeline.arrBufs spec1 c (fun b => W b) ∗ Pipeline.unscopedRest spec1 c (fun b => W b)) :=
    Pipeline.unscopedBufs_split₀ (Pipeline.pin (pcfgs (F := F)) adm) 1 winFacts₀1.arr_unscoped c _
  rw [← Pipeline.unscopedBufs_held, h, Pipeline.unscopedRest_split preFacts1 c, arrBufs1_eq]

/-- The projected array's full share as the three input windows' shares. -/
theorem v2_deal (c : Dev nD) (f : Buf (Elt F) ((c : Thread nD τ).loc main_v2)) :
    ((((c : Thread nD τ).loc main_v2) ↦{fullShare} f : sProp 𝕄))
      ⊢ iprop((((c : Thread nD τ).loc main_v2) ↦{fullShare.left} f) ∗ (((c : Thread nD τ).loc main_v2) ↦{fullShare.right.left} f)
          ∗ (((c : Thread nD τ).loc main_v2) ↦{fullShare.right.right} f)) := by
  iintro H
  ihave H' := (pointsTo_share (PosShare.mem_left_op_right fullShare)).1 $$ H
  icases H' with ⟨Ha, Hr⟩
  ihave Hr' := (pointsTo_share (PosShare.mem_left_op_right fullShare.right)).1 $$ Hr
  icases Hr' with ⟨Hb, Hc⟩
  isplitl [Ha]; · iexact Ha
  isplitl [Hb]; · iexact Hb
  iexact Hc
/-- The three shares gathered back. -/
theorem v2_gather (c : Dev nD) (f : Buf (Elt F) ((c : Thread nD τ).loc main_v2)) :
    iprop((((c : Thread nD τ).loc main_v2) ↦{fullShare.left} f) ∗ (((c : Thread nD τ).loc main_v2) ↦{fullShare.right.left} f)
          ∗ (((c : Thread nD τ).loc main_v2) ↦{fullShare.right.right} f))
      ⊢ ((((c : Thread nD τ).loc main_v2) ↦{fullShare} f : sProp 𝕄)) := by
  iintro ⟨Ha, Hb, Hc⟩
  iapply (pointsTo_share (PosShare.mem_left_op_right fullShare)).2
  isplitl [Ha]; · iexact Ha
  iapply (pointsTo_share (PosShare.mem_left_op_right fullShare.right)).2
  isplitl [Hb]; · iexact Hb
  iexact Hc

/-- The region's arrays, window by window: the projected array at the three input windows' shares, the result whole. -/
theorem arrays1_eq (c : Dev nD) (Fw : (w : Fin (cfgA (F := F)).W) → Buf (Elt F) (((cfgA (F := F)).win w).arr.view.loc (c : Thread nD τ))) :
    ((dat1 (V2 m) c).arrays Fw : sProp 𝕄)
      = iprop((((c : Thread nD τ).loc main_v2) ↦{fullShare.left} Fw 0) ∗ (((c : Thread nD τ).loc main_v2) ↦{fullShare.right.left} Fw 1)
          ∗ (((c : Thread nD τ).loc main_v2) ↦{fullShare.right.right} Fw 2) ∗ (((c : Thread nD τ).loc main_v3) ↦{fullShare} Fw 3)) := by
  have hs : ∀ w, ((cfgA (F := F)).win w).arr.view.set = Finset.univ := fun w => (arr_whole1 w).set_eq_univ
  unfold Dat.arrays
  rw [bigSep_congr (fun w _ => by rw [hs w]), bigSep_W1]
  rfl

/-- What the tables hold at the last boundary is still the schedule: the attention region writes the result only. -/
theorem W3_tbl (c : Dev nD) : (fun k => W3 m c (pre1.ref k)) = tbl (F := F) :=
  (funext fun k => W3_of_ne m c (pre1.ref k) (preFacts1.disj k 3)).trans (V2_tbl m c)

/-- The buffers the region passes by hold at the last boundary what they held at its entry. -/
theorem rest1_W3 (c : Dev nD) :
    (Pipeline.unscopedRestP pre1 spec1 c (fun b => W3 m c b) : sProp 𝕄) = Pipeline.unscopedRestP pre1 spec1 c (V2 m c) := by
  unfold Pipeline.unscopedRestP
  exact bigSep_congr fun b hb =>
    congrArg (fun f => (((c : Thread nD τ).loc b) ↦{fullShare} f : sProp 𝕄))
      (W3_of_ne m c b fun e => (Finset.mem_sdiff.mp (Finset.mem_sdiff.mp hb).1).2 (Finset.mem_image.mpr ⟨3, Finset.mem_univ _, e.symm⟩))

/-- ENTRY: the unscoped buffers at `W2` sorted into the region's arrays (the projected array dealt to the three input
    windows), the tables at the schedule, and what passes by. -/
theorem reg1_hentry (c : Dev nD) :
    iprop((StableHlo.held (c : Thread nD τ) (Pipeline.ucRefs τ sig) (W2 m c) ∗ R c) ∗ (BI.emp : sProp 𝕄) ∗ levAts L lv)
      ⊢ |={Set.univ}=> iprop((dat1 (V2 m) c).arrays ((dat1 (V2 m) c).arrAt · 0) ∗ Pipeline.prefHeld pre1 c (fun _ => fullShare) (tbl (F := F))
          ∗ (dat1 (V2 m) c).owesAt () 0 ∗ (BI.emp : sProp 𝕄) ∗ (Pipeline.unscopedRestP pre1 spec1 c (V2 m c) ∗ ∃ r, prngReg c r)) := by
  rw [ucSplit1 c (W2 m c) tbl (V2_tbl m c), arrays1_eq]
  iintro ⟨⟨⟨⟨H2, H3⟩, Ht, Hrest⟩, Hp, HO⟩, -, -⟩
  ihave H2' := (v2_deal c _) $$ H2
  icases H2' with ⟨Ha, Hb, Hc⟩
  imodintro
  isplitl [Ha Hb Hc H3]
  · isplitl [Ha]; · iexact Ha
    isplitl [Hb]; · iexact Hb
    isplitl [Hc]; · iexact Hc
    iexact H3
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact Hp

/-- EXIT: the input windows' shares of the projected array, never written back, gathered; the result at what the
    write-backs left; the tables and the passed-by buffers as they were: every unscoped buffer at `W3`. -/
theorem reg1_hexit (c : Dev nD) :
    iprop((dat1 (V2 m) c).arrays ((dat1 (V2 m) c).arrAt · (cfgA (F := F)).N) ∗ (dat1 (V2 m) c).owesAt () (Fin.last (cfgA (F := F)).N)
        ∗ Pipeline.prefHeld pre1 c (fun _ => fullShare) (tbl (F := F)) ∗ (Pipeline.unscopedRestP pre1 spec1 c (V2 m c) ∗ ∃ r, prngReg c r))
      ⊢ |={Set.univ}=> iprop((StableHlo.held (c : Thread nD τ) (Pipeline.ucRefs τ sig) (W3 m c) ∗ ∃ r, prngReg c r)
          ∗ ∃ W, owes (c : Thread nD τ) (0 : CellTallies nD τ sig Unit) W) := by
  have e0 : (dat1 (V2 m) c).arrAt 0 (cfgA (F := F)).N = W3 m c main_v2 :=
    ((dat1 (V2 m) c).arrAt_in 0 rfl _).trans (W3_of_ne m c main_v2 (by decide)).symm
  have e1 : (dat1 (V2 m) c).arrAt 1 (cfgA (F := F)).N = W3 m c main_v2 :=
    ((dat1 (V2 m) c).arrAt_in 1 rfl _).trans (W3_of_ne m c main_v2 (by decide)).symm
  have e2 : (dat1 (V2 m) c).arrAt 2 (cfgA (F := F)).N = W3 m c main_v2 :=
    ((dat1 (V2 m) c).arrAt_in 2 rfl _).trans (W3_of_ne m c main_v2 (by decide)).symm
  have e3 : (dat1 (V2 m) c).arrAt 3 (cfgA (F := F)).N = W3 m c main_v3 := (W3_v3 m c).symm
  rw [ucSplit1 c (W3 m c) tbl (W3_tbl m c), rest1_W3, arrays1_eq, e0, e1, e2, e3]
  iintro ⟨⟨Ha, Hb, Hc, H3⟩, HO, Ht, Hrest, Hp⟩
  imodintro
  isplitl [Ha Hb Hc H3 Ht Hrest Hp]
  · isplitr [Hp]
    · isplitl [Ha Hb Hc H3]
      · isplitr [H3]
        · iapply (v2_gather c _)
          isplitl [Ha]; · iexact Ha
          isplitl [Hb]; · iexact Hb
          iexact Hc
        iexact H3
      isplitl [Ht]; · iexact Ht
      iexact Hrest
    iexact Hp
  unfold Pipeline.Dat.owesAt Pipeline.owesWithin
  icases HO with ⟨%W, -, HO⟩; iexists W; iexact HO

/-! ## The attention region -/

set_option backward.isDefEq.respectTransparency.types false in
/-- The attention region over the thread state: entered with every unscoped buffer at `W2`, left with them at `W3`.
    Nothing goes into its invariant from the thread state but the tables, which it gives back; the generator
    register and the six buffers it never names pass it by; nothing is owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := BI.emp
  Y c := Pipeline.prefHeld pre1 c (fun _ => fullShare) (tbl (F := F))
  Z c := iprop(Pipeline.unscopedRestP pre1 spec1 c (V2 m c) ∗ ∃ r, prngReg c r)
  hentry c := by rw [Pipeline.ownSems0_none]; exact reg1_hentry m c
  hin c := by
    rw [show (pdats m 1 c).Φ 0 = Phi1 (V2 m) c 0 from rfl]
    iintro ⟨-, Ht, Hs⟩
    iapply (reg1_hin (V2 m) c)
    isplitl [Ht]; · iexact Ht
    iexact Hs
  hout c := by
    rw [Pipeline.ownSems0_none, show (pdats m 1 c).Φ (Fin.last _) = Phi1 (V2 m) c (cfgA (F := F)).N from rfl]
    iintro H
    ihave H' := (reg1_hout (V2 m) c _) $$ H
    icases H' with ⟨Ht, Hs⟩
    isplitl [Ht]; · iexact Ht
    isplitr; · iempintro
    iexact Hs
  hexit c := reg1_hexit m c

/-! ## The program as its items, and the launch -/

/-- The program's three items in order: the host operations from the launch contents, then the two regions. -/
abbrev segs : List (Pipeline.Seg (pcfgs (F := F)) adm (pdats m) () defs₀ 𝒱₀ L lv) :=
  [ .host (hseg hostOps0 hostOps0_sub ops_fresh (W0 m)),
    .region (reg0 m),
    .region (reg1 m) ]

/-- The program is the run of those items. -/
theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and in every final state every unscoped buffer of every core holds the last
    boundary's contents `W3`: the launch over the three items, the last thread state read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () (cellOf_inj adm) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.Kernel.Hand

end
-- ==== Proof.K.Args.lean ====
/-
  No host operation and no region writes an argument array: each reaches the last boundary as launched.
-/
import proofs.«415724_j60610578481678_3_alg».proof.Proof.K.Chain
import proofs.«415724_j60610578481678_3_alg».proof.Proof.Gen.Kernel.Regions

noncomputable section

namespace Cert.Kernel.Hand

open Idealize.ShloMosaic Idealize.ShloMosaic.TcCoe Idealize.SL.Sem

variable {F : FTy → Type} [FloatOps F]
variable (m : (ℓ : Loc Cert.Kernel.nD Cert.Kernel.τ Cert.Kernel.sig) → Buf (Elt F) ℓ)

/-- A buffer the host operations do not write holds its launch contents when the first region is entered. -/
theorem W1_of (c : Dev Cert.Kernel.nD) (r : Ref Cert.Kernel.sig .tc) (h : r ∉ Cert.Kernel.Gen.hostOps0_W) :
    Hand.W1 m c r = m ((c : Thread Cert.Kernel.nD Cert.Kernel.τ).loc r) :=
  (StableHlo.after_of_writes_sub Cert.Kernel.Gen.hostOps0 _ Cert.Kernel.Gen.hostOps0_writes h).trans rfl

theorem W3_main_arg0 (c : Dev Cert.Kernel.nD) :
    Hand.W3 m c Cert.Kernel.main_arg0 = m ((c : Thread Cert.Kernel.nD Cert.Kernel.τ).loc Cert.Kernel.main_arg0) :=
  (Hand.W3_of_ne m c _ (by decide)).trans ((Hand.W2_of_ne m c _ (by decide)).trans (W1_of m c _ (by decide)))
theorem W3_main_arg1 (c : Dev Cert.Kernel.nD) :
    Hand.W3 m c Cert.Kernel.main_arg1 = m ((c : Thread Cert.Kernel.nD Cert.Kernel.τ).loc Cert.Kernel.main_arg1) :=
  (Hand.W3_of_ne m c _ (by decide)).trans ((Hand.W2_of_ne m c _ (by decide)).trans (W1_of m c _ (by decide)))
theorem W3_main_arg2 (c : Dev Cert.Kernel.nD) :
    Hand.W3 m c Cert.Kernel.main_arg2 = m ((c : Thread Cert.Kernel.nD Cert.Kernel.τ).loc Cert.Kernel.main_arg2) :=
  (Hand.W3_of_ne m c _ (by decide)).trans ((Hand.W2_of_ne m c _ (by decide)).trans (W1_of m c _ (by decide)))
theorem W3_main_arg3 (c : Dev Cert.Kernel.nD) :
    Hand.W3 m c Cert.Kernel.main_arg3 = m ((c : Thread Cert.Kernel.nD Cert.Kernel.τ).loc Cert.Kernel.main_arg3) :=
  (Hand.W3_of_ne m c _ (by decide)).trans ((Hand.W2_of_ne m c _ (by decide)).trans (W1_of m c _ (by decide)))

end Cert.Kernel.Hand

end
-- ==== Proof.KI.Step.lean ====
/-
  One grid point of the attention kernel as pure functions of what it reads: the query block, the key and value
  blocks, the two schedule words that place the blocks (the query block's and the key block's number), and the three
  running quantities a row carries from one key block to the next — the running maximum, the running denominator
  and the running numerator. `stepM`, `stepL`, `stepA` are what the point stores back into the three; `outO` is the
  quotient stored into the output block at the last key block of a query block. At the first key block of a query
  block the three start from `initM` (the mask value), `initL` and `initA` (zeros).
-/
import proofs.«415724_j60610578481678_3_alg».proof.Proof.Gen.KernelIdeal.Launch
import proofs.«415724_j60610578481678_3_alg».proof.Proof.Gen.KernelIdeal.Points
import proofs.«415724_j60610578481678_3_alg».proof.Proof.Gen.KernelIdeal.Skeleton
import Idealize.ShloMosaic.Lib.Pipeline.FrameBody
import Idealize.ShloMosaic.Lib.Pipeline.RegionsLoop
import Idealize.ShloMosaic.Lib.Pipeline.FrameSuffix
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The running maximum, denominator and numerator a query block starts from. -/
def initM : Vec F S1024x1 .f32 := k1_pay6 (F := F)
def initL : Vec F S1024x1 .f32 := k1_pay7 (F := F)
def initA : Vec F S1024x1024 .f32 := k1_pay8 (F := F)

/-- The masked, scaled scores of the point: query block against key block, placed by the two schedule words. -/
def scoreB (w2 w5 : Elt F .i32) (q : Vec F S1024x1024 .bf16) (k : Vec F S512x1024 .bf16) : Vec F S1024x512 .f32 :=
  k1_pay10 w2 w5 q k

/-- The running maximum after the point. -/
def stepM (w2 w5 : Elt F .i32) (q : Vec F S1024x1024 .bf16) (k : Vec F S512x1024 .bf16) (mm : Vec F S1024x1 .f32) : Vec F S1024x1 .f32 :=
  k1_pay4 (k1_pay11 w2 w5 q k mm)

/-- The running denominator after the point. -/
def stepL (w2 w5 : Elt F .i32) (q : Vec F S1024x1024 .bf16) (k : Vec F S512x1024 .bf16) (mm ll : Vec F S1024x1 .f32) : Vec F S1024x1 .f32 :=
  k1_pay2 (k1_pay10 w2 w5 q k) (k1_pay11 w2 w5 q k mm) (k1_pay12 w2 w5 q k mm) ll

/-- The running numerator after the point. -/
def stepA (w2 w5 : Elt F .i32) (q : Vec F S1024x1024 .bf16) (k v : Vec F S512x1024 .bf16) (mm : Vec F S1024x1 .f32)
    (acc : Vec F S1024x1024 .f32) : Vec F S1024x1024 .f32 :=
  k1_pay3 (k1_pay9 v) (k1_pay10 w2 w5 q k) (k1_pay11 w2 w5 q k mm) (k1_pay12 w2 w5 q k mm) acc

/-- The output block: numerator over denominator. -/
def outO (acc : Vec F S1024x1024 .f32) (ll : Vec F S1024x1 .f32) : Vec F S1024x1024 .f32 := k1_pay5 acc ll

/-! ## The schedule tables as the body is handed them -/

/-- Each table's whole buffer as a memref. -/
abbrev tbM0 : Memref sig .tc .smem S2x10 .i32 := Memref.whole main_c
abbrev tbM1 : Memref sig .tc .smem S2x10 .i32 := Memref.whole main_c_0
abbrev tbM2 : Memref sig .tc .smem S2x10 .i32 := Memref.whole main_c_1
abbrev tbM3 : Memref sig .tc .smem S2x10 .i32 := Memref.whole main_c_2

/-- A table's contents type on core `c`, and the table held whole at contents `f`. -/
abbrev TbBuf (c : Dev nD) (M : Memref sig .tc .smem S2x10 .i32) : Type := Buf (Elt F) (M.view.loc (c : Thread nD τ))
abbrev tbPt (c : Dev nD) (M : Memref sig .tc .smem S2x10 .i32) (f : TbBuf (F := F) c M) : sProp 𝕄 :=
  M.view.loc (c : Thread nD τ) ↦{fullShare} f

/-- The cell of a table the body reads at grid point `i`: row = the core axis, column = the step axis. -/
abbrev rW (i : grid1.Coords) : Rect S2x10 := Rect.unit (s := S2x10) (k1_off1 i) S1x1.size (k1_off1_inb i)

/-- The word of table `M`, held at `xt`, that the body loads at grid point `i`. -/
abbrev tword (c : Dev nD) (M : Memref sig .tc .smem S2x10 .i32) (xt : TbBuf (F := F) c M) (i : grid1.Coords) : Elt F .i32 :=
  M.view.readAt (Elt F) (rW i).toLoadRect xt (Shape.Idx.first (numel1_S1x1.symm ▸ Nat.one_pos))

/-- The body's two branch conditions as functions of the words it loads: "first key block of the query block" and
    "last key block of the query block". -/
abbrev condF (w8 : BitVec 32) : Prop := Scalar.cmpi .ne (Scalar.extui (Scalar.cmpi .eq w8 1#32)) 0#32 = 1#1
abbrev condL (w11 : BitVec 32) : Prop := k1_cond2 w11 = 1#1

end Cert.KernelIdeal.Hand

end
-- ==== Proof.KI.Region0.lean ====
/-
  The first call of the program, one projection: each of its 8 grid points multiplies a block of 512 rows of the
  input (f32, rounded to bf16) by the whole weight (bf16, 1024 × 3072) and stores the product, rounded to bf16, as a
  block of 512 rows of the output. This module states, for ANY contents `V` of the core's buffers when the call is
  entered, what each of the three windows holds at each point, what the body leaves in the output window's buffer —
  the matrix product of the two input blocks —, and proves the body's triple and the pipeline's body obligation
  from it. The inputs are left as found: the row block is fetched at every point, the weight once, at the first.
-/
import proofs.«415724_j60610578481678_3_alg».proof.Proof.KI.Step
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (V : (c : Dev nD) → (b : Ref sig .tc) → Buf (Elt F) ((c : Thread nD τ).loc b))

/-! ## The windows' blocks -/

/-- Window `w`'s block at point `t`, read off its array at the entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- The row-block window's current buffer holds its block at every point, for any proof data whose array is
    `V`'s and whose body leaves the block in place: the window is an input, uncut and never idle, so where it is
    not fetched its block index has not moved. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- The same of the weight window, which is fetched at the first point only: its block index never moves. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: each buffer whole -/

/-- The offsets of every access are zero. -/
theorem hz0 : (![0, 0] : Fin 2 → Nat) = fun _ => 0 := funext fun a => by fin_cases a <;> rfl

abbrev r0_0 : Rect S512x1024 := Rect.unit (s := S512x1024) ![0, 0] S512x1024.size inb_S512x1024_S512x1024_0_0
abbrev r0_1 : Rect S1024x3072 := Rect.unit (s := S1024x3072) ![0, 0] S1024x3072.size inb_S1024x3072_S1024x3072_0_0
abbrev r0_2 : Rect S512x3072 := Rect.unit (s := S512x3072) ![0, 0] S512x3072.size inb_S512x3072_S512x3072_0_0

/-! ## What the body leaves in the output window's buffer -/

/-- The output buffer after the body, from the two input blocks: the rounded product. -/
def out0_2 (x0 : Vec F S512x1024 .f32) (x1 : Vec F S1024x3072 .bf16) : Vec F S512x3072 .bf16 := k0_pay1 x0 x1

/-- The same as the body's one store leaves it: one piece, the whole buffer, its payload computed from the two
    whole-buffer loads. -/
def out0_2c (x0 : Vec F S512x1024 .f32) (x1 : Vec F S1024x3072 .bf16) : Vec F S512x3072 .bf16 :=
  View.canon [⟨r0_2, k0_pay1 (View.ld x0 r0_0) (View.ld x1 r0_1)⟩]

/-- One store through the whole buffer leaves its payload, and a load through a whole buffer reads its contents. -/
theorem out0_2c_eq (x0 : Vec F S512x1024 .f32) (x1 : Vec F S1024x3072 .bf16) : out0_2c x0 x1 = out0_2 x0 x1 := by
  unfold out0_2c out0_2
  rw [View.canon_unit_zero hz0, View.ld_unit_zero (S := S512x1024) hz0, View.ld_unit_zero (S := S1024x3072) hz0]

/-- The one store covers the buffer. -/
theorem cover0_2 (p0 : Vec F S512x3072 .bf16) (y : S512x3072.Idx) :
    ∃ pc ∈ ([⟨r0_2, p0⟩] : List (View.Piece (Elt F) S512x3072 .bf16)), y ∈ pc.1.set :=
  ⟨_, List.mem_singleton_self _, View.mem_set_unit_zero hz0 inb_S512x3072_S512x3072_0_0 y⟩

/-! ## The body's triple -/

set_option maxHeartbeats 1000000 in
/-- The body on whole staging memrefs, the two inputs' at contents `x0`, `x1` and the output's at anything, runs to
    the continuation holding the inputs' as they were and the output's at `out0_2 x0 x1`. -/
theorem sound_kernel0 (c : Dev nD) (E : Set ℕ) (i : grid0.Coords)
    (arg0 : Memref sig .tc .vmem S512x1024 .f32) (harg0 : arg0.IsWhole)
    (arg1 : Memref sig .tc .vmem S1024x3072 .bf16) (harg1 : arg1.IsWhole)
    (arg2 : Memref sig .tc .vmem S512x3072 .bf16) (harg2 : arg2.IsWhole)
    (x0 : Vec F S512x1024 .f32) (x1 : Vec F S1024x3072 .bf16) (K : PUnit → sProp 𝕄) :
    iprop(owns (c : Thread nD τ) arg0 fullShare x0 ∗ owns (c : Thread nD τ) arg1 fullShare x1
        ∗ (∃ d, owns (c : Thread nD τ) arg2 fullShare d)
        ∗ (iprop(owns (c : Thread nD τ) arg0 fullShare x0 ∗ owns (c : Thread nD τ) arg1 fullShare x1
            ∗ owns (c : Thread nD τ) arg2 fullShare (out0_2 x0 x1)) -∗ K ⟨⟩))
      ⊢ wp frame (wpE (defs₀ (F := F)) Variants.none c none) E (cc0__proj_kernel i arg0 harg0 arg1 harg1 arg2 harg2) K := by
  simp only [cc0__proj_kernel_eq_skeleton]; unfold cc0__proj_kernel_skel
  unfold owns
  iintro ⟨⟨%f0, %hf0, H0⟩, ⟨%f1, %hf1, H1⟩, ⟨%d2, %f2, -, H2⟩, Hk⟩
  subst hf0
  subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine Eq.trans (b := out0_2c (arg0.view.read (Elt F) f0) (arg1.view.read (Elt F) f1)) ?_ (out0_2c_eq _ _)
  exact View.read_writes_eq_canon _ _ _ (cover0_2 _)

/-! ## The pipeline's proof data -/

/-- The proof data of the call on core `c`: the arrays as the call finds them; after the body at point `t` each
    input's buffer at its block and the output's at the product of the two blocks; the invariant the scoped rest and
    the generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the body leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]

/-- Each input's current buffer holds its block at every point, fetched there or not. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

/-- The body at any point: the inputs' buffers hold their blocks, so the body's triple applies; the invariant and
    what the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

/-- The library's body obligation, at every point. -/
theorem body_obligation0 (c : Dev nD) : BodyObligation (dat0 (F := F) V c) (defs₀ (F := F)) Variants.none () Set.univ := fun t => by
  rw [bigSep_W0, bigSep_W0]
  exact sound_body0 V c t

end Cert.KernelIdeal.Hand

end
-- ==== Proof.KI.Tables.lean ====
/-
  The attention kernel's schedule. The second pallas_call walks a grid of 2 × 10 points; four small integer tables,
  written by the host as constants, say for each point which query block (1024 rows) and which key block (512 rows)
  it works on and whether the key block is the first or the last one of its query block. Flattened in grid order the
  twenty points visit query blocks 0, 0, 3 × 8, 1 × 4, 2 × 6 with key blocks 0..1, 0..7, 0..3, 0..5: every query
  block `qi` meets exactly the key blocks `0 … 2·qi + 1`, in order, the first flagged "first" and the last flagged "last".
  Here: the tables as contents, that every block they select lies inside its array, and the four words at each point
  in closed form.
-/
import proofs.«415724_j60610578481678_3_alg».proof.Proof.KI.Step
import Idealize.ShloMosaic.PureOps.Ideal

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The four schedule tables as the host writes them. -/
def tbl : pre1.Contents (Elt F) := fun
  | 0 => fun i => lit0 (S2x10.rowMajor i)
  | 1 => fun i => lit1 (S2x10.rowMajor i)
  | 2 => fun i => lit2 (S2x10.rowMajor i)
  | 3 => fun i => lit3 (S2x10.rowMajor i)

/-- Every block the tables select lies inside its array, whole words at both ends: decided over the twenty points
    (the tables' words do not depend on the float instance, so it is decided at one). -/
theorem ok_tblI : ok1 (F := Ideal) tbl := by
  decide +kernel

theorem ok_tbl : ok1 (F := F) tbl := ok_tblI

/-- The admissible tables of the two pipelines: none for the projection, the schedule for the attention. -/
def adm : (p : Fin 2) → (pcfgs (F := F) p).Adm
  | ⟨0, _⟩ => cfg0.toPCfg_adm
  | ⟨1, _⟩ => ⟨tbl, ok_tbl⟩

/-- The attention pipeline at the schedule. -/
abbrev cfgA : Pipeline.Cfg sig Λ₀ := cfg1 (F := F) ⟨tbl, ok_tbl⟩

/-- It has twenty points. -/
theorem NA : (cfgA (F := F)).N = 20 := N_1

/-- The four words at point `n` (query block, key block, first, last), in grid order. -/
def wQ (n : ℕ) : BitVec 32 := ([0, 0, 3, 3, 3, 3, 3, 3, 3, 3, 1, 1, 1, 1, 2, 2, 2, 2, 2, 2] : List (BitVec 32)).getD n 0#32
def wK (n : ℕ) : BitVec 32 := ([0, 1, 0, 1, 2, 3, 4, 5, 6, 7, 0, 1, 2, 3, 0, 1, 2, 3, 4, 5] : List (BitVec 32)).getD n 0#32
def wF (n : ℕ) : BitVec 32 := ([1, 0, 1, 0, 0, 0, 0, 0, 0, 0, 1, 0, 0, 0, 1, 0, 0, 0, 0, 0] : List (BitVec 32)).getD n 0#32
def wL (n : ℕ) : BitVec 32 := ([0, 1, 0, 0, 0, 0, 0, 0, 0, 1, 0, 0, 0, 1, 0, 0, 0, 0, 0, 1] : List (BitVec 32)).getD n 0#32

/-- The table cell the body reads at point `t`, as an index of the table. -/
abbrev cellAt (t : Fin grid1.N) : S2x10.Idx :=
  (rW (grid1.coords t)).emb (Shape.Idx.first (Gen.numel1_S1x1.symm ▸ Nat.one_pos))

/-- The literal tables at that cell are the closed forms (no float instance in sight: decided). -/
theorem lit0_at : ∀ t : Fin grid1.N, lit0 (S2x10.rowMajor (cellAt t)) = wQ t.val := by decide +kernel
theorem lit1_at : ∀ t : Fin grid1.N, lit1 (S2x10.rowMajor (cellAt t)) = wK t.val := by decide +kernel
theorem lit2_at : ∀ t : Fin grid1.N, lit2 (S2x10.rowMajor (cellAt t)) = wF t.val := by decide +kernel
theorem lit3_at : ∀ t : Fin grid1.N, lit3 (S2x10.rowMajor (cellAt t)) = wL t.val := by decide +kernel

/-- So the words the body loads at point `t` from the tables held at `tbl` are the closed forms. -/
theorem tword0 (c : Dev nD) (t : Fin grid1.N) : tword (F := F) c tbM0 (tbl 0) (grid1.coords t) = wQ t.val := lit0_at t
theorem tword1 (c : Dev nD) (t : Fin grid1.N) : tword (F := F) c tbM1 (tbl 1) (grid1.coords t) = wK t.val := lit1_at t
theorem tword2 (c : Dev nD) (t : Fin grid1.N) : tword (F := F) c tbM2 (tbl 2) (grid1.coords t) = wF t.val := lit2_at t
theorem tword3 (c : Dev nD) (t : Fin grid1.N) : tword (F := F) c tbM3 (tbl 3) (grid1.coords t) = wL t.val := lit3_at t

/-- The two branch conditions at each point, decided: "first" at points 0, 2, 10, 14; "last" at points 1, 9, 13, 19. -/
theorem condF_iff : ∀ n : Fin 20, condF (wF n.val) ↔ (n.val = 0 ∨ n.val = 2 ∨ n.val = 10 ∨ n.val = 14) := by decide +kernel
theorem condL_iff : ∀ n : Fin 20, condL (wL n.val) ↔ (n.val = 1 ∨ n.val = 9 ∨ n.val = 13 ∨ n.val = 19) := by decide +kernel
theorem wF_eq_one_iff : ∀ n : Fin 20, wF n.val = 1#32 ↔ (n.val = 0 ∨ n.val = 2 ∨ n.val = 10 ∨ n.val = 14) := by decide +kernel

end Cert.KernelIdeal.Hand

end
-- ==== Proof.KI.Data1.lean ====
/-
  The attention region's proof data: what each window's staging buffer holds after the body at each of the twenty
  points, and the region's invariant between points. The three input windows (query, key and value blocks, all cut
  from the one projected array, which the three hold at a third of its share each) are left as found. The three
  scratch buffers carry a query block's running numerator, maximum and denominator from one key block to the next:
  `sc1 n` is what they hold after `n` points, by recursion along the schedule — restarted where the schedule says
  "first", advanced by the point's step functions. The output window's buffer receives numerator / denominator at
  the points the schedule calls "last"; elsewhere the body does not touch it.
-/
import proofs.«415724_j60610578481678_3_alg».proof.Proof.KI.Tables

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-- Window `w`'s block at point `t`, read off its array as the region finds it. -/
def iblk1 (c : Dev nD) (w : Fin (cfgA (F := F)).W) (t : Fin (cfgA (F := F)).N) :
    (((cfgA (F := F)).win w).xblock ((cfgA (F := F)).grid.coords t)).Idx → Elt F ((cfgA (F := F)).win w).elt :=
  (((cfgA (F := F)).win w).blk t).view.read (Elt F) (V c (Pipeline.arrRef spec1 w))

/-- The running numerator, maximum and denominator after `n` points. -/
def sc1 (c : Dev nD) : ℕ → Vec F S1024x1024 .f32 × Vec F S1024x1 .f32 × Vec F S1024x1 .f32
  | 0 => (initA, initM, initL)
  | n + 1 =>
    if h : n < (cfgA (F := F)).N then
      (stepA (wQ n) (wK n) (iblk1 V c 0 ⟨n, h⟩) (iblk1 V c 1 ⟨n, h⟩) (iblk1 V c 2 ⟨n, h⟩)
          (if wF n = 1#32 then initM else (sc1 c n).2.1) (if wF n = 1#32 then initA else (sc1 c n).1),
       stepM (wQ n) (wK n) (iblk1 V c 0 ⟨n, h⟩) (iblk1 V c 1 ⟨n, h⟩) (if wF n = 1#32 then initM else (sc1 c n).2.1),
       stepL (wQ n) (wK n) (iblk1 V c 0 ⟨n, h⟩) (iblk1 V c 1 ⟨n, h⟩)
          (if wF n = 1#32 then initM else (sc1 c n).2.1) (if wF n = 1#32 then initL else (sc1 c n).2.2))
    else sc1 c n

/-- The scratch buffers as memrefs. -/
abbrev scM0 : Memref sig .tc .vmem S1024x1024 .f32 := Memref.whole cc1_scratch0
abbrev scM1 : Memref sig .tc .vmem S1024x1 .f32 := Memref.whole cc1_scratch1
abbrev scM2 : Memref sig .tc .vmem S1024x1 .f32 := Memref.whole cc1_scratch2

/-- The first pallas_call's staging buffers, which this region never touches: each whole at some contents. -/
def otherStaging (c : Dev nD) : sProp 𝕄 :=
  iprop((∃ f : Buf (Elt F) ((c : Thread nD τ).loc cc0_stg0_0), ((c : Thread nD τ).loc cc0_stg0_0) ↦{fullShare} f)
    ∗ (∃ f : Buf (Elt F) ((c : Thread nD τ).loc cc0_stg0_1), ((c : Thread nD τ).loc cc0_stg0_1) ↦{fullShare} f)
    ∗ (∃ f : Buf (Elt F) ((c : Thread nD τ).loc cc0_stg1_0), ((c : Thread nD τ).loc cc0_stg1_0) ↦{fullShare} f)
    ∗ (∃ f : Buf (Elt F) ((c : Thread nD τ).loc cc0_stg2_0), ((c : Thread nD τ).loc cc0_stg2_0) ↦{fullShare} f)
    ∗ (∃ f : Buf (Elt F) ((c : Thread nD τ).loc cc0_stg2_1), ((c : Thread nD τ).loc cc0_stg2_1) ↦{fullShare} f))

/-- The invariant before point `n`: the three scratch buffers — at anything before the first point, afterwards at
    what the points so far left (`sc1 n`) —, the four tables at the schedule, the untouched staging buffers. -/
def Phi1 (c : Dev nD) (n : ℕ) : sProp 𝕄 :=
  iprop((∃ (a : Vec F S1024x1024 .f32) (mm ll : Vec F S1024x1 .f32), ⌜n ≠ 0 → a = (sc1 V c n).1 ∧ mm = (sc1 V c n).2.1 ∧ ll = (sc1 V c n).2.2⌝
      ∗ owns (c : Thread nD τ) scM0 fullShare a ∗ owns (c : Thread nD τ) scM1 fullShare mm ∗ owns (c : Thread nD τ) scM2 fullShare ll)
    ∗ tbPt c tbM0 (tbl 0) ∗ tbPt c tbM1 (tbl 1) ∗ tbPt c tbM2 (tbl 2) ∗ tbPt c tbM3 (tbl 3)
    ∗ otherStaging c)

/-- The proof data of the attention pipeline on core `c`. -/
def dat1 (c : Dev nD) : Dat τ (Elt F) Unit ℕ (UR sig nD τ) ℕ (cfgA (F := F)) c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outO (sc1 V c (t.val + 1)).1 (sc1 V c (t.val + 1)).2.2
  Φ t := Phi1 V c t.val
  q w := match w with
    | ⟨0, _⟩ => fullShare.left
    | ⟨1, _⟩ => fullShare.right.left
    | ⟨2, _⟩ => fullShare.right.right
    | ⟨3, _⟩ => fullShare
  owed _ := 0

theorem A_eq1 (c : Dev nD) (w : Fin (cfgA (F := F)).W) : (dat1 V c).A w = V c (Pipeline.arrRef spec1 w) := by
  dsimp only [dat1]

theorem after1_0 (c : Dev nD) (t : Fin (cfgA (F := F)).N) : (dat1 V c).after 0 t = iblk1 V c 0 t := by dsimp only [dat1]; rfl
theorem after1_1 (c : Dev nD) (t : Fin (cfgA (F := F)).N) : (dat1 V c).after 1 t = iblk1 V c 1 t := by dsimp only [dat1]; rfl
theorem after1_2 (c : Dev nD) (t : Fin (cfgA (F := F)).N) : (dat1 V c).after 2 t = iblk1 V c 2 t := by dsimp only [dat1]; rfl
theorem after1_3 (c : Dev nD) (t : Fin (cfgA (F := F)).N) :
    (dat1 V c).after 3 t = outO (sc1 V c (t.val + 1)).1 (sc1 V c (t.val + 1)).2.2 := by dsimp only [dat1]; rfl
theorem Phi1_eq (c : Dev nD) (t : Fin ((cfgA (F := F)).N + 1)) : (dat1 V c).Φ t = Phi1 V c t.val := rfl
theorem owed1 (c : Dev nD) (t : Fin ((cfgA (F := F)).N + 1)) : (dat1 V c).owed t = 0 := rfl

/-- One step of the recursion, spelt out. -/
theorem sc1_succ (c : Dev nD) (n : ℕ) (h : n < (cfgA (F := F)).N) :
    sc1 V c (n + 1) =
      (stepA (wQ n) (wK n) (iblk1 V c 0 ⟨n, h⟩) (iblk1 V c 1 ⟨n, h⟩) (iblk1 V c 2 ⟨n, h⟩)
          (if wF n = 1#32 then initM else (sc1 V c n).2.1) (if wF n = 1#32 then initA else (sc1 V c n).1),
       stepM (wQ n) (wK n) (iblk1 V c 0 ⟨n, h⟩) (iblk1 V c 1 ⟨n, h⟩) (if wF n = 1#32 then initM else (sc1 V c n).2.1),
       stepL (wQ n) (wK n) (iblk1 V c 0 ⟨n, h⟩) (iblk1 V c 1 ⟨n, h⟩)
          (if wF n = 1#32 then initM else (sc1 V c n).2.1) (if wF n = 1#32 then initL else (sc1 V c n).2.2)) := by
  rw [sc1, dif_pos h]

end Cert.KernelIdeal.Hand

end
-- ==== Proof.KI.Chain.lean ====
/-
  The contents of the TensorCore's buffers at the three boundaries of @main — after the host operations that write
  the schedule tables and lay the three weight matrices side by side (`W1`), after the projection region, which
  changes only the projected array (`W2`), after the attention region, which changes only the result (`W3`) — and
  the run of the whole program to the last of them.
-/
import proofs.«415724_j60610578481678_3_alg».proof.Proof.KI.Region0
import proofs.«415724_j60610578481678_3_alg».proof.Proof.KI.Data1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- Core `c`'s buffers at launch, -/
abbrev W0 (c : Dev nD) : Valuation τ sig (Elt F) := fun b => m (c, b)
/-- after the host operations, -/
abbrev W1 (c : Dev nD) : Valuation τ sig (Elt F) := StableHlo.after hostOps0 (W0 m c)
/-- the same read at the TensorCore's references: what the projection region is entered with, -/
abbrev V1 : (c : Dev nD) → (b : Ref sig .tc) → Buf (Elt F) ((c : Thread nD τ).loc b) := fun c b => W1 m c b
/-- after the projection region: the projected array at what its write-backs leave, -/
def W2 (c : Dev nD) : Valuation τ sig (Elt F) :=
  Function.update (W1 m c) main_v2 ((dat0 (V1 m) c).arrAt 2 cfg0.N)
abbrev V2 : (c : Dev nD) → (b : Ref sig .tc) → Buf (Elt F) ((c : Thread nD τ).loc b) := fun c b => W2 m c b
/-- after the attention region: the result at what its write-backs leave. -/
def W3 (c : Dev nD) : Valuation τ sig (Elt F) :=
  Function.update (W2 m c) main_v3 ((dat1 (V2 m) c).arrAt 3 (cfgA (F := F)).N)

theorem W2_v2 (c : Dev nD) : W2 m c main_v2 = (dat0 (V1 m) c).arrAt 2 cfg0.N := by
  unfold W2; exact Function.update_self ..
theorem W2_of_ne (c : Dev nD) (b : Ref sig .tc) (h : b ≠ main_v2) : W2 m c b = W1 m c b := by
  unfold W2; exact Function.update_of_ne (StableHlo.devRef_ne_of_ne h) ..
theorem W3_v3 (c : Dev nD) : W3 m c main_v3 = (dat1 (V2 m) c).arrAt 3 (cfgA (F := F)).N := by
  unfold W3; exact Function.update_self ..
theorem W3_of_ne (c : Dev nD) (b : Ref sig .tc) (h : b ≠ main_v3) : W3 m c b = W2 m c b := by
  unfold W3; exact Function.update_of_ne (StableHlo.devRef_ne_of_ne h) ..

/-- The two pipelines' proof data, each at its region's entry contents. -/
def pdats : (p : Fin 2) → (c : Dev nD) → Dat τ (Elt F) Unit ℕ (UR sig nD τ) ℕ (Pipeline.pin (pcfgs (F := F)) adm p) c
  | ⟨0, _⟩ => fun c => dat0 (V1 m) c
  | ⟨1, _⟩ => fun c => dat1 (V2 m) c

end Cert.KernelIdeal.Hand

end
-- ==== Proof.KI.Reg1Aux.lean ====
/-
  The attention region's invariant at its two ends. At entry the region is handed the four schedule tables, each held
  whole, and the core's scoped buffers that are no staging buffer of its own: the five staging buffers of the
  projection and the three scratch buffers, each whole at some contents. That is the invariant before the first point:
  there the scratch buffers may hold anything (the fact about them is stated only after at least one point). After
  any number of points the invariant gives the same resources back, the scratch contents forgotten.
-/
import proofs.«415724_j60610578481678_3_alg».proof.Proof.KI.Data1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (V : (c : Dev nD) → (b : Ref sig .tc) → Buf (Elt F) ((c : Thread nD τ).loc b))

/-- The four tables held whole, one by one. -/
private theorem prefHeld1_eq (c : Dev nD) :
    (Pipeline.prefHeld pre1 c (fun _ => fullShare) (tbl (F := F)) : sProp 𝕄)
      = iprop(tbPt c tbM0 (tbl 0) ∗ tbPt c tbM1 (tbl 1) ∗ tbPt c tbM2 (tbl 2) ∗ tbPt c tbM3 (tbl 3)) := by
  unfold Pipeline.prefHeld
  rw [bigSep_W1]
  rfl

/-- What the region is handed at entry is its invariant before the first point. -/
theorem reg1_hin (c : Dev nD) :
    iprop(Pipeline.prefHeld pre1 c (fun _ => fullShare) (tbl (F := F))
        ∗ Pipeline.scopedRest (Ix := Unit) (Name := ℕ) (U := UR sig nD τ) (Lvl := ℕ) spec1 c) ⊢ (Phi1 V c 0 : sProp 𝕄) := by
  rw [prefHeld1_eq, scopedRest1_eq]
  unfold Phi1 otherStaging
  simp only [scM0, scM1, scM2, owns_whole]
  iintro ⟨⟨T0, T1, T2, T3⟩, S0, S1, S2, S3, S4, ⟨%a, A⟩, ⟨%mm, Mm⟩, ⟨%ll, Ll⟩⟩
  isplitl [A Mm Ll]
  · iexists a; iexists mm; iexists ll
    isplitr; · ipureintro; intro h; exact absurd rfl h
    isplitl [A]; · iexact A
    isplitl [Mm]; · iexact Mm
    iexact Ll
  isplitl [T0]; · iexact T0
  isplitl [T1]; · iexact T1
  isplitl [T2]; · iexact T2
  isplitl [T3]; · iexact T3
  isplitl [S0]; · iexact S0
  isplitl [S1]; · iexact S1
  isplitl [S2]; · iexact S2
  isplitl [S3]; · iexact S3
  iexact S4

/-- The invariant after any number of points gives back what the region was handed. -/
theorem reg1_hout (c : Dev nD) (n : ℕ) :
    (Phi1 V c n : sProp 𝕄) ⊢ iprop(Pipeline.prefHeld pre1 c (fun _ => fullShare) (tbl (F := F))
        ∗ Pipeline.scopedRest (Ix := Unit) (Name := ℕ) (U := UR sig nD τ) (Lvl := ℕ) spec1 c) := by
  rw [prefHeld1_eq, scopedRest1_eq]
  unfold Phi1 otherStaging
  simp only [scM0, scM1, scM2, owns_whole]
  iintro ⟨⟨%a, %mm, %ll, -, A, Mm, Ll⟩, T0, T1, T2, T3, S0, S1, S2, S3, S4⟩
  isplitl [T0 T1 T2 T3]
  · isplitl [T0]; · iexact T0
    isplitl [T1]; · iexact T1
    isplitl [T2]; · iexact T2
    iexact T3
  isplitl [S0]; · iexact S0
  isplitl [S1]; · iexact S1
  isplitl [S2]; · iexact S2
  isplitl [S3]; · iexact S3
  isplitl [S4]; · iexact S4
  isplitl [A]; · iexists a; iexact A
  isplitl [Mm]; · iexists mm; iexact Mm
  iexists ll; iexact Ll

end Cert.KernelIdeal.Hand

end
-- ==== Proof.KI.Run1.lean ====
/-
  One grid point of the attention kernel, run: the body's triple in each of its three control cases. The body reads four
  schedule words, starts the three running quantities afresh when the point is the first key block of its query
  block, reads the query block and the key and value blocks, replaces the running maximum, denominator and numerator
  by their updates, and at the last key block of the query block stores numerator over denominator into the output
  block. Every store replaces a WHOLE buffer, so each written buffer ends holding exactly one value: the step function
  of what the point read. Case A: first key block, not the last (the running quantities start from their initial
  values); case B: neither first nor last; case C: last, not first (the output block is written).
-/
import proofs.«415724_j60610578481678_3_alg».proof.Proof.KI.Step
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The zero offsets of a rank-2 buffer, as the constant function. -/
private theorem hz : (![0, 0] : Fin 2 → Nat) = fun _ => 0 := funext fun a => by fin_cases a <;> rfl

/-- After a store of the whole buffer, whatever was stored before it, the buffer reads as the stored value. -/
private theorem read_writes_last {κ : Kind} {sp : Space} {S : Shape} {e : EltTy} (v : View sig κ sp S e)
    (f : v.ty.Contents (Elt F)) {off : Fin S.rank → Nat} (h : off = fun _ => 0)
    (inb : ∀ a, off a + S.size a ≤ S.size a) (w : S.Idx → Elt F e) (L : List (View.Piece (Elt F) S e)) :
    v.read (Elt F) (v.writes (Elt F) f ((⟨Rect.unit off S.size inb, w⟩ : View.Piece (Elt F) S e) :: L)) = w := by
  rw [View.read_writes_eq_canon _ _ _ (fun y => ⟨_, List.mem_cons_self, View.mem_set_unit_zero h inb y⟩),
    View.canon_cons_unit_zero h]

set_option maxHeartbeats 1000000 in
/-- Case A, the first key block of a query block that is not its last: whatever the three running buffers held, they
    end holding the updates computed from the initial maximum, denominator and numerator; the inputs, the output
    block and the tables are as they were. -/
theorem run1_A (c : Dev nD) (i : grid1.Coords)
    (arg6 : Memref sig .tc .vmem S1024x1024 .bf16) (harg6 : arg6.IsWhole) (arg7 : Memref sig .tc .vmem S512x1024 .bf16) (harg7 : arg7.IsWhole)
    (arg8 : Memref sig .tc .vmem S512x1024 .bf16) (harg8 : arg8.IsWhole) (arg9 : Memref sig .tc .vmem S1024x1024 .f32) (harg9 : arg9.IsWhole)
    (arg10 : Memref sig .tc .vmem S1024x1024 .f32) (harg10 : arg10.IsWhole) (arg11 : Memref sig .tc .vmem S1024x1 .f32) (harg11 : arg11.IsWhole)
    (arg12 : Memref sig .tc .vmem S1024x1 .f32) (harg12 : arg12.IsWhole)
    (xt0 : TbBuf (F := F) c tbM0) (xt1 : TbBuf (F := F) c tbM1) (xt2 : TbBuf (F := F) c tbM2) (xt3 : TbBuf (F := F) c tbM3)
    (hF : condF (tword c tbM2 xt2 i)) (hL : ¬ condL (tword c tbM3 xt3 i))
    (q0 : Vec F S1024x1024 .bf16) (k0 v0 : Vec F S512x1024 .bf16) (o0 : Vec F S1024x1024 .f32) (E : Set ℕ) (K : PUnit → sProp 𝕄) :
    iprop(owns (c : Thread nD τ) arg6 fullShare q0 ∗ owns (c : Thread nD τ) arg7 fullShare k0 ∗ owns (c : Thread nD τ) arg8 fullShare v0
        ∗ owns (c : Thread nD τ) arg9 fullShare o0
        ∗ (∃ d, owns (c : Thread nD τ) arg10 fullShare d) ∗ (∃ d, owns (c : Thread nD τ) arg11 fullShare d) ∗ (∃ d, owns (c : Thread nD τ) arg12 fullShare d)
        ∗ tbPt c tbM0 xt0 ∗ tbPt c tbM1 xt1 ∗ tbPt c tbM2 xt2 ∗ tbPt c tbM3 xt3
        ∗ (iprop(owns (c : Thread nD τ) arg6 fullShare q0 ∗ owns (c : Thread nD τ) arg7 fullShare k0 ∗ owns (c : Thread nD τ) arg8 fullShare v0
            ∗ owns (c : Thread nD τ) arg9 fullShare o0
            ∗ owns (c : Thread nD τ) arg10 fullShare (stepA (tword c tbM0 xt0 i) (tword c tbM1 xt1 i) q0 k0 v0 initM initA)
            ∗ owns (c : Thread nD τ) arg11 fullShare (stepM (tword c tbM0 xt0 i) (tword c tbM1 xt1 i) q0 k0 initM)
            ∗ owns (c : Thread nD τ) arg12 fullShare (stepL (tword c tbM0 xt0 i) (tword c tbM1 xt1 i) q0 k0 initM initL)
            ∗ tbPt c tbM0 xt0 ∗ tbPt c tbM1 xt1 ∗ tbPt c tbM2 xt2 ∗ tbPt c tbM3 xt3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%f9, %hf9, H9⟩, ⟨%d10, %f10, -, H10⟩, ⟨%d11, %f11, -, H11⟩, ⟨%d12, %f12, -, H12⟩, HT0, HT1, HT2, HT3, Hk⟩
  obtain rfl := harg6.eq_unread hf6; obtain rfl := harg7.eq_unread hf7; obtain rfl := harg8.eq_unread hf8
  obtain rfl := harg9.eq_unread hf9
  sl_exec (disch := first | sl_exact hF | sl_exact hL)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    on_goal 2 => iexact H10
    ipureintro
    refine (read_writes_last _ _ hz _ _ _).trans ?_
    sl_unfold_run_names
    unfold stepA initM initA
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H11]
  · iexists _; isplitr
    on_goal 2 => iexact H11
    ipureintro
    refine (read_writes_last _ _ hz _ _ _).trans ?_
    sl_unfold_run_names
    unfold stepM initM
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H12]
  · iexists _; isplitr
    on_goal 2 => iexact H12
    ipureintro
    refine (read_writes_last _ _ hz _ _ _).trans ?_
    sl_unfold_run_names
    unfold stepL initM initL
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [HT0]; · iexact HT0
  isplitl [HT1]; · iexact HT1
  isplitl [HT2]; · iexact HT2
  iexact HT3

set_option maxHeartbeats 1000000 in
/-- Case B, a key block that is neither first nor last: the three running buffers, holding `a0`, `m0`, `l0`, end
    holding their updates; the inputs, the output block and the tables are as they were. -/
theorem run1_B (c : Dev nD) (i : grid1.Coords)
    (arg6 : Memref sig .tc .vmem S1024x1024 .bf16) (harg6 : arg6.IsWhole) (arg7 : Memref sig .tc .vmem S512x1024 .bf16) (harg7 : arg7.IsWhole)
    (arg8 : Memref sig .tc .vmem S512x1024 .bf16) (harg8 : arg8.IsWhole) (arg9 : Memref sig .tc .vmem S1024x1024 .f32) (harg9 : arg9.IsWhole)
    (arg10 : Memref sig .tc .vmem S1024x1024 .f32) (harg10 : arg10.IsWhole) (arg11 : Memref sig .tc .vmem S1024x1 .f32) (harg11 : arg11.IsWhole)
    (arg12 : Memref sig .tc .vmem S1024x1 .f32) (harg12 : arg12.IsWhole)
    (xt0 : TbBuf (F := F) c tbM0) (xt1 : TbBuf (F := F) c tbM1) (xt2 : TbBuf (F := F) c tbM2) (xt3 : TbBuf (F := F) c tbM3)
    (hF : ¬ condF (tword c tbM2 xt2 i)) (hL : ¬ condL (tword c tbM3 xt3 i))
    (q0 : Vec F S1024x1024 .bf16) (k0 v0 : Vec F S512x1024 .bf16) (o0 : Vec F S1024x1024 .f32)
    (a0 : Vec F S1024x1024 .f32) (m0 l0 : Vec F S1024x1 .f32) (E : Set ℕ) (K : PUnit → sProp 𝕄) :
    iprop(owns (c : Thread nD τ) arg6 fullShare q0 ∗ owns (c : Thread nD τ) arg7 fullShare k0 ∗ owns (c : Thread nD τ) arg8 fullShare v0
        ∗ owns (c : Thread nD τ) arg9 fullShare o0
        ∗ owns (c : Thread nD τ) arg10 fullShare a0 ∗ owns (c : Thread nD τ) arg11 fullShare m0 ∗ owns (c : Thread nD τ) arg12 fullShare l0
        ∗ tbPt c tbM0 xt0 ∗ tbPt c tbM1 xt1 ∗ tbPt c tbM2 xt2 ∗ tbPt c tbM3 xt3
        ∗ (iprop(owns (c : Thread nD τ) arg6 fullShare q0 ∗ owns (c : Thread nD τ) arg7 fullShare k0 ∗ owns (c : Thread nD τ) arg8 fullShare v0
            ∗ owns (c : Thread nD τ) arg9 fullShare o0
            ∗ owns (c : Thread nD τ) arg10 fullShare (stepA (tword c tbM0 xt0 i) (tword c tbM1 xt1 i) q0 k0 v0 m0 a0)
            ∗ owns (c : Thread nD τ) arg11 fullShare (stepM (tword c tbM0 xt0 i) (tword c tbM1 xt1 i) q0 k0 m0)
            ∗ owns (c : Thread nD τ) arg12 fullShare (stepL (tword c tbM0 xt0 i) (tword c tbM1 xt1 i) q0 k0 m0 l0)
            ∗ tbPt c tbM0 xt0 ∗ tbPt c tbM1 xt1 ∗ tbPt c tbM2 xt2 ∗ tbPt c tbM3 xt3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%f9, %hf9, H9⟩, ⟨%f10, %hf10, H10⟩, ⟨%f11, %hf11, H11⟩, ⟨%f12, %hf12, H12⟩, HT0, HT1, HT2, HT3, Hk⟩
  obtain rfl := harg6.eq_unread hf6; obtain rfl := harg7.eq_unread hf7; obtain rfl := harg8.eq_unread hf8
  obtain rfl := harg9.eq_unread hf9; obtain rfl := harg10.eq_unread hf10; obtain rfl := harg11.eq_unread hf11
  obtain rfl := harg12.eq_unread hf12
  sl_exec (disch := first | sl_exact hF | sl_exact hL)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr; · ipureintro; exact harg9.read_unread _
    iexact H9
  isplitl [H10]
  · iexists _; isplitr
    on_goal 2 => iexact H10
    ipureintro
    refine (read_writes_last _ _ hz _ _ _).trans ?_
    sl_unfold_run_names
    unfold stepA
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz]
  isplitl [H11]
  · iexists _; isplitr
    on_goal 2 => iexact H11
    ipureintro
    refine (read_writes_last _ _ hz _ _ _).trans ?_
    sl_unfold_run_names
    unfold stepM
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz]
  isplitl [H12]
  · iexists _; isplitr
    on_goal 2 => iexact H12
    ipureintro
    refine (read_writes_last _ _ hz _ _ _).trans ?_
    sl_unfold_run_names
    unfold stepL
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz]
  isplitl [HT0]; · iexact HT0
  isplitl [HT1]; · iexact HT1
  isplitl [HT2]; · iexact HT2
  iexact HT3

set_option maxHeartbeats 1000000 in
/-- Case C, the last key block of a query block, not its first: the three running buffers end holding their updates,
    and the output block, whatever it held, ends holding the updated numerator over the updated denominator. -/
theorem run1_C (c : Dev nD) (i : grid1.Coords)
    (arg6 : Memref sig .tc .vmem S1024x1024 .bf16) (harg6 : arg6.IsWhole) (arg7 : Memref sig .tc .vmem S512x1024 .bf16) (harg7 : arg7.IsWhole)
    (arg8 : Memref sig .tc .vmem S512x1024 .bf16) (harg8 : arg8.IsWhole) (arg9 : Memref sig .tc .vmem S1024x1024 .f32) (harg9 : arg9.IsWhole)
    (arg10 : Memref sig .tc .vmem S1024x1024 .f32) (harg10 : arg10.IsWhole) (arg11 : Memref sig .tc .vmem S1024x1 .f32) (harg11 : arg11.IsWhole)
    (arg12 : Memref sig .tc .vmem S1024x1 .f32) (harg12 : arg12.IsWhole)
    (xt0 : TbBuf (F := F) c tbM0) (xt1 : TbBuf (F := F) c tbM1) (xt2 : TbBuf (F := F) c tbM2) (xt3 : TbBuf (F := F) c tbM3)
    (hF : ¬ condF (tword c tbM2 xt2 i)) (hL : condL (tword c tbM3 xt3 i))
    (q0 : Vec F S1024x1024 .bf16) (k0 v0 : Vec F S512x1024 .bf16)
    (a0 : Vec F S1024x1024 .f32) (m0 l0 : Vec F S1024x1 .f32) (E : Set ℕ) (K : PUnit → sProp 𝕄) :
    iprop(owns (c : Thread nD τ) arg6 fullShare q0 ∗ owns (c : Thread nD τ) arg7 fullShare k0 ∗ owns (c : Thread nD τ) arg8 fullShare v0
        ∗ (∃ d, owns (c : Thread nD τ) arg9 fullShare d)
        ∗ owns (c : Thread nD τ) arg10 fullShare a0 ∗ owns (c : Thread nD τ) arg11 fullShare m0 ∗ owns (c : Thread nD τ) arg12 fullShare l0
        ∗ tbPt c tbM0 xt0 ∗ tbPt c tbM1 xt1 ∗ tbPt c tbM2 xt2 ∗ tbPt c tbM3 xt3
        ∗ (iprop(owns (c : Thread nD τ) arg6 fullShare q0 ∗ owns (c : Thread nD τ) arg7 fullShare k0 ∗ owns (c : Thread nD τ) arg8 fullShare v0
            ∗ owns (c : Thread nD τ) arg9 fullShare (outO (stepA (tword c tbM0 xt0 i) (tword c tbM1 xt1 i) q0 k0 v0 m0 a0) (stepL (tword c tbM0 xt0 i) (tword c tbM1 xt1 i) q0 k0 m0 l0))
            ∗ owns (c : Thread nD τ) arg10 fullShare (stepA (tword c tbM0 xt0 i) (tword c tbM1 xt1 i) q0 k0 v0 m0 a0)
            ∗ owns (c : Thread nD τ) arg11 fullShare (stepM (tword c tbM0 xt0 i) (tword c tbM1 xt1 i) q0 k0 m0)
            ∗ owns (c : Thread nD τ) arg12 fullShare (stepL (tword c tbM0 xt0 i) (tword c tbM1 xt1 i) q0 k0 m0 l0)
            ∗ tbPt c tbM0 xt0 ∗ tbPt c tbM1 xt1 ∗ tbPt c tbM2 xt2 ∗ tbPt c tbM3 xt3) -∗ K ⟨⟩))
      ⊢ wp frame (wpE (defs₀ (F := F)) Variants.none c none) E
          (cc1__attn_kernel i tbM0 (Memref.isWhole_whole _) tbM1 (Memref.isWhole_whole _) tbM2 (Memref.isWhole_whole _) tbM3 (Memref.isWhole_whole _)
            arg6 harg6 arg7 harg7 arg8 harg8 arg9 harg9 arg10 harg10 arg11 harg11 arg12 harg12) K := by
  simp only [cc1__attn_kernel_eq_skeleton]; unfold cc1__attn_kernel_skel
  simp only [k1_part1_eq_skeleton]
  unfold owns
  iintro ⟨⟨%f6, %hf6, H6⟩, ⟨%f7, %hf7, H7⟩, ⟨%f8, %hf8, H8⟩, ⟨%d9, %f9, -, H9⟩, ⟨%f10, %hf10, H10⟩, ⟨%f11, %hf11, H11⟩, ⟨%f12, %hf12, H12⟩, HT0, HT1, HT2, HT3, Hk⟩
  obtain rfl := harg6.eq_unread hf6; obtain rfl := harg7.eq_unread hf7; obtain rfl := harg8.eq_unread hf8
  obtain rfl := harg10.eq_unread hf10; obtain rfl := harg11.eq_unread hf11
  obtain rfl := harg12.eq_unread hf12
  sl_exec (disch := first | sl_exact hF | sl_exact hL)
  sl_step
  iapply Hk
  isplitl [H6]
  · iexists _; isplitr; · ipureintro; exact harg6.read_unread _
    iexact H6
  isplitl [H7]
  · iexists _; isplitr; · ipureintro; exact harg7.read_unread _
    iexact H7
  isplitl [H8]
  · iexists _; isplitr; · ipureintro; exact harg8.read_unread _
    iexact H8
  isplitl [H9]
  · iexists _; isplitr
    on_goal 2 => iexact H9
    ipureintro
    refine (read_writes_last _ _ hz _ _ _).trans ?_
    sl_unfold_run_names
    unfold outO stepA stepL
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H10]
  · iexists _; isplitr
    on_goal 2 => iexact H10
    ipureintro
    refine (read_writes_last _ _ hz _ _ _).trans ?_
    sl_unfold_run_names
    unfold stepA
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H11]
  · iexists _; isplitr
    on_goal 2 => iexact H11
    ipureintro
    refine (read_writes_last _ _ hz _ _ _).trans ?_
    sl_unfold_run_names
    unfold stepM
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [H12]
  · iexists _; isplitr
    on_goal 2 => iexact H12
    ipureintro
    refine (read_writes_last _ _ hz _ _ _).trans ?_
    sl_unfold_run_names
    unfold stepL
    simp only [tword, rW, View.readAt_eq_ld, harg6.read_unread, harg7.read_unread, harg8.read_unread, harg9.read_unread,
      harg10.read_unread, harg11.read_unread, harg12.read_unread, View.ld_unit_zero (S := S1024x1024) hz,
      View.ld_unit_zero (S := S512x1024) hz, View.ld_unit_zero (S := S1024x1) hz,
      View.readCov_unit_zero (S := S1024x1024) _ hz, View.readCov_unit_zero (S := S1024x1) _ hz]
  isplitl [HT0]; · iexact HT0
  isplitl [HT1]; · iexact HT1
  isplitl [HT2]; · iexact HT2
  iexact HT3

end Cert.KernelIdeal.Hand

end
-- ==== Proof.KI.Obl1.lean ====
import proofs.«415724_j60610578481678_3_alg».proof.Proof.KI.Run1
import proofs.«415724_j60610578481678_3_alg».proof.Proof.KI.Data1
import Idealize.ShloMosaic.Lib.Pipeline.Value
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (V : (c : Dev nD) → (b : Ref sig .tc) → Buf (Elt F) ((c : Thread nD τ).loc b))

/-! ## The body as the pipeline calls it -/

/-- Each window's current staging buffer at point `t`, and that it is a whole buffer. -/
abbrev ms1_0 (t : Fin (cfgA (F := F)).N) : Memref sig .tc .vmem S1024x1024 .bf16 := spec1_0.stage ((cfgA (F := F)).slots t 0)
abbrev hs1_0 (t : Fin (cfgA (F := F)).N) : (ms1_0 (F := F) t).IsWhole := hstage1_0 (((cfgA (F := F)).slots t 0).cast nbuf1_0)
abbrev ms1_1 (t : Fin (cfgA (F := F)).N) : Memref sig .tc .vmem S512x1024 .bf16 := spec1_1.stage ((cfgA (F := F)).slots t 1)
abbrev hs1_1 (t : Fin (cfgA (F := F)).N) : (ms1_1 (F := F) t).IsWhole := hstage1_1 (((cfgA (F := F)).slots t 1).cast nbuf1_1)
abbrev ms1_2 (t : Fin (cfgA (F := F)).N) : Memref sig .tc .vmem S512x1024 .bf16 := spec1_2.stage ((cfgA (F := F)).slots t 2)
abbrev hs1_2 (t : Fin (cfgA (F := F)).N) : (ms1_2 (F := F) t).IsWhole := hstage1_2 (((cfgA (F := F)).slots t 2).cast nbuf1_2)
abbrev ms1_3 (t : Fin (cfgA (F := F)).N) : Memref sig .tc .vmem S1024x1024 .f32 := spec1_3.stage ((cfgA (F := F)).slots t 3)
abbrev hs1_3 (t : Fin (cfgA (F := F)).N) : (ms1_3 (F := F) t).IsWhole := hstage1_3 (((cfgA (F := F)).slots t 3).cast nbuf1_3)

/-- The attention body at point `t`: the grid coordinates, the four tables, the four windows' current buffers, the
    three scratch buffers. -/
abbrev bodyAt1 (t : Fin (cfgA (F := F)).N) : Prog (TpuEff nD τ sig (Elt F) Λ₀ .tc) PUnit :=
  cc1__attn_kernel (grid1.coords t) tbM0 (Memref.isWhole_whole _) tbM1 (Memref.isWhole_whole _) tbM2 (Memref.isWhole_whole _) tbM3 (Memref.isWhole_whole _)
    (ms1_0 (F := F) t) (hs1_0 t) (ms1_1 (F := F) t) (hs1_1 t) (ms1_2 (F := F) t) (hs1_2 t) (ms1_3 (F := F) t) (hs1_3 t)
    scM0 (Memref.isWhole_whole _) scM1 (Memref.isWhole_whole _) scM2 (Memref.isWhole_whole _)

/-! ## The schedule's cases -/

/-- A point that opens a query block does not close it; the opening points are those whose "first" word is 1;
    point 0 opens. -/
theorem first_not_last : ∀ n : Fin 20, condF (wF n.val) → ¬ condL (wL n.val) := by decide +kernel
theorem first_iff_one : ∀ n : Fin 20, condF (wF n.val) ↔ wF n.val = 1#32 := by decide +kernel
theorem first_zero : ∀ n : Fin 20, n.val = 0 → condF (wF n.val) := by decide +kernel

/-! ## Where the windows are idle -/

/-- The three input windows are never idle. -/
theorem live1_0 (t : Fin (cfgA (F := F)).N) : (cfgA (F := F)).idle 0 ((cfgA (F := F)).grid.coords t) = false := rfl
theorem live1_1 (t : Fin (cfgA (F := F)).N) : (cfgA (F := F)).idle 1 ((cfgA (F := F)).grid.coords t) = false := rfl
theorem live1_2 (t : Fin (cfgA (F := F)).N) : (cfgA (F := F)).idle 2 ((cfgA (F := F)).grid.coords t) = false := rfl

/-- The output window is live exactly at the points that close a query block, and where it is idle its block is
    not written back: decided over the twenty points (the tables' words do not depend on the float instance). -/
theorem live1_3I : ∀ t : Fin grid1.N, condL (wL t.val) → (cfgA (F := Ideal)).idle 3 (grid1.coords t) = false := by decide +kernel
theorem idle1_3I : ∀ t : Fin grid1.N, ¬ condL (wL t.val) → (cfgA (F := Ideal)).idle 3 (grid1.coords t) = true := by decide +kernel
theorem noFlush1_3I : ∀ t : Fin grid1.N, ¬ condL (wL t.val) → ((cfgA (F := Ideal)).win 3).flush t = false := by decide +kernel

theorem live1_3 (t : Fin (cfgA (F := F)).N) (h : condL (wL t.val)) : (cfgA (F := F)).idle 3 ((cfgA (F := F)).grid.coords t) = false := live1_3I t h
theorem idle1_3 (t : Fin (cfgA (F := F)).N) (h : ¬ condL (wL t.val)) : (cfgA (F := F)).idle 3 ((cfgA (F := F)).grid.coords t) = true := idle1_3I t h
theorem noFlush1_3 (t : Fin (cfgA (F := F)).N) (h : ¬ condL (wL t.val)) : ((cfgA (F := F)).win 3).flush t = false := noFlush1_3I t h

/-! ## The input windows hold their blocks -/

/-- Each input window's current buffer holds its block at every point, fetched there or not: the window is an
    input, uncut and never idle, so where it is not fetched its block index has not moved. -/
theorem before1_0 (c : Dev nD) (t : Fin (cfgA (F := F)).N) (d) : (dat1 V c).before 0 t d = iblk1 V c 0 t :=
  ((dat1 V c).before_in_eq_fetched 0 rfl (fun _ => rfl) (fun _ _ _ => rfl)
      (fun t => by rw [after1_0]; unfold Dat.blockOf iblk1; rw [A_eq1]; try rfl) t d).trans
    (by unfold Dat.fetched Dat.blockOf iblk1; rw [A_eq1]; try rfl)
theorem before1_1 (c : Dev nD) (t : Fin (cfgA (F := F)).N) (d) : (dat1 V c).before 1 t d = iblk1 V c 1 t :=
  ((dat1 V c).before_in_eq_fetched 1 rfl (fun _ => rfl) (fun _ _ _ => rfl)
      (fun t => by rw [after1_1]; unfold Dat.blockOf iblk1; rw [A_eq1]; try rfl) t d).trans
    (by unfold Dat.fetched Dat.blockOf iblk1; rw [A_eq1]; try rfl)
theorem before1_2 (c : Dev nD) (t : Fin (cfgA (F := F)).N) (d) : (dat1 V c).before 2 t d = iblk1 V c 2 t :=
  ((dat1 V c).before_in_eq_fetched 2 rfl (fun _ => rfl) (fun _ _ _ => rfl)
      (fun t => by rw [after1_2]; unfold Dat.blockOf iblk1; rw [A_eq1]; try rfl) t d).trans
    (by unfold Dat.fetched Dat.blockOf iblk1; rw [A_eq1]; try rfl)

/-! ## The body obligation, at a generic point -/

/-- What the body is called with at point `t`, the windows one by one, -/
def bodyPre1 (c : Dev nD) (t : Fin (cfgA (F := F)).N) : sProp 𝕄 :=
  iprop((dat1 V c).Φ t.castSucc ∗ (dat1 V c).owesAt () t.castSucc
    ∗ (∃ d, owns (c : Thread nD τ) (ms1_0 (F := F) t) fullShare ((dat1 V c).before 0 t d))
    ∗ (∃ d, owns (c : Thread nD τ) (ms1_1 (F := F) t) fullShare ((dat1 V c).before 1 t d))
    ∗ (∃ d, owns (c : Thread nD τ) (ms1_2 (F := F) t) fullShare ((dat1 V c).before 2 t d))
    ∗ (∃ d, owns (c : Thread nD τ) (ms1_3 (F := F) t) fullShare ((dat1 V c).before 3 t d)))

/-- and what it returns: each window's buffer at what the body leaves, the output's as found where it is idle. -/
def bodyPost1 (c : Dev nD) (t : Fin (cfgA (F := F)).N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t)

set_option maxHeartbeats 4000000 in
/-- The body at any point. The inputs' buffers hold their blocks; the four words the body loads are the schedule's
    closed forms; the point is in one of three cases. It OPENS a query block (then it does not close it): the scratch
    buffers may hold anything, the body restarts the three running quantities and advances them by the point's step,
    and leaves the output buffer alone. It neither opens nor closes: it is not the first point, so the scratch buffers
    hold what the points so far left, and the body advances them. It CLOSES a query block without opening it: as
    before, and the output buffer receives numerator over denominator. In each case what the scratch buffers then hold
    is the next value of the recursion. The tables, the other staging buffers and what the core owes pass through. -/
theorem sound_body1 (c : Dev nD) (t : Fin (cfgA (F := F)).N) :
    bodyPre1 V c t ⊢ wp frame (wpE (defs₀ (F := F)) Variants.none c none) Set.univ (bodyAt1 (F := F) t) (fun _ => bodyPost1 V c t) := by
  unfold bodyPre1 bodyPost1 bodyAt1
  simp only [before1_0, before1_1, before1_2]
  rw [show (dat1 V c).owesAt () t.succ = (dat1 V c).owesAt () t.castSucc from rfl,
    show (dat1 V c).Φ t.castSucc = Phi1 V c t.val from rfl,
    show (dat1 V c).Φ t.succ = Phi1 V c (t.val + 1) from rfl]
  rw [show (dat1 V c).leavesExact 0 t = owns (c : Thread nD τ) (ms1_0 (F := F) t) fullShare ((dat1 V c).after 0 t) from by
        unfold Dat.leavesExact; rw [live1_0 t]; rfl,
    show (dat1 V c).leavesExact 1 t = owns (c : Thread nD τ) (ms1_1 (F := F) t) fullShare ((dat1 V c).after 1 t) from by
        unfold Dat.leavesExact; rw [live1_1 t]; rfl,
    show (dat1 V c).leavesExact 2 t = owns (c : Thread nD τ) (ms1_2 (F := F) t) fullShare ((dat1 V c).after 2 t) from by
        unfold Dat.leavesExact; rw [live1_2 t]; rfl,
    after1_0, after1_1, after1_2]
  have hN : t.val < 20 := lt_of_lt_of_eq t.isLt (NA (F := F))
  have hstep := sc1_succ V c t.val t.isLt
  -- the three triples at this point, the loaded words in closed form
  have e0 := tword0 (F := F) c t
  have e1 := tword1 (F := F) c t
  have e2 := tword2 (F := F) c t
  have e3 := tword3 (F := F) c t
  have hA := run1_A (F := F) c (grid1.coords t) (ms1_0 (F := F) t) (hs1_0 t) (ms1_1 (F := F) t) (hs1_1 t) (ms1_2 (F := F) t) (hs1_2 t)
    (ms1_3 (F := F) t) (hs1_3 t) scM0 (Memref.isWhole_whole _) scM1 (Memref.isWhole_whole _) scM2 (Memref.isWhole_whole _)
    (tbl 0) (tbl 1) (tbl 2) (tbl 3)
  have hB := run1_B (F := F) c (grid1.coords t) (ms1_0 (F := F) t) (hs1_0 t) (ms1_1 (F := F) t) (hs1_1 t) (ms1_2 (F := F) t) (hs1_2 t)
    (ms1_3 (F := F) t) (hs1_3 t) scM0 (Memref.isWhole_whole _) scM1 (Memref.isWhole_whole _) scM2 (Memref.isWhole_whole _)
    (tbl 0) (tbl 1) (tbl 2) (tbl 3)
  have hC := run1_C (F := F) c (grid1.coords t) (ms1_0 (F := F) t) (hs1_0 t) (ms1_1 (F := F) t) (hs1_1 t) (ms1_2 (F := F) t) (hs1_2 t)
    (ms1_3 (F := F) t) (hs1_3 t) scM0 (Memref.isWhole_whole _) scM1 (Memref.isWhole_whole _) scM2 (Memref.isWhole_whole _)
    (tbl 0) (tbl 1) (tbl 2) (tbl 3)
  rw [e0, e1, e2, e3] at hA hB hC
  unfold Phi1
  by_cases hF : condF (wF t.val)
  · -- the point opens a query block
    have hL : ¬ condL (wL t.val) := first_not_last ⟨t.val, hN⟩ hF
    have hw : wF t.val = 1#32 := (first_iff_one ⟨t.val, hN⟩).mp hF
    rw [Dat.leavesExact_idle (dat1 V c) 3 t (idle1_3 t hL) (noFlush1_3 t hL)]
    simp only [if_pos hw] at hstep
    iintro ⟨⟨⟨%a, %mm, %ll, -, HS0, HS1, HS2⟩, HT0, HT1, HT2, HT3, HO⟩, Ho, ⟨%d0, H0⟩, ⟨%d1, H1⟩, ⟨%d2, H2⟩, ⟨%d3, H3⟩⟩
    iapply (hA hF hL (iblk1 V c 0 t) (iblk1 V c 1 t) (iblk1 V c 2 t) ((dat1 V c).before 3 t d3) Set.univ _)
    isplitl [H0]; · iexact H0
    isplitl [H1]; · iexact H1
    isplitl [H2]; · iexact H2
    isplitl [H3]; · iexact H3
    isplitl [HS0]; · iexists _; iexact HS0
    isplitl [HS1]; · iexists _; iexact HS1
    isplitl [HS2]; · iexists _; iexact HS2
    isplitl [HT0]; · iexact HT0
    isplitl [HT1]; · iexact HT1
    isplitl [HT2]; · iexact HT2
    isplitl [HT3]; · iexact HT3
    iintro ⟨H0, H1, H2, H3, HS0, HS1, HS2, HT0, HT1, HT2, HT3⟩
    isplitl [HS0 HS1 HS2 HT0 HT1 HT2 HT3 HO]
    · isplitl [HS0 HS1 HS2]
      · iexists _; iexists _; iexists _
        isplitr
        swap
        · isplitl [HS0]; · iexact HS0
          isplitl [HS1]; · iexact HS1
          iexact HS2
        ipureintro
        intro _
        rw [hstep]
        exact ⟨rfl, rfl, rfl⟩
      isplitl [HT0]; · iexact HT0
      isplitl [HT1]; · iexact HT1
      isplitl [HT2]; · iexact HT2
      isplitl [HT3]; · iexact HT3
      iexact HO
    isplitl [Ho]; · iexact Ho
    isplitl [H0]; · iexact H0
    isplitl [H1]; · iexact H1
    isplitl [H2]; · iexact H2
    iexists _; iexact H3
  · -- the point continues a query block: it is not the first point, and the scratch buffers hold the recursion's value
    have hne : t.val ≠ 0 := fun h0 => hF (first_zero ⟨t.val, hN⟩ h0)
    have hw : ¬ wF t.val = 1#32 := fun h => hF ((first_iff_one ⟨t.val, hN⟩).mpr h)
    simp only [if_neg hw] at hstep
    by_cases hL : condL (wL t.val)
    · -- and closes it
      rw [show (dat1 V c).leavesExact 3 t = owns (c : Thread nD τ) (ms1_3 (F := F) t) fullShare ((dat1 V c).after 3 t) from by
            unfold Dat.leavesExact; rw [live1_3 t hL]; rfl, after1_3, hstep]
      iintro ⟨⟨⟨%a, %mm, %ll, %hsc, HS0, HS1, HS2⟩, HT0, HT1, HT2, HT3, HO⟩, Ho, ⟨%d0, H0⟩, ⟨%d1, H1⟩, ⟨%d2, H2⟩, ⟨%d3, H3⟩⟩
      obtain ⟨rfl, rfl, rfl⟩ := hsc hne
      iapply (hC hF hL (iblk1 V c 0 t) (iblk1 V c 1 t) (iblk1 V c 2 t) (sc1 V c t.val).1 (sc1 V c t.val).2.1 (sc1 V c t.val).2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      isplitl [HT0]; · iexact HT0
      isplitl [HT1]; · iexact HT1
      isplitl [HT2]; · iexact HT2
      isplitl [HT3]; · iexact HT3
      iintro ⟨H0, H1, H2, H3, HS0, HS1, HS2, HT0, HT1, HT2, HT3⟩
      isplitl [HS0 HS1 HS2 HT0 HT1 HT2 HT3 HO]
      · isplitl [HS0 HS1 HS2]
        · iexists _; iexists _; iexists _
          isplitr
          swap
          · isplitl [HS0]; · iexact HS0
            isplitl [HS1]; · iexact HS1
            iexact HS2
          ipureintro
          intro _
          exact ⟨rfl, rfl, rfl⟩
        isplitl [HT0]; · iexact HT0
        isplitl [HT1]; · iexact HT1
        isplitl [HT2]; · iexact HT2
        isplitl [HT3]; · iexact HT3
        iexact HO
      isplitl [Ho]; · iexact Ho
      isplitl [H0]; · iexact H0
      isplitl [H1]; · iexact H1
      isplitl [H2]; · iexact H2
      iexact H3
    · -- and does not close it
      rw [Dat.leavesExact_idle (dat1 V c) 3 t (idle1_3 t hL) (noFlush1_3 t hL)]
      iintro ⟨⟨⟨%a, %mm, %ll, %hsc, HS0, HS1, HS2⟩, HT0, HT1, HT2, HT3, HO⟩, Ho, ⟨%d0, H0⟩, ⟨%d1, H1⟩, ⟨%d2, H2⟩, ⟨%d3, H3⟩⟩
      obtain ⟨rfl, rfl, rfl⟩ := hsc hne
      iapply (hB hF hL (iblk1 V c 0 t) (iblk1 V c 1 t) (iblk1 V c 2 t) ((dat1 V c).before 3 t d3)
        (sc1 V c t.val).1 (sc1 V c t.val).2.1 (sc1 V c t.val).2.2 Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      isplitl [HT0]; · iexact HT0
      isplitl [HT1]; · iexact HT1
      isplitl [HT2]; · iexact HT2
      isplitl [HT3]; · iexact HT3
      iintro ⟨H0, H1, H2, H3, HS0, HS1, HS2, HT0, HT1, HT2, HT3⟩
      isplitl [HS0 HS1 HS2 HT0 HT1 HT2 HT3 HO]
      · isplitl [HS0 HS1 HS2]
        · iexists _; iexists _; iexists _
          isplitr
          swap
          · isplitl [HS0]; · iexact HS0
            isplitl [HS1]; · iexact HS1
            iexact HS2
          ipureintro
          intro _
          rw [hstep]
          exact ⟨rfl, rfl, rfl⟩
        isplitl [HT0]; · iexact HT0
        isplitl [HT1]; · iexact HT1
        isplitl [HT2]; · iexact HT2
        isplitl [HT3]; · iexact HT3
        iexact HO
      isplitl [Ho]; · iexact Ho
      isplitl [H0]; · iexact H0
      isplitl [H1]; · iexact H1
      isplitl [H2]; · iexact H2
      iexists _; iexact H3

/-- The library's body obligation, at every point. -/
theorem body_obligation1 (c : Dev nD) : BodyObligation (dat1 (F := F) V c) (defs₀ (F := F)) Variants.none () Set.univ := fun t => by
  rw [bigSep_W1, bigSep_W1]
  exact sound_body1 V c t

end Cert.KernelIdeal.Hand

end
-- ==== Proof.KI.Launch.lean ====
/-
  The run of the whole program. @main is three items: the host operations, which write the four schedule tables as
  constants and lay the three weight matrices side by side; the projection region; the attention region. One thread
  state is carried from item to item: every unscoped buffer of the core held whole at the contents of the boundary
  reached (`W0` at launch, then `W1`, `W2`, `W3`), beside the core's generator register and its owing nothing.
  The projection region takes its three arrays out of that state and puts them back, the output at what its
  write-backs leave. The attention region reads one array, the projected one, through three input windows: the
  array's full share is dealt to the three (a half, a quarter, a quarter) at entry and gathered back at exit, the
  array unchanged since no input window is ever written back; its result array comes back at what its write-backs
  leave; the four tables go into the region's invariant at the schedule and come back as they went; the six buffers
  the region never names pass it by. The launch theorem for a program of several regions then says: every weakly fair
  execution terminates, and at the end every unscoped buffer holds `W3`.
-/
import proofs.«415724_j60610578481678_3_alg».proof.Proof.KI.Chain
import proofs.«415724_j60610578481678_3_alg».proof.Proof.KI.Reg1Aux
import proofs.«415724_j60610578481678_3_alg».proof.Proof.KI.Obl1
set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ
variable (m : (ℓ : Loc nD τ sig) → Buf (Elt F) ℓ) (ρ : Dev nD → PrngReg)

/-! ## The pinned pipelines -/

example : Pipeline.pin (pcfgs (F := F)) adm 1 = cfgA (F := F) := rfl
example : Pipeline.pin (pcfgs (F := F)) adm 0 = cfg0 := rfl

/-! ## What the host operations leave in the four schedule tables -/

theorem V2_tbl0 (c : Dev nD) : V2 m c main_c = tbl (F := F) 0 := by
  show W2 m c main_c = _
  rw [W2_of_ne m c main_c (by decide)]
  show StableHlo.after hostOps0 (W0 m c) (Proc.devRef .tc main_c) = _
  after_results
  rfl
theorem V2_tbl1 (c : Dev nD) : V2 m c main_c_0 = tbl (F := F) 1 := by
  show W2 m c main_c_0 = _
  rw [W2_of_ne m c main_c_0 (by decide)]
  show StableHlo.after hostOps0 (W0 m c) (Proc.devRef .tc main_c_0) = _
  after_results
  rfl
theorem V2_tbl2 (c : Dev nD) : V2 m c main_c_1 = tbl (F := F) 2 := by
  show W2 m c main_c_1 = _
  rw [W2_of_ne m c main_c_1 (by decide)]
  show StableHlo.after hostOps0 (W0 m c) (Proc.devRef .tc main_c_1) = _
  after_results
  rfl
theorem V2_tbl3 (c : Dev nD) : V2 m c main_c_2 = tbl (F := F) 3 := by
  show W2 m c main_c_2 = _
  rw [W2_of_ne m c main_c_2 (by decide)]
  show StableHlo.after hostOps0 (W0 m c) (Proc.devRef .tc main_c_2) = _
  after_results
  rfl

/-- The tables as the attention region finds them are the schedule. -/
theorem V2_tbl (c : Dev nD) : (fun k => V2 m c (pre1.ref k)) = tbl (F := F) := by
  funext k
  match k with
  | ⟨0, _⟩ => exact V2_tbl0 m c
  | ⟨1, _⟩ => exact V2_tbl1 m c
  | ⟨2, _⟩ => exact V2_tbl2 m c
  | ⟨3, _⟩ => exact V2_tbl3 m c

/-! ## The thread state between the program's items -/

abbrev 𝒱₀ : Variants := Variants.none
/-- No core owes another anything: no level is assigned. -/
abbrev L : GSem nD τ sig → Finset Unit := fun _ => ∅
abbrev lv : GSem nD τ sig → Unit → ℕ := fun _ _ => 0
/-- Beside the unscoped buffers a core carries its generator register, at some state, and owes nothing. -/
abbrev R (c : Dev nD) : sProp 𝕄 := iprop((∃ r, prngReg c r) ∗ ∃ W, owes (c : Thread nD τ) (0 : CellTallies nD τ sig Unit) W)

/-- A stretch of host operations run over the unscoped buffers from contents `W`, `R` untouched beside them. -/
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R

/-- None of the six host operations allocates a buffer. -/
theorem ops_fresh : (hostOps0 : List (HloOp τ sig (Elt F))).Forall fun op => op.fresh = ∅ := by
  simp only [List.Forall]; repeat' constructor

/-- An unscoped reference of the TensorCore is one of those the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-- The last thread state but for what the core owes: every unscoped buffer at the last boundary's contents. -/
abbrev Tₙ (c : Dev nD) : sProp 𝕄 := iprop(StableHlo.held (c : Thread nD τ) (Pipeline.ucRefs τ sig) (W3 m c) ∗ ∃ r, prngReg c r)

/-! ## The projection region -/

/-- At the projection's exit each of its three arrays holds what the boundary's contents say: the two inputs are
    never written back, the output is the one buffer the boundary updates. -/
theorem exitArr0 (c : Dev nD) (w : Fin cfg0.W) : (dat0 (V1 m) c).arrAt w cfg0.N = V2 m c (Pipeline.arrRef spec0 w) := by
  match w with
  | ⟨0, _⟩ =>
    exact ((dat0 (V1 m) c).arrAt_in 0 rfl _).trans ((A_eq0 (V1 m) c 0).trans (W2_of_ne m c main_arg0 (by decide)).symm)
  | ⟨1, _⟩ =>
    exact ((dat0 (V1 m) c).arrAt_in 1 rfl _).trans ((A_eq0 (V1 m) c 1).trans (W2_of_ne m c main_v1 (by decide)).symm)
  | ⟨2, _⟩ => exact (W2_v2 m c).symm
/-- and every other buffer what it held at entry. -/
theorem exitRest0 (c : Dev nD) : ∀ b, b ∉ Finset.univ.image (Pipeline.arrRef spec0) → V2 m c b = V1 m c b :=
  fun b hb => W2_of_ne m c b fun e => hb (Finset.mem_image.mpr ⟨2, Finset.mem_univ _, e.symm⟩)

set_option backward.isDefEq.respectTransparency.types false in
/-- The projection region over the thread state: entered with every unscoped buffer at `W1`, left with them at `W2`.
    Its three arrays are split out of the unscoped buffers and put back at the exit contents; the generator
    register goes through the region's invariant; nothing is owed; the kernel has no semaphore of its own. -/
def reg0 : Pipeline.RegionSeg (pcfgs (F := F)) adm (pdats m) () defs₀ 𝒱₀ L lv 0 where
  win := winFacts0.to₀
  block_pos := block_pos0
  stage_whole := stage_whole0
  K := PEmpty
  osem k := k.elim
  ho := Pipeline.OwnSemFacts.none _
  hbody c := (body_obligation0 (V1 m) c).loose
  hwaits := Pipeline.hwaits_of_owed_zero _ _ _ _ L lv 0 fun _ _ => rfl
  pre c := iprop(StableHlo.held (c : Thread nD τ) (Pipeline.ucRefs τ sig) (W1 m c) ∗ R c)
  post c := iprop(StableHlo.held (c : Thread nD τ) (Pipeline.ucRefs τ sig) (W2 m c) ∗ R c)
  X c := iprop(∃ r, prngReg c r)
  Y c := iprop(∃ r, prngReg c r)
  Z c := Pipeline.unscopedRest (Ix := Unit) (Name := ℕ) (U := UR sig nD τ) (Lvl := ℕ) spec0 c (V1 m c)
  hentry c := by
    rw [Pipeline.ownSems0_none]
    have hsplit := Pipeline.arrays_of_unscopedBufs (p := 0) (pcfgs (F := F)) adm (pdats m) winFacts0 arr_whole0 c
      ((pdats m 0 c).share_full fun _ => rfl) (V1 m c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      winFacts0 arr_whole0 c (pdats m) ((pdats m 0 c).share_full fun _ => rfl)
      (V1 m c) (V2 m c) ((pdats m 0 c).arrAt · cfg0.N) (exitArr0 m c) (exitRest0 m c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

/-! ## The attention region: its share of the unscoped buffers

Its three input windows are cut from the one projected array, so that array's full share is dealt among them
(a half, a quarter, a quarter) on the way in and gathered back on the way out. -/

/-- The region's windows sit on two buffers: the projected array (three windows) and the result. -/
theorem arrBufs1_eq (c : Dev nD) (V : (b : Ref sig .tc) → Buf (Elt F) ((c : Thread nD τ).loc b)) :
    (Pipeline.arrBufs (Ix := Unit) (Name := ℕ) (U := UR sig nD τ) (Lvl := ℕ) spec1 c V : sProp 𝕄)
      = iprop((((c : Thread nD τ).loc main_v2) ↦{fullShare} V main_v2) ∗ (((c : Thread nD τ).loc main_v3) ↦{fullShare} V main_v3)) := by
  unfold Pipeline.arrBufs
  exact bigSep_eq_bigSepL_of_eq [main_v2, main_v3] (by decide) (by decide) _

/-- A core's unscoped buffers at a valuation `W` whose tables read `T`, sorted for the region: the two arrays, the four
    tables, the six buffers the region passes by. -/
theorem ucSplit1 (c : Dev nD) (W : Valuation τ sig (Elt F)) (T : pre1.Contents (Elt F)) (hT : (fun k => W (pre1.ref k)) = T) :
    (StableHlo.held (c : Thread nD τ) (Pipeline.ucRefs τ sig) W : sProp 𝕄)
      = iprop(((((c : Thread nD τ).loc main_v2) ↦{fullShare} W main_v2) ∗ (((c : Thread nD τ).loc main_v3) ↦{fullShare} W main_v3))
          ∗ Pipeline.prefHeld pre1 c (fun _ => fullShare) T
          ∗ Pipeline.unscopedRestP pre1 spec1 c (fun b => W b)) := by
  subst hT
  have h : (unscopedBufs c (fun b => W b) : sProp 𝕄)
      = iprop(Pipeline.arrBufs spec1 c (fun b => W b) ∗ Pipeline.unscopedRest spec1 c (fun b => W b)) :=
    Pipeline.unscopedBufs_split₀ (Pipeline.pin (pcfgs (F := F)) adm) 1 winFacts₀1.arr_unscoped c _
  rw [← Pipeline.unscopedBufs_held, h, Pipeline.unscopedRest_split preFacts1 c, arrBufs1_eq]

/-- The projected array's full share as the three input windows' shares. -/
theorem v2_deal (c : Dev nD) (f : Buf (Elt F) ((c : Thread nD τ).loc main_v2)) :
    ((((c : Thread nD τ).loc main_v2) ↦{fullShare} f : sProp 𝕄))
      ⊢ iprop((((c : Thread nD τ).loc main_v2) ↦{fullShare.left} f) ∗ (((c : Thread nD τ).loc main_v2) ↦{fullShare.right.left} f)
          ∗ (((c : Thread nD τ).loc main_v2) ↦{fullShare.right.right} f)) := by
  iintro H
  ihave H' := (pointsTo_share (PosShare.mem_left_op_right fullShare)).1 $$ H
  icases H' with ⟨Ha, Hr⟩
  ihave Hr' := (pointsTo_share (PosShare.mem_left_op_right fullShare.right)).1 $$ Hr
  icases Hr' with ⟨Hb, Hc⟩
  isplitl [Ha]; · iexact Ha
  isplitl [Hb]; · iexact Hb
  iexact Hc
/-- The three shares gathered back. -/
theorem v2_gather (c : Dev nD) (f : Buf (Elt F) ((c : Thread nD τ).loc main_v2)) :
    iprop((((c : Thread nD τ).loc main_v2) ↦{fullShare.left} f) ∗ (((c : Thread nD τ).loc main_v2) ↦{fullShare.right.left} f)
          ∗ (((c : Thread nD τ).loc main_v2) ↦{fullShare.right.right} f))
      ⊢ ((((c : Thread nD τ).loc main_v2) ↦{fullShare} f : sProp 𝕄)) := by
  iintro ⟨Ha, Hb, Hc⟩
  iapply (pointsTo_share (PosShare.mem_left_op_right fullShare)).2
  isplitl [Ha]; · iexact Ha
  iapply (pointsTo_share (PosShare.mem_left_op_right fullShare.right)).2
  isplitl [Hb]; · iexact Hb
  iexact Hc

/-- The region's arrays, window by window: the projected array at the three input windows' shares, the result whole. -/
theorem arrays1_eq (c : Dev nD) (Fw : (w : Fin (cfgA (F := F)).W) → Buf (Elt F) (((cfgA (F := F)).win w).arr.view.loc (c : Thread nD τ))) :
    ((dat1 (V2 m) c).arrays Fw : sProp 𝕄)
      = iprop((((c : Thread nD τ).loc main_v2) ↦{fullShare.left} Fw 0) ∗ (((c : Thread nD τ).loc main_v2) ↦{fullShare.right.left} Fw 1)
          ∗ (((c : Thread nD τ).loc main_v2) ↦{fullShare.right.right} Fw 2) ∗ (((c : Thread nD τ).loc main_v3) ↦{fullShare} Fw 3)) := by
  have hs : ∀ w, ((cfgA (F := F)).win w).arr.view.set = Finset.univ := fun w => (arr_whole1 w).set_eq_univ
  unfold Dat.arrays
  rw [bigSep_congr (fun w _ => by rw [hs w]), bigSep_W1]
  rfl

/-- What the tables hold at the last boundary is still the schedule: the attention region writes the result only. -/
theorem W3_tbl (c : Dev nD) : (fun k => W3 m c (pre1.ref k)) = tbl (F := F) :=
  (funext fun k => W3_of_ne m c (pre1.ref k) (preFacts1.disj k 3)).trans (V2_tbl m c)

/-- The buffers the region passes by hold at the last boundary what they held at its entry. -/
theorem rest1_W3 (c : Dev nD) :
    (Pipeline.unscopedRestP pre1 spec1 c (fun b => W3 m c b) : sProp 𝕄) = Pipeline.unscopedRestP pre1 spec1 c (V2 m c) := by
  unfold Pipeline.unscopedRestP
  exact bigSep_congr fun b hb =>
    congrArg (fun f => (((c : Thread nD τ).loc b) ↦{fullShare} f : sProp 𝕄))
      (W3_of_ne m c b fun e => (Finset.mem_sdiff.mp (Finset.mem_sdiff.mp hb).1).2 (Finset.mem_image.mpr ⟨3, Finset.mem_univ _, e.symm⟩))

/-- ENTRY: the unscoped buffers at `W2` sorted into the region's arrays (the projected array dealt to the three input
    windows), the tables at the schedule, and what passes by. -/
theorem reg1_hentry (c : Dev nD) :
    iprop((StableHlo.held (c : Thread nD τ) (Pipeline.ucRefs τ sig) (W2 m c) ∗ R c) ∗ (BI.emp : sProp 𝕄) ∗ levAts L lv)
      ⊢ |={Set.univ}=> iprop((dat1 (V2 m) c).arrays ((dat1 (V2 m) c).arrAt · 0) ∗ Pipeline.prefHeld pre1 c (fun _ => fullShare) (tbl (F := F))
          ∗ (dat1 (V2 m) c).owesAt () 0 ∗ (BI.emp : sProp 𝕄) ∗ (Pipeline.unscopedRestP pre1 spec1 c (V2 m c) ∗ ∃ r, prngReg c r)) := by
  rw [ucSplit1 c (W2 m c) tbl (V2_tbl m c), arrays1_eq]
  iintro ⟨⟨⟨⟨H2, H3⟩, Ht, Hrest⟩, Hp, HO⟩, -, -⟩
  ihave H2' := (v2_deal c _) $$ H2
  icases H2' with ⟨Ha, Hb, Hc⟩
  imodintro
  isplitl [Ha Hb Hc H3]
  · isplitl [Ha]; · iexact Ha
    isplitl [Hb]; · iexact Hb
    isplitl [Hc]; · iexact Hc
    iexact H3
  isplitl [Ht]; · iexact Ht
  isplitl [HO]
  · unfold Pipeline.Dat.owesAt Pipeline.owesWithin
    icases HO with ⟨%W, HO⟩; iexists W; isplitr; · ipureintro; exact fun _ _ => Or.inl trivial
    iexact HO
  isplitr; · iempintro
  isplitl [Hrest]; · iexact Hrest
  iexact Hp

/-- EXIT: the input windows' shares of the projected array, never written back, gathered; the result at what the
    write-backs left; the tables and the passed-by buffers as they were: every unscoped buffer at `W3`. -/
theorem reg1_hexit (c : Dev nD) :
    iprop((dat1 (V2 m) c).arrays ((dat1 (V2 m) c).arrAt · (cfgA (F := F)).N) ∗ (dat1 (V2 m) c).owesAt () (Fin.last (cfgA (F := F)).N)
        ∗ Pipeline.prefHeld pre1 c (fun _ => fullShare) (tbl (F := F)) ∗ (Pipeline.unscopedRestP pre1 spec1 c (V2 m c) ∗ ∃ r, prngReg c r))
      ⊢ |={Set.univ}=> iprop((StableHlo.held (c : Thread nD τ) (Pipeline.ucRefs τ sig) (W3 m c) ∗ ∃ r, prngReg c r)
          ∗ ∃ W, owes (c : Thread nD τ) (0 : CellTallies nD τ sig Unit) W) := by
  have e0 : (dat1 (V2 m) c).arrAt 0 (cfgA (F := F)).N = W3 m c main_v2 :=
    ((dat1 (V2 m) c).arrAt_in 0 rfl _).trans (W3_of_ne m c main_v2 (by decide)).symm
  have e1 : (dat1 (V2 m) c).arrAt 1 (cfgA (F := F)).N = W3 m c main_v2 :=
    ((dat1 (V2 m) c).arrAt_in 1 rfl _).trans (W3_of_ne m c main_v2 (by decide)).symm
  have e2 : (dat1 (V2 m) c).arrAt 2 (cfgA (F := F)).N = W3 m c main_v2 :=
    ((dat1 (V2 m) c).arrAt_in 2 rfl _).trans (W3_of_ne m c main_v2 (by decide)).symm
  have e3 : (dat1 (V2 m) c).arrAt 3 (cfgA (F := F)).N = W3 m c main_v3 := (W3_v3 m c).symm
  rw [ucSplit1 c (W3 m c) tbl (W3_tbl m c), rest1_W3, arrays1_eq, e0, e1, e2, e3]
  iintro ⟨⟨Ha, Hb, Hc, H3⟩, HO, Ht, Hrest, Hp⟩
  imodintro
  isplitl [Ha Hb Hc H3 Ht Hrest Hp]
  · isplitr [Hp]
    · isplitl [Ha Hb Hc H3]
      · isplitr [H3]
        · iapply (v2_gather c _)
          isplitl [Ha]; · iexact Ha
          isplitl [Hb]; · iexact Hb
          iexact Hc
        iexact H3
      isplitl [Ht]; · iexact Ht
      iexact Hrest
    iexact Hp
  unfold Pipeline.Dat.owesAt Pipeline.owesWithin
  icases HO with ⟨%W, -, HO⟩; iexists W; iexact HO

/-! ## The attention region -/

set_option backward.isDefEq.respectTransparency.types false in
/-- The attention region over the thread state: entered with every unscoped buffer at `W2`, left with them at `W3`.
    Nothing goes into its invariant from the thread state but the tables, which it gives back; the generator
    register and the six buffers it never names pass it by; nothing is owed; no semaphore of the kernel's own. -/
def reg1 : Pipeline.RegionSeg (pcfgs (F := F)) adm (pdats m) () defs₀ 𝒱₀ L lv 1 where
  win := winFacts₀1
  block_pos := block_pos1
  stage_whole := stage_whole1
  K := PEmpty
  osem k := k.elim
  ho := Pipeline.OwnSemFacts.none _
  hbody c := (body_obligation1 (V2 m) c).loose
  hwaits := Pipeline.hwaits_of_owed_zero _ _ _ _ L lv 1 fun _ _ => rfl
  pre c := iprop(StableHlo.held (c : Thread nD τ) (Pipeline.ucRefs τ sig) (W2 m c) ∗ R c)
  post c := iprop(Tₙ m c ∗ ∃ W, owes (c : Thread nD τ) (0 : CellTallies nD τ sig Unit) W)
  X c := BI.emp
  Y c := Pipeline.prefHeld pre1 c (fun _ => fullShare) (tbl (F := F))
  Z c := iprop(Pipeline.unscopedRestP pre1 spec1 c (V2 m c) ∗ ∃ r, prngReg c r)
  hentry c := by rw [Pipeline.ownSems0_none]; exact reg1_hentry m c
  hin c := by
    rw [show (pdats m 1 c).Φ 0 = Phi1 (V2 m) c 0 from rfl]
    iintro ⟨-, Ht, Hs⟩
    iapply (reg1_hin (V2 m) c)
    isplitl [Ht]; · iexact Ht
    iexact Hs
  hout c := by
    rw [Pipeline.ownSems0_none, show (pdats m 1 c).Φ (Fin.last _) = Phi1 (V2 m) c (cfgA (F := F)).N from rfl]
    iintro H
    ihave H' := (reg1_hout (V2 m) c _) $$ H
    icases H' with ⟨Ht, Hs⟩
    isplitl [Ht]; · iexact Ht
    isplitr; · iempintro
    iexact Hs
  hexit c := reg1_hexit m c

/-! ## The program as its items, and the launch -/

/-- The program's three items in order: the host operations from the launch contents, then the two regions. -/
abbrev segs : List (Pipeline.Seg (pcfgs (F := F)) adm (pdats m) () defs₀ 𝒱₀ L lv) :=
  [ .host (hseg hostOps0 hostOps0_sub ops_fresh (W0 m)),
    .region (reg0 m),
    .region (reg1 m) ]

/-- The program is the run of those items. -/
theorem main_run (c : Dev nD) : main (F := F) c = Pipeline.Seg.run (segs m) := (main_chain c).trans (by chain_rfl)

set_option backward.isDefEq.respectTransparency.types false in
/-- THE RUN. From any memory with zero counters every weakly fair execution of the program on the TensorCores
    terminates, nothing faulting, and in every final state every unscoped buffer of every core holds the last
    boundary's contents `W3`: the launch over the three items, the last thread state read against the final state. -/
theorem run_all : θ_run defs (onTc (τ := τ) (main (F := F))) ⟨m, fun _ => 0, ρ⟩
    (fun r => ∀ c : Dev nD, ∀ b ∈ Pipeline.ucRefs τ sig, r.2.mem (((c : Thread nD τ)).1, b) = W3 m c b) :=
  Pipeline.θ_run_regions_kit (pcfgs (F := F)) adm (pdats m) () (cellOf_inj adm) emb₁ defs₀ 𝒱₀ L lv m ρ main (segs m)
    (fun c Q => by rw [main_run m c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells (Pipeline.pin (pcfgs (F := F)) adm) (cellOf_inj adm)) (Pipeline.launchToks (Pipeline.pin (pcfgs (F := F)) adm) (cellOf_inj adm)))
    (hu₀ := by
      iintro Hu; imodintro
      isplitl [Hu]
      · iapply (show (ownU (initOf (Pipeline.cells (Pipeline.pin (pcfgs (F := F)) adm) (cellOf_inj adm)) (Pipeline.launchToks (Pipeline.pin (pcfgs (F := F)) adm) (cellOf_inj adm))) : sProp 𝕄)
            ⊢ BI.own (emb₁ (initOf (Pipeline.cells (Pipeline.pin (pcfgs (F := F)) adm) (cellOf_inj adm)) (Pipeline.launchToks (Pipeline.pin (pcfgs (F := F)) adm) (cellOf_inj adm)))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m c) ∗ R c)) (Tₙ := Tₙ m)
    (hch := ⟨fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m c)
        from Pipeline.unscopedBufs_held c (W0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W3 m c b)
    (hfin := fun c s' => by
      iintro ⟨⟨Hh, -⟩, HSI⟩
      unfold StableHlo.held
      imodintro
      iapply (pointsTo_read_all (Pipeline.ucRefs τ sig) (fun b => (((c : Thread nD τ)).1, b)) (W3 m c) s')
      isplitl [Hh] <;> iassumption)
    (hQ := fun s h => h)

end Cert.KernelIdeal.Hand

end
-- ==== Proof.KI.Args.lean ====
/-
  No host operation and no region writes an argument array: each reaches the last boundary as launched.
-/
import proofs.«415724_j60610578481678_3_alg».proof.Proof.KI.Chain
import proofs.«415724_j60610578481678_3_alg».proof.Proof.Gen.KernelIdeal.Regions

noncomputable section

namespace Cert.KernelIdeal.Hand

open Idealize.ShloMosaic Idealize.ShloMosaic.TcCoe Idealize.SL.Sem

variable {F : FTy → Type} [FloatOps F] [Named F]
variable (m : (ℓ : Loc Cert.KernelIdeal.nD Cert.KernelIdeal.τ Cert.KernelIdeal.sig) → Buf (Elt F) ℓ)

/-- A buffer the host operations do not write holds its launch contents when the first region is entered. -/
theorem W1_of (c : Dev Cert.KernelIdeal.nD) (r : Ref Cert.KernelIdeal.sig .tc) (h : r ∉ Cert.KernelIdeal.Gen.hostOps0_W) :
    Hand.W1 m c r = m ((c : Thread Cert.KernelIdeal.nD Cert.KernelIdeal.τ).loc r) :=
  (StableHlo.after_of_writes_sub Cert.KernelIdeal.Gen.hostOps0 _ Cert.KernelIdeal.Gen.hostOps0_writes h).trans rfl

theorem W3_main_arg0 (c : Dev Cert.KernelIdeal.nD) :
    Hand.W3 m c Cert.KernelIdeal.main_arg0 = m ((c : Thread Cert.KernelIdeal.nD Cert.KernelIdeal.τ).loc Cert.KernelIdeal.main_arg0) :=
  (Hand.W3_of_ne m c _ (by decide)).trans ((Hand.W2_of_ne m c _ (by decide)).trans (W1_of m c _ (by decide)))
theorem W3_main_arg1 (c : Dev Cert.KernelIdeal.nD) :
    Hand.W3 m c Cert.KernelIdeal.main_arg1 = m ((c : Thread Cert.KernelIdeal.nD Cert.KernelIdeal.τ).loc Cert.KernelIdeal.main_arg1) :=
  (Hand.W3_of_ne m c _ (by decide)).trans ((Hand.W2_of_ne m c _ (by decide)).trans (W1_of m c _ (by decide)))
theorem W3_main_arg2 (c : Dev Cert.KernelIdeal.nD) :
    Hand.W3 m c Cert.KernelIdeal.main_arg2 = m ((c : Thread Cert.KernelIdeal.nD Cert.KernelIdeal.τ).loc Cert.KernelIdeal.main_arg2) :=
  (Hand.W3_of_ne m c _ (by decide)).trans ((Hand.W2_of_ne m c _ (by decide)).trans (W1_of m c _ (by decide)))
theorem W3_main_arg3 (c : Dev Cert.KernelIdeal.nD) :
    Hand.W3 m c Cert.KernelIdeal.main_arg3 = m ((c : Thread Cert.KernelIdeal.nD Cert.KernelIdeal.τ).loc Cert.KernelIdeal.main_arg3) :=
  (Hand.W3_of_ne m c _ (by decide)).trans ((Hand.W2_of_ne m c _ (by decide)).trans (W1_of m c _ (by decide)))

end Cert.KernelIdeal.Hand

end
-- ==== Proof.Spec.lean ====
/-
  The mathematics both programs are measured against, over the reals: causal single-head attention
  of a sequence of 4096 rows with 1024 features. `proj` is a bias-free linear layer, `score` the
  scaled dot product (the scale 1/32 is 1/√1024), and a row `i` attends to the columns `j ≤ i` with
  softmax weights taken relative to the row's largest admitted score.

  Beside it, the running state of the ONLINE softmax: after the first `n` columns have been visited, a row
  holds the largest admitted score so far (`pmax`, the lattice's bottom while nothing is admitted), the
  sum of the exponentials relative to it (`pden`) and the weighted sum of the value rows (`pnum`).
  One visit of a block of 512 further columns updates the three by `fmax`, `fden`, `facc`, written
  on the extended reals exactly as a blockwise kernel computes them: a masked column carries the score `⊥`,
  whose exponential is `0`. The statements at the end say that the update of the state at `512·b`
  columns is the state at `512·(b+1)` columns, and that the state at all admitted columns is the softmax.
-/
import Idealize.ShloMosaic.PureOps.Ideal

noncomputable section

namespace Cert.Spec

open Idealize.ShloMosaic Finset

/-- A linear layer without bias: row `i` of `x` against column `e` of `w`. -/
def proj (x : Fin 4096 → Fin 1024 → ℝ) (w : Fin 1024 → Fin 1024 → ℝ) (i : Fin 4096) (e : Fin 1024) : ℝ :=
  ∑ k : Fin 1024, x i k * w k e

/-- The scaled score of query row `i` against key row `j`: the dot product over the 1024 features, times 1/32. -/
def score (q k : Fin 4096 → Fin 1024 → ℝ) (i j : Fin 4096) : ℝ :=
  (∑ e : Fin 1024, q i e * k j e) * (1 / 32)

/-- The columns row `i` admits among the first `n`: `j < n` and `j ≤ i`. -/
def cols (i : Fin 4096) (n : ℕ) : Finset (Fin 4096) := univ.filter fun j => j.val < n ∧ j ≤ i

/-- The largest admitted score among the first `n` columns, on the extended reals: `⊥` while none is admitted. -/
def pmax (s : Fin 4096 → Fin 4096 → ℝ) (i : Fin 4096) (n : ℕ) : EReal := (cols i n).sup fun j => ((s i j : ℝ) : EReal)

/-- The sum of the exponentials of the admitted scores among the first `n` columns, relative to `pmax`. -/
def pden (s : Fin 4096 → Fin 4096 → ℝ) (i : Fin 4096) (n : ℕ) : ℝ :=
  ∑ j ∈ cols i n, Real.exp (s i j - (pmax s i n).toReal)

/-- The same exponentials weighting feature `d` of the value rows. -/
def pnum (s : Fin 4096 → Fin 4096 → ℝ) (v : Fin 4096 → Fin 1024 → ℝ) (i : Fin 4096) (n : ℕ) (d : Fin 1024) : ℝ :=
  ∑ j ∈ cols i n, Real.exp (s i j - (pmax s i n).toReal) * v j d

/-- Causal softmax attention: row `i`, feature `d` — the value rows `j ≤ i` averaged with weights
    `exp (s i j - M) / ∑ exp (s i j' - M)`, `M` the row's largest admitted score. -/
def attn (s : Fin 4096 → Fin 4096 → ℝ) (v : Fin 4096 → Fin 1024 → ℝ) (i : Fin 4096) (d : Fin 1024) : ℝ :=
  ∑ j : Fin 4096, (if j ≤ i then Real.exp (s i j - (pmax s i 4096).toReal) else 0) / pden s i 4096 * v j d

/-- The whole layer: queries, keys and values projected from `x`, then causal attention. -/
def out (x : Fin 4096 → Fin 1024 → ℝ) (wq wk wv : Fin 1024 → Fin 1024 → ℝ) (i : Fin 4096) (d : Fin 1024) : ℝ :=
  attn (score (proj x wq) (proj x wk)) (proj x wv) i d

/-- A real matrix as an array of extended reals: entry `(j 0, j 1)` of `f`, coerced. -/
def arr {n0 n1 : ℕ} (f : Fin n0 → Fin n1 → ℝ) : (⟨2, ![n0, n1]⟩ : Shape).Idx → EReal :=
  fun j => ((f (j 0) (j 1) : ℝ) : EReal)

/-! ## One visit of a block of 512 columns, on the extended reals -/

/-- Column `c` of block `b` as row `i` sees it: its score if admitted, `⊥` if masked. -/
def bsc (s : Fin 4096 → Fin 4096 → ℝ) (i : Fin 4096) (b : Fin 8) (c : Fin 512) : EReal :=
  if b.val * 512 + c.val ≤ i.val then ((s i ⟨b.val * 512 + c.val, by omega⟩ : ℝ) : EReal) else ⊥

/-- The running maximum after the visit. -/
def fmax (m : EReal) (sc : Fin 512 → EReal) : EReal := max m ((univ : Finset (Fin 512)).fold max ⊥ sc)

/-- The running denominator after the visit: the old one rescaled, plus the block's exponentials. -/
def fden (m l : EReal) (sc : Fin 512 → EReal) : EReal :=
  Ideal.exp (m - fmax m sc) * l + ∑ c : Fin 512, Ideal.exp (sc c - fmax m sc)

/-- The running numerator of one feature after the visit. -/
def facc (m a : EReal) (sc v : Fin 512 → EReal) : EReal :=
  Ideal.exp (m - fmax m sc) * a + ∑ c : Fin 512, Ideal.exp (sc c - fmax m sc) * v c

/-! ## The admitted columns, block by block -/

private lemma coe_sum {ι : Type*} (A : Finset ι) (f : ι → ℝ) :
    ((∑ j ∈ A, f j : ℝ) : EReal) = ∑ j ∈ A, ((f j : ℝ) : EReal) := by
  classical
  induction A using Finset.induction_on with
  | empty => simp
  | insert a A ha ih => rw [Finset.sum_insert ha, Finset.sum_insert ha, EReal.coe_add, ih]

private lemma mem_cols {i j : Fin 4096} {n : ℕ} : j ∈ cols i n ↔ j.val < n ∧ j ≤ i := by
  simp [cols]

private lemma cols_zero (i : Fin 4096) : cols i 0 = ∅ := by
  ext j; simp [cols]

private lemma cols_nonempty (i : Fin 4096) {n : ℕ} (hn : 0 < n) : (cols i n).Nonempty :=
  ⟨⟨0, by omega⟩, mem_cols.mpr ⟨hn, Fin.le_def.mpr (Nat.zero_le _)⟩⟩

/-- Once `i < n` the bound `j < n` is implied by `j ≤ i`. -/
private lemma cols_of_lt (i : Fin 4096) (n : ℕ) (h : i.val < n) : cols i n = cols i 4096 := by
  ext j
  simp only [mem_cols]
  have hj := j.isLt
  constructor
  · rintro ⟨_, h2⟩; exact ⟨hj, h2⟩
  · rintro ⟨_, h2⟩; exact ⟨lt_of_le_of_lt (Fin.le_def.mp h2) h, h2⟩

/-- Column `c` of block `b` as a column of the whole row. -/
private def emb (b : Fin 8) : Fin 512 ↪ Fin 4096 :=
  ⟨fun c => ⟨b.val * 512 + c.val, by omega⟩, fun c c' h => by
    have h' := congrArg Fin.val h
    simp only at h'
    exact Fin.ext (by omega)⟩

/-- The columns admitted among the first `512·(b+1)` are those among the first `512·b` together with
    the admitted columns of block `b`. -/
private lemma cols_succ (i : Fin 4096) (b : Fin 8) :
    cols i ((b.val + 1) * 512)
      = cols i (b.val * 512) ∪ (univ.filter fun c : Fin 512 => b.val * 512 + c.val ≤ i.val).map (emb b) := by
  ext j
  simp only [mem_union, mem_cols, mem_map, mem_filter, mem_univ, true_and]
  constructor
  · rintro ⟨h1, h2⟩
    by_cases h : j.val < b.val * 512
    · exact Or.inl ⟨h, h2⟩
    · have h3 := Fin.le_def.mp h2
      refine Or.inr ⟨⟨j.val - b.val * 512, by omega⟩, ?_, ?_⟩
      · show b.val * 512 + (j.val - b.val * 512) ≤ i.val
        omega
      · apply Fin.ext
        show b.val * 512 + (j.val - b.val * 512) = j.val
        omega
  · rintro (⟨h1, h2⟩ | ⟨c, hc, rfl⟩)
    · exact ⟨by omega, h2⟩
    · have hc' := c.isLt
      refine ⟨?_, Fin.le_def.mpr hc⟩
      show b.val * 512 + c.val < (b.val + 1) * 512
      omega

private lemma cols_disj (i : Fin 4096) (b : Fin 8) :
    Disjoint (cols i (b.val * 512)) ((univ.filter fun c : Fin 512 => b.val * 512 + c.val ≤ i.val).map (emb b)) := by
  rw [Finset.disjoint_left]
  intro j hj hj'
  rw [mem_map] at hj'
  obtain ⟨c, _, rfl⟩ := hj'
  have h1 := (mem_cols.mp hj).1
  have h2 : (emb b c).val = b.val * 512 + c.val := rfl
  omega

private lemma sum_cols_succ (i : Fin 4096) (b : Fin 8) (g : Fin 4096 → ℝ) :
    ∑ j ∈ cols i ((b.val + 1) * 512), g j
      = ∑ j ∈ cols i (b.val * 512), g j
        + ∑ c : Fin 512, if b.val * 512 + c.val ≤ i.val then g ⟨b.val * 512 + c.val, by omega⟩ else 0 := by
  rw [cols_succ, Finset.sum_union (cols_disj i b), Finset.sum_map, Finset.sum_filter]
  rfl

/-- A nonempty set of admitted columns has a real maximum. -/
private lemma pmax_eq_coe (s : Fin 4096 → Fin 4096 → ℝ) (i : Fin 4096) {n : ℕ} (hn : 0 < n) :
    ∃ r : ℝ, pmax s i n = (r : EReal) := by
  obtain ⟨j, _, hj⟩ := Finset.exists_mem_eq_sup (cols i n) (cols_nonempty i hn) fun j => ((s i j : ℝ) : EReal)
  exact ⟨s i j, hj⟩

/-- Before any column: nothing admitted. -/
theorem pmax_zero (s : Fin 4096 → Fin 4096 → ℝ) (i : Fin 4096) : pmax s i 0 = ⊥ := by
  rw [pmax, cols_zero, Finset.sup_empty]
theorem pden_zero (s : Fin 4096 → Fin 4096 → ℝ) (i : Fin 4096) : pden s i 0 = 0 := by
  rw [pden, cols_zero, Finset.sum_empty]
theorem pnum_zero (s : Fin 4096 → Fin 4096 → ℝ) (v : Fin 4096 → Fin 1024 → ℝ) (i : Fin 4096) (d : Fin 1024) :
    pnum s v i 0 d = 0 := by
  rw [pnum, cols_zero, Finset.sum_empty]

/-- Visiting block `b` from the state at `512·b` columns gives the state at `512·(b+1)` columns. -/
theorem fmax_step (s : Fin 4096 → Fin 4096 → ℝ) (i : Fin 4096) (b : Fin 8) :
    fmax (pmax s i (b.val * 512)) (bsc s i b) = pmax s i ((b.val + 1) * 512) := by
  have hfold : (univ : Finset (Fin 512)).fold max ⊥ (bsc s i b) = univ.sup (bsc s i b) := rfl
  unfold fmax
  rw [hfold]
  apply eq_of_forall_ge_iff
  intro x
  simp only [pmax, max_le_iff, Finset.sup_le_iff, mem_cols, mem_univ, true_imp_iff]
  constructor
  · rintro ⟨h1, h2⟩ j ⟨hj1, hj2⟩
    by_cases h : j.val < b.val * 512
    · exact h1 j ⟨h, hj2⟩
    · have h3 := Fin.le_def.mp hj2
      have h4 := h2 ⟨j.val - b.val * 512, by omega⟩
      unfold bsc at h4
      have h5 : b.val * 512 + (j.val - b.val * 512) ≤ i.val := by omega
      simp only [h5, if_true] at h4
      have h6 : (⟨b.val * 512 + (j.val - b.val * 512), by omega⟩ : Fin 4096) = j := Fin.ext (by simp only; omega)
      rw [h6] at h4
      exact h4
  · intro h
    refine ⟨fun j hj => h j ⟨by omega, hj.2⟩, fun c => ?_⟩
    have hc' := c.isLt
    unfold bsc
    split_ifs with hc
    · exact h _ ⟨by simp only; omega, Fin.le_def.mpr hc⟩
    · exact bot_le

/-- The common shape of the two sums: the old weighted sum rescaled to the new maximum, plus the
    block's terms, is the weighted sum over the columns admitted so far. A masked column carries
    `exp ⊥ = 0`; at the first block the old maximum is `⊥` and the old sum is empty. -/
private lemma step_aux (s : Fin 4096 → Fin 4096 → ℝ) (i : Fin 4096) (b : Fin 8) (w : Fin 4096 → ℝ) :
    Ideal.exp (pmax s i (b.val * 512) - fmax (pmax s i (b.val * 512)) (bsc s i b))
          * ((∑ j ∈ cols i (b.val * 512), Real.exp (s i j - (pmax s i (b.val * 512)).toReal) * w j : ℝ) : EReal)
        + ∑ c : Fin 512, Ideal.exp (bsc s i b c - fmax (pmax s i (b.val * 512)) (bsc s i b))
            * ((w ⟨b.val * 512 + c.val, by omega⟩ : ℝ) : EReal)
      = ((∑ j ∈ cols i ((b.val + 1) * 512),
            Real.exp (s i j - (pmax s i ((b.val + 1) * 512)).toReal) * w j : ℝ) : EReal) := by
  rw [fmax_step]
  obtain ⟨M', hM'⟩ := pmax_eq_coe s i (n := (b.val + 1) * 512) (by omega)
  rw [hM', EReal.toReal_coe]
  have hblk : ∑ c : Fin 512, Ideal.exp (bsc s i b c - (M' : EReal)) * ((w ⟨b.val * 512 + c.val, by omega⟩ : ℝ) : EReal)
      = ((∑ c : Fin 512, if b.val * 512 + c.val ≤ i.val
            then Real.exp (s i ⟨b.val * 512 + c.val, by omega⟩ - M') * w ⟨b.val * 512 + c.val, by omega⟩ else 0 : ℝ) : EReal) := by
    rw [coe_sum]
    apply Finset.sum_congr rfl
    intro c _
    unfold bsc
    split_ifs with hc
    · rw [← EReal.coe_sub, Ideal.exp_coe, ← EReal.coe_mul]
    · rw [EReal.bot_sub, Ideal.exp_bot, zero_mul, EReal.coe_zero]
  have hold : Ideal.exp (pmax s i (b.val * 512) - (M' : EReal))
        * ((∑ j ∈ cols i (b.val * 512), Real.exp (s i j - (pmax s i (b.val * 512)).toReal) * w j : ℝ) : EReal)
      = ((∑ j ∈ cols i (b.val * 512), Real.exp (s i j - M') * w j : ℝ) : EReal) := by
    rcases Nat.eq_zero_or_pos b.val with h0 | hpos
    · rw [h0, Nat.zero_mul, cols_zero, Finset.sum_empty, Finset.sum_empty, EReal.coe_zero, mul_zero]
    · obtain ⟨m, hm⟩ := pmax_eq_coe s i (n := b.val * 512) (by omega)
      rw [hm, EReal.toReal_coe, ← EReal.coe_sub, Ideal.exp_coe, ← EReal.coe_mul, Finset.mul_sum]
      congr 1
      apply Finset.sum_congr rfl
      intro j _
      rw [← mul_assoc, ← Real.exp_add]
      congr 2
      ring
  rw [hold, hblk, ← EReal.coe_add, sum_cols_succ]

theorem fden_step (s : Fin 4096 → Fin 4096 → ℝ) (i : Fin 4096) (b : Fin 8) :
    fden (pmax s i (b.val * 512)) ((pden s i (b.val * 512) : ℝ) : EReal) (bsc s i b)
      = ((pden s i ((b.val + 1) * 512) : ℝ) : EReal) := by
  have h := step_aux s i b fun _ => 1
  simp only [mul_one, EReal.coe_one] at h
  exact h
theorem facc_step (s : Fin 4096 → Fin 4096 → ℝ) (v : Fin 4096 → Fin 1024 → ℝ) (i : Fin 4096) (b : Fin 8) (d : Fin 1024) :
    facc (pmax s i (b.val * 512)) ((pnum s v i (b.val * 512) d : ℝ) : EReal) (bsc s i b)
        (fun c => ((v ⟨b.val * 512 + c.val, by omega⟩ d : ℝ) : EReal))
      = ((pnum s v i ((b.val + 1) * 512) d : ℝ) : EReal) := by
  exact step_aux s i b fun j => v j d

/-- Once every admitted column has been visited (`i < n`), the state no longer depends on `n`. -/
theorem pmax_of_lt (s : Fin 4096 → Fin 4096 → ℝ) (i : Fin 4096) (n : ℕ) (h : i.val < n) : pmax s i n = pmax s i 4096 := by
  rw [pmax, pmax, cols_of_lt i n h]
theorem pden_of_lt (s : Fin 4096 → Fin 4096 → ℝ) (i : Fin 4096) (n : ℕ) (h : i.val < n) : pden s i n = pden s i 4096 := by
  rw [pden, pden, pmax_of_lt s i n h, cols_of_lt i n h]
theorem pnum_of_lt (s : Fin 4096 → Fin 4096 → ℝ) (v : Fin 4096 → Fin 1024 → ℝ) (i : Fin 4096) (n : ℕ) (h : i.val < n) (d : Fin 1024) :
    pnum s v i n d = pnum s v i 4096 d := by
  rw [pnum, pnum, pmax_of_lt s i n h, cols_of_lt i n h]

/-- The denominator is positive: column `0` is always admitted. -/
theorem pden_pos (s : Fin 4096 → Fin 4096 → ℝ) (i : Fin 4096) : 0 < pden s i 4096 := by
  unfold pden
  exact Finset.sum_pos (fun j _ => Real.exp_pos _) (cols_nonempty i (by norm_num))

/-- The quotient of the final numerator by the final denominator, taken on the extended reals, is the attention. -/
theorem div_eq_attn (s : Fin 4096 → Fin 4096 → ℝ) (v : Fin 4096 → Fin 1024 → ℝ) (i : Fin 4096) (d : Fin 1024) :
    Ideal.div ((pnum s v i 4096 d : ℝ) : EReal) ((pden s i 4096 : ℝ) : EReal) = ((attn s v i d : ℝ) : EReal) := by
  have hpos := pden_pos s i
  rw [Ideal.div_coe (ne_of_gt hpos), ← EReal.coe_mul]
  congr 1
  unfold attn pnum
  rw [Finset.sum_mul]
  have hcols : cols i 4096 = univ.filter fun j : Fin 4096 => j ≤ i := by
    ext j
    simp only [mem_cols, mem_filter, mem_univ, true_and]
    exact ⟨fun h => h.2, fun h => ⟨j.isLt, h⟩⟩
  rw [hcols, Finset.sum_filter]
  apply Finset.sum_congr rfl
  intro j _
  split_ifs with hj
  · rw [one_div]; ring
  · simp

end Cert.Spec

end
-- ==== Proof.LibPlainDot.lean ====
/-
  A plain matrix product read at one entry. For the dimension numbers "rows × contraction by contraction × columns"
  with no batch axis, the product into a zero accumulator, at row `r` and column `q`, is the sum over the contracted
  coordinate `j` of the left operand at (r, j) times the right operand at (j, q). The same holds for the host's
  `dot_general`. Both are stated over extended reals, where the product is the exact sum.
-/
import Idealize.ShloMosaic.PureOps.Ideal.Laws
import Idealize.ShloMosaic.Lib.ValueIdx

noncomputable section

open scoped BigOperators

namespace Cert.LibPlainDot

open Idealize.ShloMosaic Idealize.ShloMosaic.ValueIdx

/-- The left operand's index at output entry (r, q) and contracted coordinate `j` is (r, j). -/
theorem plain_lhsIdx (M K N : Nat) (r : Fin M) (q : Fin N) (j : Fin K) :
    (DotDims.plain M K N).lhsIdx (ix2 r q) ((contrEquiv1 (DotDims.plain M K N) K rfl rfl).symm j) = ix2 r j := by
  have hj := contrEquiv1_symm_val (DotDims.plain M K N) K rfl rfl j
  funext a
  apply Fin.ext
  match a with
  | ⟨0, _⟩ => rfl
  | ⟨1, _⟩ => refine Eq.trans ?_ hj; rfl

/-- The right operand's index at output entry (r, q) and contracted coordinate `j` is (j, q). -/
theorem plain_rhsIdx (M K N : Nat) (r : Fin M) (q : Fin N) (j : Fin K) :
    (DotDims.plain M K N).rhsIdx (ix2 r q) ((contrEquiv1 (DotDims.plain M K N) K rfl rfl).symm j) = ix2 j q := by
  have hj := contrEquiv1_symm_val (DotDims.plain M K N) K rfl rfl j
  funext a
  apply Fin.ext
  match a with
  | ⟨0, _⟩ => refine Eq.trans ?_ hj; rfl
  | ⟨1, _⟩ => rfl

/-- The matrix unit's product into a zero accumulator, at one entry. -/
theorem matmul_plain_apply {φ₁ φ₂ : FTy} (M K N : Nat) (prec : Option ContractPrecision)
    (A : FVec Ideal ⟨2, ![M, K]⟩ φ₁) (B : FVec Ideal ⟨2, ![K, N]⟩ φ₂) (r : Fin M) (q : Fin N) :
    FloatOps.matmul (DotDims.plain M K N) prec A B (constant ⟨2, ![M, N]⟩ .f32 0x00000000#32) (ix2 r q)
      = ∑ j : Fin K, A (ix2 r j) * B (ix2 j q) := by
  rw [Ideal.matmul_constant_zero_apply, ← Equiv.sum_comp (contrEquiv1 (DotDims.plain M K N) K rfl rfl).symm]
  refine Finset.sum_congr rfl fun j _ => ?_
  rw [plain_lhsIdx, plain_rhsIdx]

/-- The host's `dot_general`, at one entry. -/
theorem dotGeneral_plain_apply {φ₁ φ₂ : FTy} (M K N : Nat) (prec : Option ContractPrecision) (sched : HostSchedule)
    (A : FVec Ideal ⟨2, ![M, K]⟩ φ₁) (B : FVec Ideal ⟨2, ![K, N]⟩ φ₂) (r : Fin M) (q : Fin N) :
    FloatOps.dotGeneral (DotDims.plain M K N) prec sched A B (ix2 r q) = ∑ j : Fin K, A (ix2 r j) * B (ix2 j q) := by
  rw [Ideal.dotGeneral_apply, ← Equiv.sum_comp (contrEquiv1 (DotDims.plain M K N) K rfl rfl).symm]
  refine Finset.sum_congr rfl fun j _ => ?_
  rw [plain_lhsIdx, plain_rhsIdx]

end Cert.LibPlainDot

end
-- ==== Proof.LibDotNT.lean ====
/-
  A matrix product against a transposed right operand, read at one entry. For the dimension numbers "rows × contraction
  by columns × contraction" with no batch axis (both operands contracted on their last axis), the product into a zero
  accumulator, at row `r` and column `q`, is the sum over the contracted coordinate `j` of the left operand at (r, j)
  times the right operand at (q, j). The same holds for the host's `dot_general`. Both are stated over extended reals,
  where the product is the exact sum.
-/
import Idealize.ShloMosaic.PureOps.Ideal.Laws
import Idealize.ShloMosaic.Lib.ValueIdx

noncomputable section

open scoped BigOperators

namespace Cert.LibDotNT

open Idealize.ShloMosaic Idealize.ShloMosaic.ValueIdx

/-- The left operand's index at output entry (r, q) and contracted coordinate `j` is (r, j). -/
theorem nt_lhsIdx (M K N : Nat) (r : Fin M) (q : Fin N) (j : Fin K) :
    (DotDims.transposedRhs M K N).lhsIdx (ix2 r q) ((contrEquiv1 (DotDims.transposedRhs M K N) K rfl rfl).symm j) = ix2 r j := by
  have hj := contrEquiv1_symm_val (DotDims.transposedRhs M K N) K rfl rfl j
  funext a
  apply Fin.ext
  match a with
  | ⟨0, _⟩ => rfl
  | ⟨1, _⟩ => refine Eq.trans ?_ hj; rfl

/-- The right operand's index at output entry (r, q) and contracted coordinate `j` is (q, j): its row is the output's
    column, its column the contracted coordinate. -/
theorem nt_rhsIdx (M K N : Nat) (r : Fin M) (q : Fin N) (j : Fin K) :
    (DotDims.transposedRhs M K N).rhsIdx (ix2 r q) ((contrEquiv1 (DotDims.transposedRhs M K N) K rfl rfl).symm j) = ix2 q j := by
  have hj := contrEquiv1_symm_val (DotDims.transposedRhs M K N) K rfl rfl j
  funext a
  apply Fin.ext
  match a with
  | ⟨0, _⟩ => rfl
  | ⟨1, _⟩ => refine Eq.trans ?_ hj; rfl

/-- The matrix unit's product against a transposed right operand into a zero accumulator, at one entry. -/
theorem matmul_nt_apply {φ₁ φ₂ : FTy} (M K N : Nat) (prec : Option ContractPrecision)
    (A : FVec Ideal ⟨2, ![M, K]⟩ φ₁) (B : FVec Ideal ⟨2, ![N, K]⟩ φ₂) (r : Fin M) (q : Fin N) :
    FloatOps.matmul (DotDims.transposedRhs M K N) prec A B (constant ⟨2, ![M, N]⟩ .f32 0x00000000#32) (ix2 r q)
      = ∑ j : Fin K, A (ix2 r j) * B (ix2 q j) := by
  rw [Ideal.matmul_constant_zero_apply, ← Equiv.sum_comp (contrEquiv1 (DotDims.transposedRhs M K N) K rfl rfl).symm]
  refine Finset.sum_congr rfl fun j _ => ?_
  rw [nt_lhsIdx, nt_rhsIdx]

/-- The host's `dot_general` against a transposed right operand, at one entry. -/
theorem dotGeneral_nt_apply {φ₁ φ₂ : FTy} (M K N : Nat) (prec : Option ContractPrecision) (sched : HostSchedule)
    (A : FVec Ideal ⟨2, ![M, K]⟩ φ₁) (B : FVec Ideal ⟨2, ![N, K]⟩ φ₂) (r : Fin M) (q : Fin N) :
    FloatOps.dotGeneral (DotDims.transposedRhs M K N) prec sched A B (ix2 r q) = ∑ j : Fin K, A (ix2 r j) * B (ix2 q j) := by
  rw [Ideal.dotGeneral_apply, ← Equiv.sum_comp (contrEquiv1 (DotDims.transposedRhs M K N) K rfl rfl).symm]
  refine Finset.sum_congr rfl fun j _ => ?_
  rw [nt_lhsIdx, nt_rhsIdx]

end Cert.LibDotNT

end
-- ==== Proof.KI.Pay.lean ====
/-
  The kernel's payloads read at one entry, over the extended reals (every operation exact, a change of format the identity).
  The projection's block is the plain matrix product, entry by entry. The three running quantities of a row start from
  `⊥`, `0` and `0`. The masked, scaled score of row `r` against column `cc` of a key block is the dot product over the 1024
  features times one thirty-second when the column's number in the sequence is at most the row's, and `⊥` otherwise: the
  two numbers are a block number times the block's extent plus the coordinate, formed as 32-bit words and compared signed,
  which is the comparison of the numbers while they stay far below `2 ^ 31`. One visit of a key block then updates the row's
  maximum, denominator and numerator exactly as `Spec.fmax`, `Spec.fden` and `Spec.facc` say, the lane maximum being the
  fold of `max` from `⊥` over the block's 512 columns and the lane sum the sum over them; the output entry is the quotient
  of numerator by denominator.
-/
import proofs.«415724_j60610578481678_3_alg».proof.Proof.KI.Step
import proofs.«415724_j60610578481678_3_alg».proof.Proof.Spec
import proofs.«415724_j60610578481678_3_alg».proof.Proof.LibPlainDot
import proofs.«415724_j60610578481678_3_alg».proof.Proof.LibDotNT
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Cert.KernelIdeal Cert.KernelIdeal.Gen Idealize.ShloMosaic Idealize.ShloMosaic.ValueIdx

/-- A column cast: a vector of `a` entries viewed as an `a × 1` matrix reads, at `(i, u)`, entry `i`. -/
private theorem shapeCast_a_a1_apply {α : Type} {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ValueIdx.ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column broadcast along the rows: an `a × 1` matrix broadcast to `a × b` reads, at `(p, c)`, the column's entry `p`. -/
private theorem broadcastTo_a1_ab_apply {α : Type} {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

theorem initM_apply (r : Fin 1024) : initM (F := Ideal) (ix2 r (0 : Fin 1)) = ⊥ := by
  unfold initM k1_pay6
  rw [shapeCast_self]
  rfl

theorem initL_apply (r : Fin 1024) : initL (F := Ideal) (ix2 r (0 : Fin 1)) = 0 := by
  unfold initL k1_pay7
  rw [shapeCast_self, broadcast_apply]
  exact Ideal.ofBits_zero_f32

theorem initA_apply (r d : Fin 1024) : initA (F := Ideal) (ix2 r d) = 0 := by
  unfold initA k1_pay8
  rw [shapeCast_self, broadcast_apply]
  exact Ideal.ofBits_zero_f32

theorem outO_apply (acc : Vec Ideal S1024x1024 .f32) (ll : Vec Ideal S1024x1 .f32) (r d : Fin 1024) :
    outO (F := Ideal) acc ll (ix2 r d) = Ideal.div (acc (ix2 r d)) (ll (ix2 r (0 : Fin 1))) := by
  unfold outO k1_pay5
  rw [divf_apply, broadcastTo_a1_ab_apply]

/-- The row sum: the lane reduction of a `1024 × 512` matrix at row `r` is the sum over the 512 columns. -/
private theorem rowSum_apply (src : FVec Ideal S1024x512 .f32) (r : Fin 1024) :
    multiReduction (F := Ideal) .add [1] S1024 src 0x00000000#32 reduces_S1024x512_S1024 (.inl rfl) rfl (ValueIdx.ix1 r)
      = ∑ c : Fin 512, src (ix2 r c) := by
  refine (Ideal.multiReduction_add_single src 0x00000000#32 reduces_S1024x512_S1024 (.inl rfl) rfl (ValueIdx.ix1 r)).trans ?_
  refine Finset.sum_congr rfl fun c _ => congrArg src ?_
  funext a
  apply Fin.ext
  match a with
  | ⟨0, _⟩ => rfl
  | ⟨1, _⟩ => rfl

/-- The word the lane maximum starts from is the bottom of the extended reals. -/
private theorem ofBits_neg_inf_f32 : Ideal.ofBits .f32 0xFF800000#32 = ⊥ := by
  simp [Ideal.ofBits, Ideal.ieee]

/-- The row maximum: the lane maximum of a `1024 × 512` matrix at row `r` is the fold of `max` from `⊥` over the 512 columns. -/
private theorem rowMax_apply (src : FVec Ideal S1024x512 .f32) (r : Fin 1024) :
    multiReduction (F := Ideal) .maximumf [1] S1024 src 0xFF800000#32 reduces_S1024x512_S1024 (.inl rfl) rfl (ValueIdx.ix1 r)
      = (Finset.univ : Finset (Fin 512)).fold max ⊥ (fun c => src (ix2 r c)) := by
  refine (Ideal.multiReduction_maximumf_single src 0xFF800000#32 reduces_S1024x512_S1024 (.inl rfl) rfl (ValueIdx.ix1 r)).trans ?_
  have e : (src ∘ reduces_S1024x512_S1024.lift (ValueIdx.ix1 r)) = fun c : Fin 512 => src (ix2 r c) := by
    funext c
    refine congrArg src ?_
    funext a
    apply Fin.ext
    match a with
    | ⟨0, _⟩ => rfl
    | ⟨1, _⟩ => rfl
  have e0 : (FloatOps.ofBits (F := Ideal) .f32 0xFF800000#32) = (⊥ : EReal) := ofBits_neg_inf_f32
  rw [e, e0]
  rfl

/-- The scale word of the scores is one thirty-second. -/
private theorem ofBits_scale_f32 : Ideal.ofBits .f32 0x3D000000#32 = (((1 / 32 : ℝ)) : EReal) := by
  simp [Ideal.ofBits, Ideal.ieee]
  rw [← EReal.coe_mul]
  exact congrArg _ (by norm_num)

/-- A block number times 1024 plus a row number, as a 32-bit word, is that number while it is below `2 ^ 32`. -/
private theorem toNat_row_word (w : BitVec 32) (n : ℕ) (h : w.toNat * 1024 + n < 2 ^ 32) :
    (IntOp.addi (Scalar.muli w 1024#32) (BitVec.ofNat 32 n)).toNat = w.toNat * 1024 + n := by
  show (w * 1024#32 + BitVec.ofNat 32 n).toNat = _
  rw [BitVec.toNat_add, BitVec.toNat_mul, BitVec.toNat_ofNat, BitVec.toNat_ofNat]
  omega

/-- A block number times 512 plus a column number, as a 32-bit word, is that number while it is below `2 ^ 32`. -/
private theorem toNat_col_word (w : BitVec 32) (n : ℕ) (h : w.toNat * 512 + n < 2 ^ 32) :
    (IntOp.addi (Scalar.muli w 512#32) (BitVec.ofNat 32 n)).toNat = w.toNat * 512 + n := by
  show (w * 512#32 + BitVec.ofNat 32 n).toNat = _
  rw [BitVec.toNat_add, BitVec.toNat_mul, BitVec.toNat_ofNat, BitVec.toNat_ofNat]
  omega

/-- A signed "greater or equal" of two words below `2 ^ 31` is the comparison of the numbers. -/
private theorem sge_small_iff (a b : BitVec 32) (ha : a.toNat < 2 ^ 31) (hb : b.toNat < 2 ^ 31) :
    IntOp.cmpi .sge a b = 1#1 ↔ b.toNat ≤ a.toNat := by
  have ea := BitVec.toInt_eq_toNat_cond a
  have eb := BitVec.toInt_eq_toNat_cond b
  have key : BitVec.ofBool (b.sle a) = 1#1 ↔ b.sle a = true := by cases b.sle a <;> decide
  show BitVec.ofBool (b.sle a) = 1#1 ↔ _
  rw [key, BitVec.sle_iff_toInt_le]
  omega

/-- The causal mask's bit at row `r`, column `cc` of the block placed by the words `w2`, `w5`: set exactly when the
    column's number in the sequence is at most the row's. -/
private theorem mask_bit_iff (w2 w5 : BitVec 32) (h2 : w2.toNat < 4) (h5 : w5.toNat < 8) (r : Fin 1024) (cc : Fin 512) :
    IntOp.cmpi .sge (IntOp.addi (Scalar.muli w2 1024#32) (BitVec.ofNat 32 r.val))
        (IntOp.addi (Scalar.muli w5 512#32) (BitVec.ofNat 32 cc.val)) = 1#1
      ↔ w5.toNat * 512 + cc.val ≤ w2.toNat * 1024 + r.val := by
  have hr := r.isLt
  have hc := cc.isLt
  have ea := toNat_row_word w2 r.val (by omega)
  have eb := toNat_col_word w5 cc.val (by omega)
  rw [sge_small_iff _ _ (by omega) (by omega), ea, eb]

/-- The three products' dimension numbers: the projection and the weights-by-values product are plain products, the
    scores contract the last axis of both operands. -/
private theorem dot_proj_eq : dot_S512x1024_S1024x3072_S512x3072_1_0_0_1_n_n = DotDims.plain 512 1024 3072 := rfl
private theorem dot_qk_eq : dot_S1024x1024_S512x1024_S1024x512_1_1_0_0_n_n = DotDims.transposedRhs 1024 1024 512 := rfl
private theorem dot_pv_eq : dot_S1024x512_S512x1024_S1024x1024_1_0_0_1_n_n = DotDims.plain 1024 512 1024 := rfl

theorem proj_apply (x : Vec Ideal S512x1024 .f32) (w : Vec Ideal S1024x3072 .bf16) (r : Fin 512) (e : Fin 3072) :
    k0_pay1 (F := Ideal) x w (ix2 r e) = ∑ k : Fin 1024, x (ix2 r k) * w (ix2 k e) := by
  show FloatOps.matmul (φ₁ := .bf16) (φ₂ := .bf16) dot_S512x1024_S1024x3072_S512x3072_1_0_0_1_n_n none (truncf (F := Ideal) .bf16 x bitsLt_bf16_f32)
      (shapeCast S1024x3072 w shapeCasts_S1024x3072_S1024x3072) (constant (F := Ideal) S512x3072 .f32 0x00000000#32) (ix2 r e) = _
  rw [shapeCast_self, dot_proj_eq, Cert.LibPlainDot.matmul_plain_apply]
  rfl

/-- The masked, scaled scores with every operation but the product read at the entry. -/
private theorem pay10_read (w2 w5 : BitVec 32) (q : Vec Ideal S1024x1024 .bf16) (k : Vec Ideal S512x1024 .bf16) (r : Fin 1024) (cc : Fin 512) :
    k1_pay10 (F := Ideal) w2 w5 q k (ix2 r cc)
      = Scalar.select
          (IntOp.cmpi .sge
            (IntOp.addi (Scalar.muli w2 1024#32) (iota .tc S1024x512 32 [0] iota_S1024x512_d0_w32 (ix2 r cc)))
            (IntOp.addi (Scalar.muli w5 512#32) (iota .tc S1024x512 32 [1] iota_S1024x512_d1_w32 (ix2 r cc))))
          (FloatOps.matmul (φ₁ := .bf16) (φ₂ := .bf16) dot_S1024x1024_S512x1024_S1024x512_1_1_0_0_n_n none
              (shapeCast S1024x1024 q shapeCasts_S1024x1024_S1024x1024) (shapeCast S512x1024 k shapeCasts_S512x1024_S512x1024)
              (constant (F := Ideal) S1024x512 .f32 0x00000000#32) (ix2 r cc)
            * Ideal.ofBits .f32 0x3D000000#32)
          (⊥ : EReal) := rfl

theorem scoreB_apply (w2 w5 : BitVec 32) (h2 : w2.toNat < 4) (h5 : w5.toNat < 8) (q : Vec Ideal S1024x1024 .bf16) (k : Vec Ideal S512x1024 .bf16) (r : Fin 1024) (cc : Fin 512) :
    scoreB (F := Ideal) w2 w5 q k (ix2 r cc)
      = if w5.toNat * 512 + cc.val ≤ w2.toNat * 1024 + r.val then (∑ e : Fin 1024, q (ix2 r e) * k (ix2 cc e)) * (((1 / 32 : ℝ)) : EReal) else ⊥ := by
  have e0 : iota .tc S1024x512 32 [0] iota_S1024x512_d0_w32 (ix2 r cc) = BitVec.ofNat 32 r.val :=
    iota_single_apply .tc S1024x512 32 0 iota_S1024x512_d0_w32 (ix2 r cc)
  have e1 : iota .tc S1024x512 32 [1] iota_S1024x512_d1_w32 (ix2 r cc) = BitVec.ofNat 32 cc.val :=
    iota_single_apply .tc S1024x512 32 1 iota_S1024x512_d1_w32 (ix2 r cc)
  unfold scoreB
  rw [pay10_read, e0, e1, shapeCast_self, shapeCast_self, dot_qk_eq, Cert.LibDotNT.matmul_nt_apply, ofBits_scale_f32]
  by_cases hP : w5.toNat * 512 + cc.val ≤ w2.toNat * 1024 + r.val
  · rw [if_pos hP, (mask_bit_iff w2 w5 h2 h5 r cc).mpr hP, select_one]
  · rw [if_neg hP, eq_zero_of_ne_one (fun h => hP ((mask_bit_iff w2 w5 h2 h5 r cc).mp h)), select_zero]

/-- The block's exponentials: the score less the row's new maximum, exponentiated. -/
private theorem pay1_apply (s : FVec Ideal S1024x512 .f32) (m : FVec Ideal S1024x1 .f32) (r : Fin 1024) (c : Fin 512) :
    k1_pay1 (F := Ideal) s m (ix2 r c) = Ideal.exp (s (ix2 r c) - m (ix2 r (0 : Fin 1))) := by
  show Ideal.exp (s (ix2 r c) - broadcastTo S1024x512 m broadcasts_S1024x1_S1024x512 (ix2 r c)) = _
  rw [broadcastTo_a1_ab_apply]

/-- The row's new maximum. -/
private theorem pay11_apply (w2 w5 : BitVec 32) (q : Vec Ideal S1024x1024 .bf16) (k : Vec Ideal S512x1024 .bf16) (mm : Vec Ideal S1024x1 .f32) (r : Fin 1024) :
    k1_pay11 (F := Ideal) w2 w5 q k mm (ix2 r (0 : Fin 1))
      = Cert.Spec.fmax (mm (ix2 r (0 : Fin 1))) (fun cc => k1_pay10 (F := Ideal) w2 w5 q k (ix2 r cc)) := by
  unfold k1_pay11
  generalize k1_pay10 (F := Ideal) w2 w5 q k = s
  show max (mm (ix2 r (0 : Fin 1))) (shapeCast S1024x1 (multiReduction (F := Ideal) .maximumf [1] S1024 s 0xFF800000#32
      reduces_S1024x512_S1024 (.inl rfl) rfl) shapeCasts_S1024_S1024x1 (ix2 r (0 : Fin 1))) = _
  rw [shapeCast_a_a1_apply, rowMax_apply]
  rfl

/-- The factor that rescales the row's old sums to its new maximum. -/
private theorem pay12_apply (w2 w5 : BitVec 32) (q : Vec Ideal S1024x1024 .bf16) (k : Vec Ideal S512x1024 .bf16) (mm : Vec Ideal S1024x1 .f32) (r : Fin 1024) :
    k1_pay12 (F := Ideal) w2 w5 q k mm (ix2 r (0 : Fin 1))
      = Ideal.exp (mm (ix2 r (0 : Fin 1)) - k1_pay11 (F := Ideal) w2 w5 q k mm (ix2 r (0 : Fin 1))) := rfl

/-- The new denominator from the scores `s`, the new maximum `m`, the rescaling factor `e` and the old denominator `l`. -/
private theorem pay2_apply (s : FVec Ideal S1024x512 .f32) (m e : FVec Ideal S1024x1 .f32) (l : Vec Ideal S1024x1 .f32) (r : Fin 1024) :
    k1_pay2 (F := Ideal) s m e l (ix2 r (0 : Fin 1))
      = e (ix2 r (0 : Fin 1)) * l (ix2 r (0 : Fin 1)) + ∑ c : Fin 512, Ideal.exp (s (ix2 r c) - m (ix2 r (0 : Fin 1))) := by
  show shapeCast S1024x1 (addf (mulf e l) (shapeCast S1024x1 (multiReduction (F := Ideal) .add [1] S1024 (k1_pay1 s m) 0x00000000#32
      reduces_S1024x512_S1024 (.inl rfl) rfl) shapeCasts_S1024_S1024x1)) shapeCasts_S1024x1_S1024x1 (ix2 r (0 : Fin 1)) = _
  rw [shapeCast_self, addf_apply, mulf_apply, shapeCast_a_a1_apply, rowSum_apply]
  simp only [pay1_apply]

/-- The new numerator from the values `v`, the scores `s`, the new maximum `m`, the rescaling factor `e` and the old numerator. -/
private theorem pay3_apply (v : FVec Ideal S512x1024 .bf16) (s : FVec Ideal S1024x512 .f32) (m e : FVec Ideal S1024x1 .f32)
    (acc : Vec Ideal S1024x1024 .f32) (r d : Fin 1024) :
    k1_pay3 (F := Ideal) v s m e acc (ix2 r d)
      = e (ix2 r (0 : Fin 1)) * acc (ix2 r d) + ∑ c : Fin 512, Ideal.exp (s (ix2 r c) - m (ix2 r (0 : Fin 1))) * v (ix2 c d) := by
  show shapeCast S1024x1024 (addf (mulf (broadcastTo S1024x1024 e broadcasts_S1024x1_S1024x1024) acc)
      (FloatOps.matmul (φ₁ := .bf16) (φ₂ := .bf16) dot_S1024x512_S512x1024_S1024x1024_1_0_0_1_n_n none (truncf (F := Ideal) .bf16 (k1_pay1 s m) bitsLt_bf16_f32) v
        (constant (F := Ideal) S1024x1024 .f32 0x00000000#32))) shapeCasts_S1024x1024_S1024x1024 (ix2 r d) = _
  rw [shapeCast_self, addf_apply, mulf_apply, broadcastTo_a1_ab_apply, dot_pv_eq, Cert.LibPlainDot.matmul_plain_apply]
  simp only [truncf_apply, pay1_apply]

theorem stepM_apply (w2 w5 : BitVec 32) (q : Vec Ideal S1024x1024 .bf16) (k : Vec Ideal S512x1024 .bf16) (mm : Vec Ideal S1024x1 .f32) (r : Fin 1024) :
    stepM (F := Ideal) w2 w5 q k mm (ix2 r (0 : Fin 1)) = Cert.Spec.fmax (mm (ix2 r (0 : Fin 1))) (fun cc => scoreB (F := Ideal) w2 w5 q k (ix2 r cc)) := by
  unfold stepM k1_pay4 scoreB
  rw [shapeCast_self]
  exact pay11_apply w2 w5 q k mm r

theorem stepL_apply (w2 w5 : BitVec 32) (q : Vec Ideal S1024x1024 .bf16) (k : Vec Ideal S512x1024 .bf16) (mm ll : Vec Ideal S1024x1 .f32) (r : Fin 1024) :
    stepL (F := Ideal) w2 w5 q k mm ll (ix2 r (0 : Fin 1))
      = Cert.Spec.fden (mm (ix2 r (0 : Fin 1))) (ll (ix2 r (0 : Fin 1))) (fun cc => scoreB (F := Ideal) w2 w5 q k (ix2 r cc)) := by
  unfold stepL scoreB
  rw [pay2_apply, pay12_apply, pay11_apply]
  rfl

theorem stepA_apply (w2 w5 : BitVec 32) (q : Vec Ideal S1024x1024 .bf16) (k v : Vec Ideal S512x1024 .bf16) (mm : Vec Ideal S1024x1 .f32) (acc : Vec Ideal S1024x1024 .f32) (r d : Fin 1024) :
    stepA (F := Ideal) w2 w5 q k v mm acc (ix2 r d)
      = Cert.Spec.facc (mm (ix2 r (0 : Fin 1))) (acc (ix2 r d)) (fun cc => scoreB (F := Ideal) w2 w5 q k (ix2 r cc)) (fun cc => v (ix2 cc d)) := by
  have e9 : k1_pay9 (F := Ideal) v = v := shapeCast_self v shapeCasts_S512x1024_S512x1024
  unfold stepA scoreB
  rw [e9, pay3_apply, pay12_apply, pay11_apply]
  rfl

end Cert.KernelIdeal.Hand

end
-- ==== Proof.Spec2.lean ====
/-
  The projected array of the blockwise kernel: the rows of `x` against the three weight matrices laid side by side
  (3072 columns), and its three bands of 1024 columns — the queries, the keys and the values. The bands of the
  projection by the side-by-side weights are the three separate projections.
-/
import proofs.«415724_j60610578481678_3_alg».proof.Proof.Spec

noncomputable section

namespace Cert.Spec

open Finset

/-- The three weight matrices side by side. -/
def wcat (wq wk wv : Fin 1024 → Fin 1024 → ℝ) (k : Fin 1024) (e : Fin 3072) : ℝ :=
  if h : e.val < 1024 then wq k ⟨e.val, h⟩
  else if h2 : e.val < 2048 then wk k ⟨e.val - 1024, by omega⟩
  else wv k ⟨e.val - 2048, by omega⟩

/-- Rows of `x` against a weight matrix of 3072 columns. -/
def qkv (x : Fin 4096 → Fin 1024 → ℝ) (wc : Fin 1024 → Fin 3072 → ℝ) (i : Fin 4096) (e : Fin 3072) : ℝ :=
  ∑ k : Fin 1024, x i k * wc k e

/-- The three bands of 1024 columns of an array of 3072 columns. -/
def bandQ (Q : Fin 4096 → Fin 3072 → ℝ) (i : Fin 4096) (e : Fin 1024) : ℝ := Q i ⟨e.val, by omega⟩
def bandK (Q : Fin 4096 → Fin 3072 → ℝ) (i : Fin 4096) (e : Fin 1024) : ℝ := Q i ⟨1024 + e.val, by omega⟩
def bandV (Q : Fin 4096 → Fin 3072 → ℝ) (i : Fin 4096) (e : Fin 1024) : ℝ := Q i ⟨2048 + e.val, by omega⟩

theorem bandQ_qkv (x : Fin 4096 → Fin 1024 → ℝ) (wq wk wv : Fin 1024 → Fin 1024 → ℝ) :
    bandQ (qkv x (wcat wq wk wv)) = proj x wq := by
  funext i e
  unfold bandQ qkv proj wcat
  refine Finset.sum_congr rfl fun k _ => ?_
  rw [dif_pos (show (⟨e.val, by omega⟩ : Fin 3072).val < 1024 from e.isLt)]

theorem bandK_qkv (x : Fin 4096 → Fin 1024 → ℝ) (wq wk wv : Fin 1024 → Fin 1024 → ℝ) :
    bandK (qkv x (wcat wq wk wv)) = proj x wk := by
  funext i e
  unfold bandK qkv proj wcat
  refine Finset.sum_congr rfl fun k _ => ?_
  have h1 : ¬ (⟨1024 + e.val, by omega⟩ : Fin 3072).val < 1024 := by simp
  have h2 : (⟨1024 + e.val, by omega⟩ : Fin 3072).val < 2048 := by have := e.isLt; simp; omega
  rw [dif_neg h1, dif_pos h2]
  congr 2
  exact Fin.ext (by simp)

theorem bandV_qkv (x : Fin 4096 → Fin 1024 → ℝ) (wq wk wv : Fin 1024 → Fin 1024 → ℝ) :
    bandV (qkv x (wcat wq wk wv)) = proj x wv := by
  funext i e
  unfold bandV qkv proj wcat
  refine Finset.sum_congr rfl fun k _ => ?_
  have h1 : ¬ (⟨2048 + e.val, by omega⟩ : Fin 3072).val < 1024 := by simp; omega
  have h2 : ¬ (⟨2048 + e.val, by omega⟩ : Fin 3072).val < 2048 := by simp
  rw [dif_neg h1, dif_neg h2]
  congr 2
  exact Fin.ext (by simp)

/-- The attention of the three bands of the projected array is the layer. -/
theorem attn_bands (x : Fin 4096 → Fin 1024 → ℝ) (wq wk wv : Fin 1024 → Fin 1024 → ℝ) :
    (fun i d => attn (score (bandQ (qkv x (wcat wq wk wv))) (bandK (qkv x (wcat wq wk wv)))) (bandV (qkv x (wcat wq wk wv))) i d)
      = out x wq wk wv := by
  rw [bandQ_qkv, bandK_qkv, bandV_qkv]; rfl

end Cert.Spec

end
-- ==== Proof.LibNary3.lean ====
/-
  A host operation over a LITERAL family of three references (a `stablehlo.concatenate` of three operands,
  printed `StableHlo.nary ![a, b, c] …`), in a line of host operations that is to be read back.
  `nary3_result`: its result with each operand's contents AT ITS OWN REFERENCE, `Fin.cons (F a) (Fin.cons (F b)
  (Fin.cons (F c) _))` in place of `fun k => F (![a, b, c] k)` (under the binder the reference `![a, b, c] k` is no
  literal, and no result lemma of the operations that wrote the operands applies to it). The library states this for
  a family of four; this is the same statement for three, with the form a simplifier pass takes beside it, and a
  rewriting read-back tactic for a SHORT line with the lemma in its loop (`after_results3`).
  For a LONG line that ends in such an operation neither read-back goes through the operand list in reasonable time,
  so the last operation is taken off first: `after_append` (two lines in sequence), `after_snoc_nary3` (the result
  buffer after the line is the operation's function of the three operand buffers after the shorter line),
  `after_snoc_nary_ne` (any other buffer is as the shorter line leaves it), and `concatenate3_congr` (a join of three
  pieces of one shape is determined by its pieces), after which the three operands are read back as three goals.
-/
import Idealize.ShloMosaic.Lib.StableHlo.Run

noncomputable section

namespace Cert.LibNary3

open Idealize.ShloMosaic Idealize.ShloMosaic.StableHlo Idealize.SL.Sem

variable {τ : Topo} {sig : RefSig} {Val : EltTy → Type}
variable {x a b y : Ref sig .tc}

/-- The result buffer of an operation over the three literal references `x`, `a`, `b` holds the operation's
    function of the three buffers' contents, each named at its own reference. -/
theorem nary3_result
    (f : ((k : Fin 3) → ((![x, a, b] : Fin 3 → Ref sig .tc) k).ty.Contents Val) → y.ty.Contents Val) (hxs hy)
    (F : Valuation τ sig Val) :
    (nary (τ := τ) ![x, a, b] y f hxs hy).result F (Proc.devRef .tc y)
      = f (Fin.cons (F (Proc.devRef .tc x)) (Fin.cons (F (Proc.devRef .tc a)) (Fin.cons (F (Proc.devRef .tc b)) (fun i => i.elim0)))) := by
  rw [nary_result]; congr 1; funext k; fin_cases k <;> rfl

/-- The same with the result reference un-indexed, for a simplifier pass over a line of operations. -/
theorem nary3_result'
    (f : ((k : Fin 3) → ((![x, a, b] : Fin 3 → Ref sig .tc) k).ty.Contents Val) → y.ty.Contents Val) (hxs hy)
    (F : Valuation τ sig Val) :
    (nary (τ := τ) ![x, a, b] y f hxs hy).result F (no_index (Proc.devRef .tc y))
      = f (Fin.cons (F (Proc.devRef .tc x)) (Fin.cons (F (Proc.devRef .tc a)) (Fin.cons (F (Proc.devRef .tc b)) (fun i => i.elim0)))) :=
  nary3_result f hxs hy F

/-- The rewriting read-back of a short line of operations (the library's `after_results`) with the three-reference
    result lemma in its loop. -/
macro "after_results3" : tactic =>
  `(tactic| (simp only [Idealize.ShloMosaic.StableHlo.after_cons, Idealize.ShloMosaic.StableHlo.after_nil]
             repeat (first
               | rw [Idealize.ShloMosaic.StableHlo.nullary_result] | rw [Idealize.ShloMosaic.StableHlo.unary_result] | rw [Idealize.ShloMosaic.StableHlo.binary_result] | rw [Idealize.ShloMosaic.StableHlo.ternary_result]
               | rw [Idealize.ShloMosaic.StableHlo.reshape_result] | rw [Cert.LibNary3.nary3_result]
               | (rw [Idealize.ShloMosaic.StableHlo.nullary_result_ne]; rotate_left; decide)
               | (rw [Idealize.ShloMosaic.StableHlo.unary_result_ne]; rotate_left; decide)
               | (rw [Idealize.ShloMosaic.StableHlo.binary_result_ne]; rotate_left; decide)
               | (rw [Idealize.ShloMosaic.StableHlo.ternary_result_ne]; rotate_left; decide)
               | (rw [Idealize.ShloMosaic.StableHlo.reshape_result_ne]; rotate_left; decide)
               | (rw [Idealize.ShloMosaic.StableHlo.nary_result_ne]; rotate_left; decide))))

/-- Two lines run one after the other: the second from what the first leaves. -/
theorem after_append (l₁ l₂ : List (HloOp τ sig Val)) (V : Valuation τ sig Val) :
    after (l₁ ++ l₂) V = after l₂ (after l₁ V) := by
  induction l₁ generalizing V with
  | nil => rfl
  | cons op l ih => simp only [List.cons_append, after_cons, ih]

/-- A line that ENDS in an operation over three literal references `x`, `a`, `b`: after the line, the operation's
    result `y` holds its function of what `x`, `a`, `b` hold after the line WITHOUT its last operation. This takes the
    last operation off a long line before the line is read back, so that its three operands are read back as three
    separate buffers. -/
theorem after_snoc_nary3 (l : List (HloOp τ sig Val))
    (f : ((k : Fin 3) → ((![x, a, b] : Fin 3 → Ref sig .tc) k).ty.Contents Val) → y.ty.Contents Val) (hxs hy)
    (V : Valuation τ sig Val) :
    after (l ++ [nary (τ := τ) ![x, a, b] y f hxs hy]) V (Proc.devRef .tc y)
      = f (Fin.cons (after l V (Proc.devRef .tc x)) (Fin.cons (after l V (Proc.devRef .tc a))
          (Fin.cons (after l V (Proc.devRef .tc b)) (fun i => i.elim0)))) := by
  simp only [after_append, after_cons, after_nil]
  exact nary3_result f hxs hy _

/-- A buffer other than the last operation's result holds after the line what it held before that operation. -/
theorem after_snoc_nary_ne {n : Nat} (l : List (HloOp τ sig Val)) (xs : Fin n → Ref sig .tc)
    (f : ((k : Fin n) → (xs k).ty.Contents Val) → y.ty.Contents Val) (hxs hy)
    (V : Valuation τ sig Val) {r : Ref sig .tc} (hr : r ≠ y) :
    after (l ++ [nary (τ := τ) xs y f hxs hy]) V (Proc.devRef .tc r) = after l V (Proc.devRef .tc r) := by
  simp only [after_append, after_cons, after_nil]
  exact nary_result_ne (xs := xs) (f := f) (hxs := hxs) (hy := hy) (F := _) (h := hr)

/-- Three pieces of one shape joined along an axis: equal pieces give equal joins. -/
theorem concatenate3_congr {α : Type} {t s : Shape} (ax : Fin t.rank) {p p' q q' r r' : s.Idx → α}
    (h : Shape.Concatenates [s, s, s] t ax) (ep : p = p') (eq : q = q') (er : r = r') :
    concatenate t ax [⟨s, p⟩, ⟨s, q⟩, ⟨s, r⟩] h = concatenate t ax [⟨s, p'⟩, ⟨s, q'⟩, ⟨s, r'⟩] h := by
  subst ep eq er; rfl

end Cert.LibNary3

end
-- ==== Proof.KI.Val0.lean ====
/-
  The projection, as values: what the first call of the program leaves in the projected array, and what the host
  operations before it leave in the arrays it reads.

  The host lays the three weight matrices side by side along the columns (1024 × 3072) and changes the format of
  the result, which on the extended reals is the identity. The call visits 8 blocks of 512 rows: at block `t` it
  multiplies rows `512·t … 512·t + 511` of the input by the whole side-by-side weight and writes the product back
  as the same rows of the projected array. Entry `(512·t + r, e)` of the product is the sum over the 1024 features
  of input row `512·t + r` against column `e` of the weight, whatever `t`: every block is a block of ONE array, the
  rows of the input against the side-by-side weight, and the 8 blocks cover the 4096 rows, so the projected array
  ends as that array.
-/
import proofs.«415724_j60610578481678_3_alg».proof.Proof.KI.Chain
import proofs.«415724_j60610578481678_3_alg».proof.Proof.KI.Pay
import proofs.«415724_j60610578481678_3_alg».proof.Proof.Spec2
import proofs.«415724_j60610578481678_3_alg».proof.Proof.LibNary3
import Idealize.ShloMosaic.Lib.Pipeline.Value
import Idealize.ShloMosaic.Lib.ValueIdx
import Idealize.ShloMosaic.Lib.StableHlo.Run
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## One block of the product -/

/-- The coercion of a finite sum of reals is the sum of the coercions. -/
private theorem coe_sum0 {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-- Where row `r` of a row block holds row `i` of the input and the weight block holds the weight, entry `(r, e)`
    of the block's product is entry `(i, e)` of the rows of the input against the weight. -/
private theorem pay_at (x : Fin 4096 → Fin 1024 → ℝ) (wc : Fin 1024 → Fin 3072 → ℝ)
    (xb : Vec Ideal S512x1024 .f32) (wb : Vec Ideal S1024x3072 .bf16) (i : Fin 4096) (r : Fin 512) (e : Fin 3072)
    (hxb : ∀ k : Fin 1024, xb (ix2 r k) = ((x i k : ℝ) : EReal))
    (hwb : ∀ k : Fin 1024, wb (ix2 k e) = ((wc k e : ℝ) : EReal)) :
    k0_pay1 (F := Ideal) xb wb (ix2 r e) = ((Cert.Spec.qkv x wc i e : ℝ) : EReal) := by
  rw [proj_apply, Cert.Spec.qkv, coe_sum0]
  refine Finset.sum_congr rfl fun k _ => ?_
  rw [hxb, hwb, EReal.coe_mul]

/-! ## The blocks of the three windows -/

/-- The printed index maps over the grid: at point `t` the input's block is row block `t`, the weight's the whole
    weight, the output's row block `t`. -/
private theorem idx_facts0 : ∀ t : Fin cfg0.N, win0_0.index t (0 : Fin 2) = t.val ∧ win0_0.index t (1 : Fin 2) = 0
    ∧ win0_1.index t (0 : Fin 2) = 0 ∧ win0_1.index t (1 : Fin 2) = 0
    ∧ win0_2.index t (0 : Fin 2) = t.val ∧ win0_2.index t (1 : Fin 2) = 0 :=
  (by decide +kernel : ∀ t : Fin grid0.N, _)

variable (V : (c : Dev nD) → (b : Ref sig .tc) → Buf (Elt Ideal) ((c : Thread nD τ).loc b))

/-- What point `t` writes back is block `t` of the rows of the input against the weight. -/
private theorem flushed_eq0 (c : Dev nD) (x : Fin 4096 → Fin 1024 → ℝ) (wc : Fin 1024 → Fin 3072 → ℝ)
    (hx : V c main_arg0 = Cert.Spec.arr x) (hw : V c main_v1 = Cert.Spec.arr wc) (t : Fin cfg0.N) :
    (dat0 (F := Ideal) V c).flushed 2 t
      = ((cfg0.win 2).blk t).view.read (Elt Ideal) (Cert.Spec.arr (Cert.Spec.qkv x wc)) := by
  show (cfg0.win 2).cut (grid0.coords t) ((dat0 (F := Ideal) V c).after 2 t) = _
  rw [after0_2]
  unfold out0_2
  obtain ⟨e0, e1, e2, e3, e4, e5⟩ := idx_facts0 t
  have ht : t.val < 8 := Nat.lt_of_lt_of_eq t.isLt N_0
  funext j
  have hj0 : (j 0).val < 512 := (j 0).isLt
  have hj1 : (j 1).val < 3072 := (j 1).isLt
  show k0_pay1 (F := Ideal) (iblk0 V c 0 t) (iblk0 V c 1 t) ((cfg0.win 2).xinj (grid0.coords t) j)
    = Cert.Spec.arr (Cert.Spec.qkv x wc) (((cfg0.win 2).blk t).view.emb j)
  have hidx : (cfg0.win 2).xinj (grid0.coords t) j = ix2 (⟨(j 0).val, hj0⟩ : Fin 512) (⟨(j 1).val, hj1⟩ : Fin 3072) :=
    funext fun a => Fin.ext (by match a with | ⟨0, _⟩ => rfl | ⟨1, _⟩ => rfl)
  have hemb : ((cfg0.win 2).blk t).view.emb j
      = ix2 (⟨t.val * 512 + (j 0).val, by omega⟩ : Fin 4096) (⟨(j 1).val, hj1⟩ : Fin 3072) :=
    funext fun a => Fin.ext (by
      match a with
      | ⟨0, _⟩ => show win0_2.index t (0 : Fin 2) * 512 + 1 * (j 0).val = t.val * 512 + (j 0).val; omega
      | ⟨1, _⟩ => show win0_2.index t (1 : Fin 2) * 3072 + 1 * (j 1).val = (j 1).val; omega)
  rw [hidx, hemb]
  refine (pay_at x wc (iblk0 V c 0 t) (iblk0 V c 1 t) ⟨t.val * 512 + (j 0).val, by omega⟩ ⟨(j 0).val, hj0⟩ ⟨(j 1).val, hj1⟩ ?_ ?_).trans rfl
  · intro k
    show V c main_arg0 (((cfg0.win 0).blk t).view.emb (ix2 (⟨(j 0).val, hj0⟩ : Fin 512) k)) = _
    have h0 : ((cfg0.win 0).blk t).view.emb (ix2 (⟨(j 0).val, hj0⟩ : Fin 512) k)
        = ix2 (⟨t.val * 512 + (j 0).val, by omega⟩ : Fin 4096) k :=
      funext fun a => Fin.ext (by
        match a with
        | ⟨0, _⟩ => show win0_0.index t (0 : Fin 2) * 512 + 1 * (j 0).val = t.val * 512 + (j 0).val; omega
        | ⟨1, _⟩ => show win0_0.index t (1 : Fin 2) * 1024 + 1 * k.val = k.val; omega)
    rw [h0, hx]
    rfl
  · intro k
    show V c main_v1 (((cfg0.win 1).blk t).view.emb (ix2 k (⟨(j 1).val, hj1⟩ : Fin 3072))) = _
    have h1 : ((cfg0.win 1).blk t).view.emb (ix2 k (⟨(j 1).val, hj1⟩ : Fin 3072))
        = ix2 k (⟨(j 1).val, hj1⟩ : Fin 3072) :=
      funext fun a => Fin.ext (by
        match a with
        | ⟨0, _⟩ => show win0_1.index t (0 : Fin 2) * 1024 + 1 * k.val = k.val; omega
        | ⟨1, _⟩ => show win0_1.index t (1 : Fin 2) * 3072 + 1 * (j 1).val = (j 1).val; omega)
    rw [h1, hw]
    rfl

/-! ## The eight row blocks cover the projected array -/

/-- An index of the projected array is in point `t`'s block iff each coordinate is in the block's range on its axis. -/
private theorem mem_blk0 (t : Fin cfg0.N) (i : S4096x3072.Idx) :
    i ∈ ((cfg0.win 2).blk t).view.set
      ↔ ∀ a : Fin 2, win0_2.index t a * S512x3072.size a ≤ (i a).val
          ∧ (i a).val < win0_2.index t a * S512x3072.size a + S512x3072.size a := by
  show i ∈ ((View.whole main_v2).slice (win0_2.rect t)).set ↔ _
  rw [View.set_slice_whole, Rect.mem_set_unit]
  exact Iff.rfl

/-- Row `i` is in the block of point `i / 512`, and every point writes its block back. -/
private theorem cover0 (i : S4096x3072.Idx) :
    ∃ t : Fin cfg0.N, (cfg0.win 2).flush t = true ∧ i ∈ ((cfg0.win 2).blk t).view.set := by
  have hi0 : (i 0).val < 4096 := (i 0).isLt
  have hi1 : (i 1).val < 3072 := (i 1).isLt
  have hN : cfg0.N = 8 := N_0
  refine ⟨⟨(i 0).val / 512, by rw [hN]; omega⟩, flush0_2 _, ?_⟩
  obtain ⟨e0, e1, e2, e3, e4, e5⟩ := idx_facts0 ⟨(i 0).val / 512, by rw [hN]; omega⟩
  rw [mem_blk0]
  intro a
  match a with
  | ⟨0, _⟩ =>
    show win0_2.index ⟨(i 0).val / 512, _⟩ (0 : Fin 2) * 512 ≤ (i 0).val
      ∧ (i 0).val < win0_2.index ⟨(i 0).val / 512, _⟩ (0 : Fin 2) * 512 + 512
    rw [e4]
    show (i 0).val / 512 * 512 ≤ (i 0).val ∧ (i 0).val < (i 0).val / 512 * 512 + 512
    omega
  | ⟨1, _⟩ =>
    show win0_2.index ⟨(i 0).val / 512, _⟩ (1 : Fin 2) * 3072 ≤ (i 1).val
      ∧ (i 1).val < win0_2.index ⟨(i 0).val / 512, _⟩ (1 : Fin 2) * 3072 + 3072
    rw [e5]
    omega

/-- THE PROJECTED ARRAY after the call: the rows of the input against the weight, where the call finds the input
    and the weight at real arrays. -/
theorem final0 (V : (c : Dev nD) → (b : Ref sig .tc) → Buf (Elt Ideal) ((c : Thread nD τ).loc b)) (c : Dev nD)
    (x : Fin 4096 → Fin 1024 → ℝ) (wc : Fin 1024 → Fin 3072 → ℝ)
    (hx : V c main_arg0 = Cert.Spec.arr x) (hw : V c main_v1 = Cert.Spec.arr wc) :
    (dat0 (F := Ideal) V c).arrAt 2 cfg0.N = Cert.Spec.arr (Cert.Spec.qkv x wc) :=
  (dat0 (F := Ideal) V c).arrAt_eq_of_cover 2 (Cert.Spec.arr (Cert.Spec.qkv x wc))
    (fun t _ => flushed_eq0 V c x wc hx hw t) cover0

/-! ## The host operations before the call -/

/-- Three matrices of 1024 columns side by side, read at `(k, e)`: the matrix whose band of 1024 columns holds
    `e`, at the column's place inside the band. -/
private theorem concat3_apply (p q r : Vec Ideal S1024x1024 .f32)
    (h : Shape.Concatenates [S1024x1024, S1024x1024, S1024x1024] S1024x3072 1) (k : Fin 1024) (e : Fin 3072) :
    concatenate S1024x3072 1 [⟨S1024x1024, p⟩, ⟨S1024x1024, q⟩, ⟨S1024x1024, r⟩] h (ix2 k e)
      = if h1 : e.val < 1024 then p (ix2 k ⟨e.val, h1⟩)
        else if h2 : e.val < 2048 then q (ix2 k ⟨e.val - 1024, by omega⟩)
        else r (ix2 k ⟨e.val - 2048, by omega⟩) := by
  have he : e.val < 3072 := e.isLt
  by_cases h1 : e.val < 1024
  · rw [dif_pos h1]
    refine concatenate_apply_piece (1 : Fin S1024x3072.rank) [⟨S1024x1024, p⟩, ⟨S1024x1024, q⟩, ⟨S1024x1024, r⟩] h (ix2 k e) 0 (Nat.zero_lt_succ _) S1024x1024 p rfl rfl 0 rfl
      (ix2 k ⟨e.val, h1⟩) (fun b hb => ?_) ?_
    · match b with
      | ⟨0, _⟩ => rfl
      | ⟨1, _⟩ => exact absurd rfl hb
    · show 0 + e.val = e.val; omega
  · rw [dif_neg h1]
    by_cases h2 : e.val < 2048
    · rw [dif_pos h2]
      refine concatenate_apply_piece (1 : Fin S1024x3072.rank) [⟨S1024x1024, p⟩, ⟨S1024x1024, q⟩, ⟨S1024x1024, r⟩] h (ix2 k e) 1 (Nat.succ_lt_succ (Nat.zero_lt_succ _)) S1024x1024 q rfl rfl 1024 rfl
        (ix2 k ⟨e.val - 1024, by omega⟩) (fun b hb => ?_) ?_
      · match b with
        | ⟨0, _⟩ => rfl
        | ⟨1, _⟩ => exact absurd rfl hb
      · show 1024 + (e.val - 1024) = e.val; omega
    · rw [dif_neg h2]
      refine concatenate_apply_piece (1 : Fin S1024x3072.rank) [⟨S1024x1024, p⟩, ⟨S1024x1024, q⟩, ⟨S1024x1024, r⟩] h (ix2 k e) 2 (Nat.succ_lt_succ (Nat.succ_lt_succ (Nat.zero_lt_succ _))) S1024x1024 r rfl rfl 2048 rfl
        (ix2 k ⟨e.val - 2048, by omega⟩) (fun b hb => ?_) ?_
      · match b with
        | ⟨0, _⟩ => rfl
        | ⟨1, _⟩ => exact absurd rfl hb
      · show 2048 + (e.val - 2048) = e.val; omega

/-- The host operations leave the input as launched. -/
theorem V1_arg0 (m : (ℓ : Loc nD τ sig) → Buf (Elt Ideal) ℓ) (c : Dev nD) : V1 m c main_arg0 = m ((c : Thread nD τ).loc main_arg0) := by
  show StableHlo.after hostOps0 (W0 m c) (Proc.devRef .tc main_arg0) = _
  after_results3

/-- What the host operations leave in the weight the call reads: the three launched weight matrices side by side
    (the change of format is the identity on extended reals). -/
private theorem V1_v1_raw (m : (ℓ : Loc nD τ sig) → Buf (Elt Ideal) ℓ) (c : Dev nD) :
    (V1 m c main_v1 : FVec Ideal S1024x3072 .bf16) = truncf (F := Ideal) .bf16 (concatenate S1024x3072 1
      [⟨S1024x1024, (m ((c : Thread nD τ).loc main_arg1) : FVec Ideal S1024x1024 .f32)⟩,
        ⟨S1024x1024, (m ((c : Thread nD τ).loc main_arg2) : FVec Ideal S1024x1024 .f32)⟩,
        ⟨S1024x1024, (m ((c : Thread nD τ).loc main_arg3) : FVec Ideal S1024x1024 .f32)⟩]
      concatenates_S1024x1024_S1024x1024_S1024x1024_S1024x3072_d1) bitsLt_bf16_f32 := by
  show StableHlo.after hostOps0 (W0 m c) (Proc.devRef .tc main_v1) = _
  after_results3
  rfl

/-- At real weight matrices the call's weight is the side-by-side weight of the specification. -/
theorem V1_v1 (m : (ℓ : Loc nD τ sig) → Buf (Elt Ideal) ℓ) (c : Dev nD) (wq wk wv : Fin 1024 → Fin 1024 → ℝ)
    (h1 : m ((c : Thread nD τ).loc main_arg1) = Cert.Spec.arr wq) (h2 : m ((c : Thread nD τ).loc main_arg2) = Cert.Spec.arr wk)
    (h3 : m ((c : Thread nD τ).loc main_arg3) = Cert.Spec.arr wv) :
    V1 m c main_v1 = Cert.Spec.arr (Cert.Spec.wcat wq wk wv) := by
  rw [V1_v1_raw]
  funext j
  obtain ⟨k, e, rfl⟩ : ∃ (k : Fin 1024) (e : Fin 3072), j = ix2 k e := ⟨j 0, j 1, eq_ix2 j⟩
  rw [truncf_apply, concat3_apply, h1, h2, h3]
  show _ = ((Cert.Spec.wcat wq wk wv k e : ℝ) : EReal)
  unfold Cert.Spec.wcat
  by_cases g1 : e.val < 1024
  · rw [dif_pos g1, dif_pos g1]; rfl
  · rw [dif_neg g1, dif_neg g1]
    by_cases g2 : e.val < 2048
    · rw [dif_pos g2, dif_pos g2]; rfl
    · rw [dif_neg g2, dif_neg g2]; rfl

/-! ## The projected array after the first call -/

/-- At real inputs the projected array the attention call is entered with holds the rows of the input against the
    three weight matrices side by side. -/
theorem W2_v2_eq (m : (ℓ : Loc nD τ sig) → Buf (Elt Ideal) ℓ) (c : Dev nD) (x : Fin 4096 → Fin 1024 → ℝ) (wq wk wv : Fin 1024 → Fin 1024 → ℝ)
    (h0 : m ((c : Thread nD τ).loc main_arg0) = Cert.Spec.arr x) (h1 : m ((c : Thread nD τ).loc main_arg1) = Cert.Spec.arr wq)
    (h2 : m ((c : Thread nD τ).loc main_arg2) = Cert.Spec.arr wk) (h3 : m ((c : Thread nD τ).loc main_arg3) = Cert.Spec.arr wv) :
    W2 m c main_v2 = Cert.Spec.arr (Cert.Spec.qkv x (Cert.Spec.wcat wq wk wv)) := by
  rw [W2_v2]
  exact final0 (V1 m) c x (Cert.Spec.wcat wq wk wv) ((V1_arg0 m c).trans h0) (V1_v1 m c wq wk wv h1 h2 h3)

end Cert.KernelIdeal.Hand

end
-- ==== Proof.KI.Sched.lean ====
/-
  Facts of the attention schedule, decided over its twenty points: the query-block word is below 4 and the
  key-block word below 8; a point flagged "first" works on key block 0, any other point on the same query block as
  the point before and on the next key block; a point is flagged "last" exactly when its key block is the query
  block's last one, number 2·qi + 1; and the four "last" points are those of query blocks 0, 3, 1, 2.
-/
import proofs.«415724_j60610578481678_3_alg».proof.Proof.KI.Tables

namespace Cert.KernelIdeal.Hand

/-- The global row of local row `r` of the query block point `n` works on. -/
def rowOf (n : ℕ) (r : Fin 1024) : Fin 4096 := ⟨((wQ n).toNat * 1024 + r.val) % 4096, Nat.mod_lt _ (by decide)⟩

/-- The global row of local row `cc` of the key block point `n` works on. -/
def colOf (n : ℕ) (cc : Fin 512) : Fin 4096 := ⟨((wK n).toNat * 512 + cc.val) % 4096, Nat.mod_lt _ (by decide)⟩

theorem wQ_lt : ∀ n : Fin 20, (wQ n.val).toNat < 4 := by decide +kernel
theorem wK_lt : ∀ n : Fin 20, (wK n.val).toNat < 8 := by decide +kernel
theorem first_wK : ∀ n : Fin 20, wF n.val = 1#32 → (wK n.val).toNat = 0 := by decide +kernel
theorem next_wQ : ∀ n : Fin 20, wF n.val ≠ 1#32 → n.val ≠ 0 ∧ wQ n.val = wQ (n.val - 1) ∧ (wK n.val).toNat = (wK (n.val - 1)).toNat + 1 := by
  decide +kernel
theorem last_iff : ∀ n : Fin 20, wL n.val = 1#32 ↔ (wK n.val).toNat + 1 = 2 * (wQ n.val).toNat + 2 := by decide +kernel
theorem wK_le : ∀ n : Fin 20, (wK n.val).toNat + 1 ≤ 2 * (wQ n.val).toNat + 2 := by decide +kernel
theorem last_points : ∀ n : Fin 20, wL n.val = 1#32 ↔ (n.val = 1 ∨ n.val = 9 ∨ n.val = 13 ∨ n.val = 19) := by decide +kernel
theorem wQ_last : (wQ 1).toNat = 0 ∧ (wQ 9).toNat = 3 ∧ (wQ 13).toNat = 1 ∧ (wQ 19).toNat = 2 := by decide +kernel

theorem rowOf_val (n : Fin 20) (r : Fin 1024) : (rowOf n.val r).val = (wQ n.val).toNat * 1024 + r.val := by
  have := wQ_lt n; have := r.isLt
  unfold rowOf; simp only; omega
theorem colOf_val (n : Fin 20) (cc : Fin 512) : (colOf n.val cc).val = (wK n.val).toNat * 512 + cc.val := by
  have := wK_lt n; have := cc.isLt
  unfold colOf; simp only; omega

end Cert.KernelIdeal.Hand
-- ==== Proof.KI.Traj.lean ====
/-
  The attention kernel's three scratch buffers at the ideal instance, point by point. The three input windows cut
  their blocks from the one projected array, which holds a real matrix `Q` of 3072 columns: the query block at a point
  is 1024 rows of the first band of 1024 columns, the key and value blocks are 512 rows of the second and third bands
  (`qblk_apply`, `kblk_apply`, `vblk_apply`). With these, one point's step functions applied to the online-softmax
  state of a row at `512·b` columns give the state at `512·(b+1)` columns (`point_step`), and, by induction along the
  schedule, after point `n` the buffers hold at every row of the point's query block the state at the columns of the
  key blocks `0 … wK n` (`traj`).
-/
import proofs.«415724_j60610578481678_3_alg».proof.Proof.KI.Data1
import proofs.«415724_j60610578481678_3_alg».proof.Proof.KI.Sched
import proofs.«415724_j60610578481678_3_alg».proof.Proof.KI.Pay
import proofs.«415724_j60610578481678_3_alg».proof.Proof.Spec2
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL.Sem
open Idealize.ShloMosaic.Pipeline (Dat Cfg Window)
variable (V : (c : Dev nD) → (b : Ref sig .tc) → Buf (Elt Ideal) ((c : Thread nD τ).loc b)) (c : Dev nD) (Q : Fin 4096 → Fin 3072 → ℝ)

/-- the scaled scores of the bands of Q -/
abbrev sS (Q : Fin 4096 → Fin 3072 → ℝ) : Fin 4096 → Fin 4096 → ℝ := Cert.Spec.score (Cert.Spec.bandQ Q) (Cert.Spec.bandK Q)

/-! ## The three windows' blocks, element by element

The block index of each window at each of the twenty points: the query window sits at (query-block word, 0), the key
window at (key-block word, 1), the value window at (key-block word, 2). -/

private theorem idx0_facts : ∀ t : Fin grid1.N,
    ((cfgA (F := Ideal)).win 0).index t 0 = (wQ t.val).toNat ∧ ((cfgA (F := Ideal)).win 0).index t 1 = 0 := by
  decide +kernel
private theorem idx1_facts : ∀ t : Fin grid1.N,
    ((cfgA (F := Ideal)).win 1).index t 0 = (wK t.val).toNat ∧ ((cfgA (F := Ideal)).win 1).index t 1 = 1 := by
  decide +kernel
private theorem idx2_facts : ∀ t : Fin grid1.N,
    ((cfgA (F := Ideal)).win 2).index t 0 = (wK t.val).toNat ∧ ((cfgA (F := Ideal)).win 2).index t 1 = 2 := by
  decide +kernel

/-- Row `r`, column `e` of the query block at point `t`: row `rowOf t r` of the query band. An element of a block sits
    in the array at block index × block size + its own coordinate on each axis. -/
theorem qblk_apply (hQ : V c main_v2 = Cert.Spec.arr Q) (t : Fin (cfgA (F := Ideal)).N) (r e : Fin 1024) :
    iblk1 V c 0 t (ix2 r e) = ((Cert.Spec.bandQ Q (rowOf t.val r) e : ℝ) : EReal) := by
  have hi := idx0_facts t
  have hN : (cfgA (F := Ideal)).N = 20 := NA
  have hr : (rowOf t.val r).val = (wQ t.val).toNat * 1024 + r.val := rowOf_val ⟨t.val, hN ▸ t.isLt⟩ r
  unfold iblk1
  rw [View.read_apply]
  show V c main_v2 _ = _
  rw [hQ]
  unfold Cert.Spec.arr Cert.Spec.bandQ
  show ((Q _ _ : ℝ) : EReal) = _
  congr 2
  · apply Fin.ext
    show ((cfgA (F := Ideal)).win 0).index t 0 * 1024 + 1 * r.val = (rowOf t.val r).val
    rw [hi.1, hr]; omega
  · apply Fin.ext
    show ((cfgA (F := Ideal)).win 0).index t 1 * 1024 + 1 * e.val = e.val
    rw [hi.2]; omega

/-- Row `cc`, column `e` of the key block at point `t`: row `colOf t cc` of the key band (columns 1024 … 2047). -/
theorem kblk_apply (hQ : V c main_v2 = Cert.Spec.arr Q) (t : Fin (cfgA (F := Ideal)).N) (cc : Fin 512) (e : Fin 1024) :
    iblk1 V c 1 t (ix2 cc e) = ((Cert.Spec.bandK Q (colOf t.val cc) e : ℝ) : EReal) := by
  have hi := idx1_facts t
  have hN : (cfgA (F := Ideal)).N = 20 := NA
  have hr : (colOf t.val cc).val = (wK t.val).toNat * 512 + cc.val := colOf_val ⟨t.val, hN ▸ t.isLt⟩ cc
  unfold iblk1
  rw [View.read_apply]
  show V c main_v2 _ = _
  rw [hQ]
  unfold Cert.Spec.arr Cert.Spec.bandK
  show ((Q _ _ : ℝ) : EReal) = _
  congr 2
  · apply Fin.ext
    show ((cfgA (F := Ideal)).win 1).index t 0 * 512 + 1 * cc.val = (colOf t.val cc).val
    rw [hi.1, hr]; omega
  · apply Fin.ext
    show ((cfgA (F := Ideal)).win 1).index t 1 * 1024 + 1 * e.val = 1024 + e.val
    rw [hi.2]; omega

/-- Row `cc`, column `d` of the value block at point `t`: row `colOf t cc` of the value band (columns 2048 … 3071). -/
theorem vblk_apply (hQ : V c main_v2 = Cert.Spec.arr Q) (t : Fin (cfgA (F := Ideal)).N) (cc : Fin 512) (d : Fin 1024) :
    iblk1 V c 2 t (ix2 cc d) = ((Cert.Spec.bandV Q (colOf t.val cc) d : ℝ) : EReal) := by
  have hi := idx2_facts t
  have hN : (cfgA (F := Ideal)).N = 20 := NA
  have hr : (colOf t.val cc).val = (wK t.val).toNat * 512 + cc.val := colOf_val ⟨t.val, hN ▸ t.isLt⟩ cc
  unfold iblk1
  rw [View.read_apply]
  show V c main_v2 _ = _
  rw [hQ]
  unfold Cert.Spec.arr Cert.Spec.bandV
  show ((Q _ _ : ℝ) : EReal) = _
  congr 2
  · apply Fin.ext
    show ((cfgA (F := Ideal)).win 2).index t 0 * 512 + 1 * cc.val = (colOf t.val cc).val
    rw [hi.1, hr]; omega
  · apply Fin.ext
    show ((cfgA (F := Ideal)).win 2).index t 1 * 1024 + 1 * d.val = 2048 + d.val
    rw [hi.2]; omega

/-! ## One grid point -/

/-- The coercion of a finite real sum is the sum of the coercions. -/
private lemma coe_sum' {ι : Type*} (A : Finset ι) (f : ι → ℝ) :
    ((∑ j ∈ A, f j : ℝ) : EReal) = ∑ j ∈ A, ((f j : ℝ) : EReal) := by
  classical
  induction A using Finset.induction_on with
  | empty => simp
  | insert a A ha ih => rw [Finset.sum_insert ha, Finset.sum_insert ha, EReal.coe_add, ih]

/-- One visit, over abstract blocks and abstract old values: if the query and key blocks' scaled dot products are the
    scores `s i ·` of block `w5`, the value block's column `d` is `vv · d` on that block, the row is
    `i = 1024·w2 + r`, and the old running maximum, denominator and numerator are the state at `512·w5` columns, then
    the new three are the state at `512·(w5+1)` columns. -/
private theorem point_step (s : Fin 4096 → Fin 4096 → ℝ) (vv : Fin 4096 → Fin 1024 → ℝ)
    (w2 w5 : BitVec 32) (h2 : w2.toNat < 4) (h5 : w5.toNat < 8)
    (q : Vec Ideal S1024x1024 .bf16) (k v : Vec Ideal S512x1024 .bf16)
    (mm ll : Vec Ideal S1024x1 .f32) (acc : Vec Ideal S1024x1024 .f32)
    (r d : Fin 1024) (i : Fin 4096) (hi : i.val = w2.toNat * 1024 + r.val)
    (hsc : ∀ cc : Fin 512, (∑ e : Fin 1024, q (ix2 r e) * k (ix2 cc e)) * (((1 / 32 : ℝ)) : EReal)
        = ((s i ⟨w5.toNat * 512 + cc.val, by omega⟩ : ℝ) : EReal))
    (hv : ∀ cc : Fin 512, v (ix2 cc d) = ((vv ⟨w5.toNat * 512 + cc.val, by omega⟩ d : ℝ) : EReal))
    (hm : mm (ix2 r (0 : Fin 1)) = Cert.Spec.pmax s i (w5.toNat * 512))
    (hl : ll (ix2 r (0 : Fin 1)) = ((Cert.Spec.pden s i (w5.toNat * 512) : ℝ) : EReal))
    (ha : acc (ix2 r d) = ((Cert.Spec.pnum s vv i (w5.toNat * 512) d : ℝ) : EReal)) :
    stepM (F := Ideal) w2 w5 q k mm (ix2 r (0 : Fin 1)) = Cert.Spec.pmax s i ((w5.toNat + 1) * 512)
    ∧ stepL (F := Ideal) w2 w5 q k mm ll (ix2 r (0 : Fin 1)) = ((Cert.Spec.pden s i ((w5.toNat + 1) * 512) : ℝ) : EReal)
    ∧ stepA (F := Ideal) w2 w5 q k v mm acc (ix2 r d) = ((Cert.Spec.pnum s vv i ((w5.toNat + 1) * 512) d : ℝ) : EReal) := by
  have hsc' : (fun cc => scoreB (F := Ideal) w2 w5 q k (ix2 r cc)) = Cert.Spec.bsc s i ⟨w5.toNat, h5⟩ := by
    funext cc
    rw [scoreB_apply w2 w5 h2 h5, hsc cc, ← hi]
    rfl
  have hv' : (fun cc => v (ix2 cc d))
      = fun cc : Fin 512 => ((vv ⟨(⟨w5.toNat, h5⟩ : Fin 8).val * 512 + cc.val, by have := cc.isLt; simp only; omega⟩ d : ℝ) : EReal) :=
    funext hv
  refine ⟨?_, ?_, ?_⟩
  · rw [stepM_apply, hsc', hm]
    exact Cert.Spec.fmax_step s i ⟨w5.toNat, h5⟩
  · rw [stepL_apply, hsc', hm, hl]
    exact Cert.Spec.fden_step s i ⟨w5.toNat, h5⟩
  · rw [stepA_apply, hsc', hm, ha, hv']
    exact Cert.Spec.facc_step s vv i ⟨w5.toNat, h5⟩ d

/-- Scaled dot products of coerced real rows are the coerced score. -/
private theorem score_of (bq bk : Fin 4096 → Fin 1024 → ℝ) (q : Vec Ideal S1024x1024 .bf16) (k : Vec Ideal S512x1024 .bf16)
    (r : Fin 1024) (cc : Fin 512) (i j : Fin 4096)
    (hq : ∀ e : Fin 1024, q (ix2 r e) = ((bq i e : ℝ) : EReal)) (hk : ∀ e : Fin 1024, k (ix2 cc e) = ((bk j e : ℝ) : EReal)) :
    (∑ e : Fin 1024, q (ix2 r e) * k (ix2 cc e)) * (((1 / 32 : ℝ)) : EReal) = ((Cert.Spec.score bq bk i j : ℝ) : EReal) := by
  unfold Cert.Spec.score
  rw [EReal.coe_mul, coe_sum']
  congr 1
  apply Finset.sum_congr rfl
  intro e _
  rw [hq e, hk e, EReal.coe_mul]

/-- The point's step from any old state that is the specification's at `512·(key-block word)` columns. -/
private theorem traj_of_old (hQ : V c main_v2 = Cert.Spec.arr Q) (n : ℕ) (hn : n < 20) (r d : Fin 1024)
    (hm : (if wF n = 1#32 then initM (F := Ideal) else (sc1 V c n).2.1) (ix2 r (0 : Fin 1))
        = Cert.Spec.pmax (sS Q) (rowOf n r) ((wK n).toNat * 512))
    (hl : (if wF n = 1#32 then initL (F := Ideal) else (sc1 V c n).2.2) (ix2 r (0 : Fin 1))
        = ((Cert.Spec.pden (sS Q) (rowOf n r) ((wK n).toNat * 512) : ℝ) : EReal))
    (ha : (if wF n = 1#32 then initA (F := Ideal) else (sc1 V c n).1) (ix2 r d)
        = ((Cert.Spec.pnum (sS Q) (Cert.Spec.bandV Q) (rowOf n r) ((wK n).toNat * 512) d : ℝ) : EReal)) :
    (sc1 V c (n + 1)).2.1 (ix2 r (0 : Fin 1)) = Cert.Spec.pmax (sS Q) (rowOf n r) (((wK n).toNat + 1) * 512)
    ∧ (sc1 V c (n + 1)).2.2 (ix2 r (0 : Fin 1)) = ((Cert.Spec.pden (sS Q) (rowOf n r) (((wK n).toNat + 1) * 512) : ℝ) : EReal)
    ∧ (sc1 V c (n + 1)).1 (ix2 r d) = ((Cert.Spec.pnum (sS Q) (Cert.Spec.bandV Q) (rowOf n r) (((wK n).toNat + 1) * 512) d : ℝ) : EReal) := by
  have h : n < (cfgA (F := Ideal)).N := by rw [NA]; exact hn
  have hK : (wK n).toNat < 8 := wK_lt ⟨n, hn⟩
  have hcol : ∀ cc : Fin 512, colOf n cc = ⟨(wK n).toNat * 512 + cc.val, by omega⟩ :=
    fun cc => Fin.ext (colOf_val ⟨n, hn⟩ cc)
  rw [sc1_succ V c n h]
  refine point_step (sS Q) (Cert.Spec.bandV Q) (wQ n) (wK n) (wQ_lt ⟨n, hn⟩) hK
    (iblk1 V c 0 ⟨n, h⟩) (iblk1 V c 1 ⟨n, h⟩) (iblk1 V c 2 ⟨n, h⟩) _ _ _ r d (rowOf n r) (rowOf_val ⟨n, hn⟩ r) ?_ ?_ hm hl ha
  · intro cc
    have e1 := score_of (Cert.Spec.bandQ Q) (Cert.Spec.bandK Q) (iblk1 V c 0 ⟨n, h⟩) (iblk1 V c 1 ⟨n, h⟩) r cc (rowOf n r) (colOf n cc)
      (fun e => qblk_apply V c Q hQ ⟨n, h⟩ r e) (fun e => kblk_apply V c Q hQ ⟨n, h⟩ cc e)
    rw [hcol cc] at e1
    exact e1
  · intro cc
    have e1 := vblk_apply V c Q hQ ⟨n, h⟩ cc d
    rw [show colOf (⟨n, h⟩ : Fin (cfgA (F := Ideal)).N).val cc = _ from hcol cc] at e1
    exact e1

/-- After point `n` the three scratch buffers hold, at row `r` of the point's query block, the online-softmax state of
    global row `rowOf n r` at the columns of key blocks `0 … wK n`. By induction along the schedule: a point flagged
    "first" starts from `⊥, 0, 0` at key block 0, the state at no column; any other point continues the point before,
    same query block, next key block. -/
theorem traj (hQ : V c main_v2 = Cert.Spec.arr Q) (n : ℕ) (hn : n < 20) (r d : Fin 1024) :
    (sc1 V c (n + 1)).2.1 (ix2 r (0 : Fin 1)) = Cert.Spec.pmax (sS Q) (rowOf n r) (((wK n).toNat + 1) * 512)
    ∧ (sc1 V c (n + 1)).2.2 (ix2 r (0 : Fin 1)) = ((Cert.Spec.pden (sS Q) (rowOf n r) (((wK n).toNat + 1) * 512) : ℝ) : EReal)
    ∧ (sc1 V c (n + 1)).1 (ix2 r d) = ((Cert.Spec.pnum (sS Q) (Cert.Spec.bandV Q) (rowOf n r) (((wK n).toNat + 1) * 512) d : ℝ) : EReal) := by
  induction n generalizing r d with
  | zero =>
    have hF : wF 0 = 1#32 := by decide
    have hk : (wK 0).toNat = 0 := first_wK ⟨0, hn⟩ hF
    refine traj_of_old V c Q hQ 0 hn r d ?_ ?_ ?_
    · rw [if_pos hF, hk, Nat.zero_mul, Cert.Spec.pmax_zero, initM_apply]
    · rw [if_pos hF, hk, Nat.zero_mul, Cert.Spec.pden_zero, initL_apply, EReal.coe_zero]
    · rw [if_pos hF, hk, Nat.zero_mul, Cert.Spec.pnum_zero, initA_apply, EReal.coe_zero]
  | succ m ih =>
    by_cases hF : wF (m + 1) = 1#32
    · have hk : (wK (m + 1)).toNat = 0 := first_wK ⟨m + 1, hn⟩ hF
      refine traj_of_old V c Q hQ (m + 1) hn r d ?_ ?_ ?_
      · rw [if_pos hF, hk, Nat.zero_mul, Cert.Spec.pmax_zero, initM_apply]
      · rw [if_pos hF, hk, Nat.zero_mul, Cert.Spec.pden_zero, initL_apply, EReal.coe_zero]
      · rw [if_pos hF, hk, Nat.zero_mul, Cert.Spec.pnum_zero, initA_apply, EReal.coe_zero]
    · have hnx := next_wQ ⟨m + 1, hn⟩ hF
      have hq : wQ (m + 1) = wQ m := hnx.2.1
      have hk : (wK (m + 1)).toNat = (wK m).toNat + 1 := hnx.2.2
      have hrow : rowOf (m + 1) r = rowOf m r := Fin.ext (by
        show ((wQ (m + 1)).toNat * 1024 + r.val) % 4096 = ((wQ m).toNat * 1024 + r.val) % 4096
        rw [hq])
      obtain ⟨i1, i2, i3⟩ := ih (by omega) r d
      refine traj_of_old V c Q hQ (m + 1) hn r d ?_ ?_ ?_
      · rw [if_neg hF, hk, hrow]; exact i1
      · rw [if_neg hF, hk, hrow]; exact i2
      · rw [if_neg hF, hk, hrow]; exact i3

end Cert.KernelIdeal.Hand
end
-- ==== Proof.KI.Val1.lean ====
/-
  The final value of the attention region's output array, at the ideal instance: the causal softmax attention of the
  three bands (queries, keys, values) of the projected array.

  The output window has blocks of 1024 rows; its block index at a point is the point's query-block word. The window is
  written back where that index is about to change and at the last point — exactly the four points the schedule flags
  "last", one per query block. At such a point the staging buffer holds the running numerator divided by the running
  denominator; the key blocks met so far are `2·qi + 2` blocks of 512 columns, `(qi + 1)·1024` columns in all, which is
  past every row of query block `qi`, so numerator and denominator are those of the whole admitted row and the quotient
  is the attention. Every row of the array lies in the block of the "last" point of its query block, so the four blocks
  written back fill the array.
-/
import proofs.«415724_j60610578481678_3_alg».proof.Proof.KI.Data1
import proofs.«415724_j60610578481678_3_alg».proof.Proof.KI.Sched
import proofs.«415724_j60610578481678_3_alg».proof.Proof.KI.Traj
import proofs.«415724_j60610578481678_3_alg».proof.Proof.Spec2
import Idealize.ShloMosaic.Lib.Pipeline.Value
import Idealize.ShloMosaic.Lib.ValueIdx
set_option maxRecDepth 16384
noncomputable section
namespace Cert.KernelIdeal.Hand
open Cert.KernelIdeal Cert.KernelIdeal.Gen
open Idealize.ShloMosaic Idealize.ShloMosaic.TcCoe Idealize.ShloMosaic.ValueIdx
open Idealize.SL.Sem
open Idealize.ShloMosaic.Pipeline (Dat Cfg Window)
variable (V : (c : Dev nD) → (b : Ref sig .tc) → Buf (Elt Ideal) ((c : Thread nD τ).loc b)) (c : Dev nD) (Q : Fin 4096 → Fin 3072 → ℝ)

/-- The output window is written back exactly at the four points the schedule flags "last". -/
private theorem flush3_iff : ∀ t : Fin (cfgA (F := Ideal)).N,
    ((cfgA (F := Ideal)).win 3).flush t = true ↔ (t.val = 1 ∨ t.val = 9 ∨ t.val = 13 ∨ t.val = 19) :=
  (by decide +kernel : ∀ t : Fin grid1.N, _)

/-- The output window's block index is the query-block word, in the first column of blocks. -/
private theorem index3_eq : ∀ t : Fin (cfgA (F := Ideal)).N,
    ((cfgA (F := Ideal)).win 3).index t = ![(wQ t.val).toNat, 0] :=
  (by decide +kernel : ∀ t : Fin grid1.N, _)

/-- A point of the attention grid as one of the schedule's twenty. -/
private def pt (t : Fin (cfgA (F := Ideal)).N) : Fin 20 := ⟨t.val, (NA (F := Ideal)) ▸ t.isLt⟩

/-- At a point the schedule flags "last", the quotient of the running numerator by the running denominator is the
    causal attention of the point's rows: the key blocks met so far are `2·qi + 2` blocks of 512 columns, that is
    `(qi + 1)·1024` columns, more than any row of query block `qi`, so the running state is the state at all columns. -/
private theorem quot_last (hQ : V c main_v2 = Cert.Spec.arr Q) (n : Fin 20) (hl : wL n.val = 1#32) (r d : Fin 1024) :
    outO (F := Ideal) (sc1 V c (n.val + 1)).1 (sc1 V c (n.val + 1)).2.2 (ix2 r d)
      = ((Cert.Spec.attn (sS Q) (Cert.Spec.bandV Q) (rowOf n.val r) d : ℝ) : EReal) := by
  obtain ⟨-, hden, hnum⟩ := traj V c Q hQ n.val n.isLt r d
  have hk := (last_iff n).mp hl
  have hrow := rowOf_val n r
  have hr := r.isLt
  have hlt : (rowOf n.val r).val < ((wK n.val).toNat + 1) * 512 := by rw [hrow, hk]; omega
  rw [outO_apply, hden, hnum, Cert.Spec.pden_of_lt _ _ _ hlt, Cert.Spec.pnum_of_lt _ _ _ _ hlt, Cert.Spec.div_eq_attn]

/-- The array the output window ends holding: the causal attention of the three bands. -/
private abbrev attnArr (Q : Fin 4096 → Fin 3072 → ℝ) : S4096x1024.Idx → EReal :=
  Cert.Spec.arr (fun i d => Cert.Spec.attn (sS Q) (Cert.Spec.bandV Q) i d)

/-- What a writing-back point writes back is its block of the attention array. -/
private theorem flushed3_eq (hQ : V c main_v2 = Cert.Spec.arr Q) (t : Fin (cfgA (F := Ideal)).N)
    (hf : ((cfgA (F := Ideal)).win 3).flush t = true) :
    (dat1 (F := Ideal) V c).flushed 3 t = (((cfgA (F := Ideal)).win 3).blk t).view.read (Elt Ideal) (attnArr Q) := by
  show ((cfgA (F := Ideal)).win 3).cut (grid1.coords t) ((dat1 (F := Ideal) V c).after 3 t) = _
  rw [after1_3]
  have hl : wL (pt t).val = 1#32 := (last_points (pt t)).mpr ((flush3_iff t).mp hf)
  have e0 : ((cfgA (F := Ideal)).win 3).index t (0 : Fin 2) = (wQ t.val).toNat := congrFun (index3_eq t) 0
  have e1 : ((cfgA (F := Ideal)).win 3).index t (1 : Fin 2) = 0 := congrFun (index3_eq t) 1
  funext j
  obtain ⟨r, d, rfl⟩ : ∃ (r d : Fin 1024), j = ix2 r d := ⟨j 0, j 1, eq_ix2 (n0 := 1024) (n1 := 1024) j⟩
  show outO (F := Ideal) (sc1 V c ((pt t).val + 1)).1 (sc1 V c ((pt t).val + 1)).2.2 (ix2 r d)
    = Cert.Spec.arr (fun i d => Cert.Spec.attn (sS Q) (Cert.Spec.bandV Q) i d) ((((cfgA (F := Ideal)).win 3).blk t).view.emb (ix2 r d))
  rw [quot_last V c Q hQ (pt t) hl r d]
  unfold Cert.Spec.arr
  have hrow := rowOf_val (pt t) r
  have hr := r.isLt
  have h0 : (((cfgA (F := Ideal)).win 3).blk t).view.emb (ix2 r d) 0 = rowOf (pt t).val r := by
    apply Fin.ext
    show ((cfgA (F := Ideal)).win 3).index t (0 : Fin 2) * 1024 + 1 * r.val = (rowOf (pt t).val r).val
    rw [hrow, e0]; show (wQ t.val).toNat * 1024 + 1 * r.val = (wQ t.val).toNat * 1024 + r.val; omega
  have h1 : (((cfgA (F := Ideal)).win 3).blk t).view.emb (ix2 r d) 1 = d := by
    apply Fin.ext
    show ((cfgA (F := Ideal)).win 3).index t (1 : Fin 2) * 1024 + 1 * d.val = d.val
    rw [e1]; omega
  rw [h0, h1]

/-- An index of the output array lies in point `t`'s block iff each coordinate lies in the block's range on its axis. -/
private theorem mem_blk3 (t : Fin (cfgA (F := Ideal)).N) (i : S4096x1024.Idx) :
    i ∈ (((cfgA (F := Ideal)).win 3).blk t).view.set
      ↔ ∀ a : Fin 2, ((cfgA (F := Ideal)).win 3).index t a * S1024x1024.size a ≤ (i a).val
          ∧ (i a).val < ((cfgA (F := Ideal)).win 3).index t a * S1024x1024.size a + S1024x1024.size a := by
  show i ∈ ((View.whole main_v3).slice (((cfgA (F := Ideal)).win 3).rect t)).set ↔ _
  rw [View.set_slice_whole, Rect.mem_set_unit]
  exact Iff.rfl

/-- A row of query block `wQ t` lies in the block of point `t`. -/
private theorem mem_of_row (t : Fin (cfgA (F := Ideal)).N) (i : S4096x1024.Idx)
    (h : (wQ t.val).toNat * 1024 ≤ (i 0).val ∧ (i 0).val < (wQ t.val).toNat * 1024 + 1024) :
    i ∈ (((cfgA (F := Ideal)).win 3).blk t).view.set := by
  rw [mem_blk3]
  have e0 : ((cfgA (F := Ideal)).win 3).index t (0 : Fin 2) = (wQ t.val).toNat := congrFun (index3_eq t) 0
  have e1 : ((cfgA (F := Ideal)).win 3).index t (1 : Fin 2) = 0 := congrFun (index3_eq t) 1
  have hi1 : (i 1).val < 1024 := idx2_lt1 i
  intro a
  match a with
  | ⟨0, _⟩ =>
    show ((cfgA (F := Ideal)).win 3).index t (0 : Fin 2) * 1024 ≤ (i 0).val
      ∧ (i 0).val < ((cfgA (F := Ideal)).win 3).index t (0 : Fin 2) * 1024 + 1024
    rw [e0]; exact h
  | ⟨1, _⟩ =>
    show ((cfgA (F := Ideal)).win 3).index t (1 : Fin 2) * 1024 ≤ (i 1).val
      ∧ (i 1).val < ((cfgA (F := Ideal)).win 3).index t (1 : Fin 2) * 1024 + 1024
    rw [e1, Nat.zero_mul, Nat.zero_add]; exact ⟨Nat.zero_le _, hi1⟩

/-- Every row lies in the block written back at the "last" point of its query block: points 1, 13, 19, 9 for
    query blocks 0, 1, 2, 3. -/
private theorem cover3 (i : S4096x1024.Idx) :
    ∃ t : Fin (cfgA (F := Ideal)).N, ((cfgA (F := Ideal)).win 3).flush t = true
      ∧ i ∈ (((cfgA (F := Ideal)).win 3).blk t).view.set := by
  have hi0 : (i 0).val < 4096 := idx2_lt0 i
  obtain ⟨q1, q9, q13, q19⟩ := wQ_last
  have hN : (cfgA (F := Ideal)).N = 20 := NA
  by_cases h1 : (i 0).val < 1024
  · refine ⟨⟨1, by rw [hN]; omega⟩, (flush3_iff _).mpr (Or.inl rfl), mem_of_row _ i ?_⟩
    show (wQ 1).toNat * 1024 ≤ (i 0).val ∧ (i 0).val < (wQ 1).toNat * 1024 + 1024
    rw [q1]; omega
  by_cases h2 : (i 0).val < 2048
  · refine ⟨⟨13, by rw [hN]; omega⟩, (flush3_iff _).mpr (Or.inr (Or.inr (Or.inl rfl))), mem_of_row _ i ?_⟩
    show (wQ 13).toNat * 1024 ≤ (i 0).val ∧ (i 0).val < (wQ 13).toNat * 1024 + 1024
    rw [q13]; omega
  by_cases h3 : (i 0).val < 3072
  · refine ⟨⟨19, by rw [hN]; omega⟩, (flush3_iff _).mpr (Or.inr (Or.inr (Or.inr rfl))), mem_of_row _ i ?_⟩
    show (wQ 19).toNat * 1024 ≤ (i 0).val ∧ (i 0).val < (wQ 19).toNat * 1024 + 1024
    rw [q19]; omega
  · refine ⟨⟨9, by rw [hN]; omega⟩, (flush3_iff _).mpr (Or.inr (Or.inl rfl)), mem_of_row _ i ?_⟩
    show (wQ 9).toNat * 1024 ≤ (i 0).val ∧ (i 0).val < (wQ 9).toNat * 1024 + 1024
    rw [q9]; omega

/-- The output array after the attention region: the causal softmax attention of the three bands of the projected array. -/
theorem final1 (hQ : V c main_v2 = Cert.Spec.arr Q) :
    (dat1 (F := Ideal) V c).arrAt 3 (cfgA (F := Ideal)).N
      = Cert.Spec.arr (fun i d => Cert.Spec.attn (sS Q) (Cert.Spec.bandV Q) i d) :=
  (dat1 (F := Ideal) V c).arrAt_eq_of_cover 3 (attnArr Q) (fun t hf => flushed3_eq V c Q hQ t hf) cover3

end Cert.KernelIdeal.Hand
end
-- ==== Proof.RefValue.lean ====
/-
  The reference's result, read at an index: causal softmax attention of the projected rows (the specification's `out`).

  The reference computes, on the extended reals, the three projections of the input rows, the scores of every
  query row against every key row, replaces the scores of the columns after the row by -∞, scales by 1/√1024,
  and takes a row-wise softmax: the row's largest entry is subtracted, the exponentials are summed along the row
  and each is divided by that sum; the result is the product of these weights with the projected value rows.
  At real inputs every stage is read here at ONE index as the coercion of a real number (or as -∞ / 0 on a
  masked column), stage by stage, down to the specification's `attn`.
-/
import proofs.«415724_j60610578481678_3_alg».proof.Proof.Gen.ReferenceIdeal.Read
import proofs.«415724_j60610578481678_3_alg».proof.Proof.Spec
import Idealize.ShloMosaic.Lib.StableHlo.Predicate

noncomputable section

namespace Cert.ReferenceIdeal.RefValue

open Idealize.ShloMosaic Idealize.ShloMosaic.TcCoe Idealize.SL.Sem Cert.ReferenceIdeal
open Idealize.ShloMosaic.ValueIdx Cert.ReferenceIdeal.Gen Cert.ReferenceIdeal.Read Cert.Spec

/-! ## Sums and products of coerced reals -/

/-- The coercion of a finite sum of reals is the sum of the coercions. -/
theorem coe_sum {ι : Type} (s : Finset ι) (f : ι → ℝ) :
    ((∑ k ∈ s, f k : ℝ) : EReal) = ∑ k ∈ s, ((f k : ℝ) : EReal) := by
  classical
  induction s using Finset.induction_on with
  | empty => simp
  | insert a s ha ih => rw [Finset.sum_insert ha, Finset.sum_insert ha, EReal.coe_add, ih]

/-! ## The three projections -/

variable (x : Fin 4096 → Fin 1024 → ℝ) (wq wk wv : Fin 1024 → Fin 1024 → ℝ)

/-- The queries: row `i` of the input against column `e` of the query weights. -/
theorem q_eq (w : Fin 1024 → Fin 1024 → ℝ) (i : Fin 4096) (e : Fin 1024) :
    val_main_v0 (F := Ideal) (arr x) (arr w) (ix2 i e) = ((proj x w i e : ℝ) : EReal) := by
  rw [val_main_v0_apply, proj, coe_sum]
  refine Finset.sum_congr rfl fun k _ => ?_
  rw [EReal.coe_mul]
  rfl

/-- The keys. -/
theorem k_eq (w : Fin 1024 → Fin 1024 → ℝ) (i : Fin 4096) (e : Fin 1024) :
    val_main_v1 (F := Ideal) (arr x) (arr w) (ix2 i e) = ((proj x w i e : ℝ) : EReal) := by
  rw [val_main_v1_apply, proj, coe_sum]
  refine Finset.sum_congr rfl fun k _ => ?_
  rw [EReal.coe_mul]
  rfl

/-- The values. -/
theorem v_eq (w : Fin 1024 → Fin 1024 → ℝ) (i : Fin 4096) (e : Fin 1024) :
    val_main_v2 (F := Ideal) (arr x) (arr w) (ix2 i e) = ((proj x w i e : ℝ) : EReal) := by
  rw [val_main_v2_apply, proj, coe_sum]
  refine Finset.sum_congr rfl fun k _ => ?_
  rw [EReal.coe_mul]
  rfl

/-! ## The scores -/

/-- The transposed keys: entry `(e, j)` is feature `e` of key row `j`. -/
theorem kT_eq (w : Fin 1024 → Fin 1024 → ℝ) (e : Fin 1024) (j : Fin 4096) :
    val_main_v3 (F := Ideal) (arr x) (arr w) (ix2 e j) = ((proj x w j e : ℝ) : EReal) := by
  rw [val_main_v3_apply]
  exact k_eq x w j e

/-- The unscaled score of query row `i` against key row `j`: the dot product over the 1024 features. -/
def dots (i j : Fin 4096) : ℝ := ∑ e : Fin 1024, proj x wq i e * proj x wk j e

theorem dots_eq (i j : Fin 4096) :
    val_main_v4 (F := Ideal) (arr x) (arr wq) (arr wk) (ix2 i j) = ((dots x wq wk i j : ℝ) : EReal) := by
  rw [val_main_v4_apply, dots, coe_sum]
  refine Finset.sum_congr rfl fun e _ => ?_
  rw [EReal.coe_mul]
  exact congrArg₂ (· * ·) (q_eq x wq i e) (kT_eq x wk e j)

/-! ## The causal mask, the scale, and the masked scaled scores -/

/-- The lower triangle: the mask bit at `(i, j)` is set exactly when `j ≤ i` (row and column numbers are below
    4096, so their 32-bit words compare signed as the numbers do). -/
theorem mask_eq (i j : Fin 4096) :
    val_main_v6 (F := Ideal) (ix2 i j) = if j ≤ i then 1#1 else 0#1 := by
  rw [val_main_v6_apply, val_main_call0_v4_apply, val_main_call0_v2_apply, val_main_call0_v0_apply,
    val_main_call0_v1_apply, val_main_call0_c_apply, val_main_call0_v3_apply, val_main_v5_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  have e : IntOp.addi (BitVec.ofNat 32 i.val) 0#32 = BitVec.ofNat 32 i.val := BitVec.add_zero _
  have hi : (BitVec.ofNat 32 i.val).toNat = i.val := by
    rw [BitVec.toNat_ofNat]; have := i.isLt; omega
  have hj : (BitVec.ofNat 32 j.val).toNat = j.val := by
    rw [BitVec.toNat_ofNat]; have := j.isLt; omega
  have hc := StableHlo.Predicate.sge_iff_toNat (a := BitVec.ofNat 32 i.val) (b := BitVec.ofNat 32 j.val)
    (by rw [hi]; have := i.isLt; omega) (by rw [hj]; have := j.isLt; omega)
  rw [hi, hj] at hc
  rw [e]
  by_cases h : j ≤ i
  · rw [if_pos h, hc.mpr (Fin.le_def.mp h), select_one]
  · rw [if_neg h, eq_zero_of_ne_one (fun h1 => h (Fin.le_def.mpr (hc.mp h1))), select_zero]

/-- The pattern of the masked entries denotes -∞. -/
theorem negInf_bits : Ideal.ofBits .f32 0xFF800000#32 = ⊥ := by simp [Ideal.ofBits, Ideal.ieee]
/-- The pattern `0x3F800000` denotes 1. -/
theorem one_bits : Ideal.ofBits .f32 0x3F800000#32 = 1 := by
  simp [Ideal.ofBits, Ideal.ieee, -EReal.coe_mul]; norm_num
/-- The pattern `0x44800000` denotes 1024. -/
theorem bits_1024 : Ideal.ofBits .f32 0x44800000#32 = ((1024 : ℝ) : EReal) := by
  simp [Ideal.ofBits, Ideal.ieee, -EReal.coe_mul]; norm_num

/-- The scale 1/√1024 is 1/32. -/
theorem scale_eq (i j : Fin 4096) : val_main_v10 (F := Ideal) (ix2 i j) = ((1 / 32 : ℝ) : EReal) := by
  rw [val_main_v10_apply, val_main_v9_apply, val_main_cst_1_apply, val_main_v8_apply, val_main_cst_0_apply]
  have hs : Real.sqrt 1024 = 32 := by
    rw [show (1024 : ℝ) = 32 ^ 2 by norm_num, Real.sqrt_sq (by norm_num)]
  simp only [Ideal.hostDivf_def, Ideal.hostUnary_sqrt_def, Ideal.ofBits_def, one_bits, bits_1024, Ideal.sqrt_coe]
  rw [if_neg (by norm_num), hs, Ideal.div_coe (by norm_num), one_mul]

/-- The specification's scaled scores of the projected queries and keys. -/
abbrev sc : Fin 4096 → Fin 4096 → ℝ := score (proj x wq) (proj x wk)

/-- The masked, scaled score at `(i, j)`: the scaled score on an admitted column, -∞ on a masked one. -/
theorem msc_eq (i j : Fin 4096) :
    val_main_v11 (F := Ideal) (arr x) (arr wq) (arr wk) (ix2 i j)
      = if j ≤ i then ((sc x wq wk i j : ℝ) : EReal) else ⊥ := by
  rw [val_main_v11_apply, val_main_v7_apply, mask_eq, dots_eq, val_main_call1_v1_apply, val_main_call1_v0_apply,
    val_main_cst_apply, scale_eq]
  by_cases h : j ≤ i
  · rw [if_pos h, if_pos h, select_one, Ideal.mulf_def, ← EReal.coe_mul]
    rfl
  · rw [if_neg h, if_neg h, select_zero, Ideal.mulf_def, Ideal.ofBits_def, negInf_bits]
    exact EReal.bot_mul_coe_of_pos (by norm_num)

/-! ## The row maximum -/

/-- A fold of the maximum from -∞ is the supremum. -/
theorem fold_max_eq_sup {ι : Type} (s : Finset ι) (f : ι → EReal) :
    s.fold (FloatOps.maximumf (F := Ideal) (φ := .f32)) (⊥ : EReal) f = s.sup f := by
  classical
  induction s using Finset.induction_on with
  | empty => rw [Finset.fold_empty, Finset.sup_empty]
  | insert a s ha ih => rw [Finset.fold_insert ha, Finset.sup_insert, ih]; rfl

/-- The reduced index `i` with column `k` put back on the dropped axis is `(i, k)`. -/
theorem lift_eq (h : S4096x4096.Reduces [1] S4096) (i : Fin 4096) (k : Fin (S4096x4096.size 1)) :
    h.lift (ix1 i) k = ix2 i (⟨k.val, k.isLt⟩ : Fin 4096) := by
  funext c; apply Fin.ext
  fin_cases c <;> rfl

/-- The reference's maximum-reduce along a row, from -∞: the supremum of the row's entries. -/
theorem reduce_max_row (y : FVec Ideal S4096x4096 .f32) (i : Fin 4096) :
    Host.reduce FloatOps.maximumf y (val_main_cst_2 (F := Ideal)) reducesTo_S4096x4096_S4096_d1 h_S_ (ix1 i)
      = Finset.univ.sup fun k : Fin 4096 => y (ix2 i k) := by
  have h : S4096x4096.Reduces [1] S4096 := by decide
  rw [Host.reduce_eq_fold_single FloatOps.maximumf y _ reducesTo_S4096x4096_S4096_d1 h h_S_ (ix1 i)]
  rw [val_main_cst_2_apply, Ideal.ofBits_def, negInf_bits]
  have hf : (y ∘ h.lift (ix1 i)) = fun k : Fin 4096 => y (ix2 i k) :=
    funext fun k => congrArg y (lift_eq h i k)
  rw [hf]
  exact fold_max_eq_sup _ _

/-- The supremum over a whole row of the masked scores is the supremum of the scores of the admitted columns. -/
theorem sup_masked (s : Fin 4096 → Fin 4096 → ℝ) (i : Fin 4096) :
    (Finset.univ.sup fun k : Fin 4096 => if k ≤ i then ((s i k : ℝ) : EReal) else ⊥) = pmax s i 4096 := by
  unfold pmax cols
  apply le_antisymm
  · refine Finset.sup_le fun k _ => ?_
    by_cases h : k ≤ i
    · rw [if_pos h]
      exact Finset.le_sup (f := fun j => ((s i j : ℝ) : EReal)) (Finset.mem_filter.mpr ⟨Finset.mem_univ _, k.isLt, h⟩)
    · rw [if_neg h]; exact bot_le
  · refine Finset.sup_le fun k hk => ?_
    have h := (Finset.mem_filter.mp hk).2.2
    calc ((s i k : ℝ) : EReal) = (if k ≤ i then ((s i k : ℝ) : EReal) else ⊥) := (if_pos h).symm
      _ ≤ _ := Finset.le_sup (f := fun k => if k ≤ i then ((s i k : ℝ) : EReal) else ⊥) (Finset.mem_univ k)

/-- The row's maximum, as the reference takes it, is the specification's largest admitted score. -/
theorem rowmax_eq (i : Fin 4096) :
    val_main_v14 (F := Ideal) (arr x) (arr wq) (arr wk) (ix1 i) = pmax (sc x wq wk) i 4096 := by
  rw [val_main_v14_apply, val_main_v13_apply, val_main_cst_3_apply]
  unfold val_main_v12
  rw [reduce_max_row, Ideal.maximumf_def, Ideal.ofBits_def, negInf_bits, max_eq_right bot_le]
  rw [← sup_masked]
  exact congrArg (Finset.univ.sup ·) (funext fun k => msc_eq x wq wk i k)

/-! ## The exponentials, their row sum, the weights and the result -/

/-- The largest admitted score of a row is a real number: column 0 is always admitted. -/
theorem pmax_real (s : Fin 4096 → Fin 4096 → ℝ) (i : Fin 4096) : ∃ M : ℝ, pmax s i 4096 = ((M : ℝ) : EReal) := by
  unfold pmax
  have hne : (cols i 4096).Nonempty :=
    ⟨⟨0, by norm_num⟩, Finset.mem_filter.mpr ⟨Finset.mem_univ _, by norm_num, Fin.le_def.mpr (Nat.zero_le _)⟩⟩
  obtain ⟨j, _, hj⟩ := Finset.exists_mem_eq_sup (cols i 4096) hne (fun j => ((s i j : ℝ) : EReal))
  exact ⟨s i j, hj⟩

/-- The exponential of the score relative to the row's maximum: a real on an admitted column, `exp (-∞) = 0` on a
    masked one. -/
theorem exp_eq (i j : Fin 4096) :
    val_main_v18 (F := Ideal) (arr x) (arr wq) (arr wk) (ix2 i j)
      = if j ≤ i then ((Real.exp (sc x wq wk i j - (pmax (sc x wq wk) i 4096).toReal) : ℝ) : EReal) else 0 := by
  rw [val_main_v18_apply, val_main_v17_apply, msc_eq, val_main_v16_apply, val_main_v15_apply]
  have hidx : idx_main_v15 (idx_main_v16 (ix2 i j)) = ix1 i :=
    funext fun a => Fin.ext (by match a with | ⟨0, _⟩ => rfl)
  rw [hidx, rowmax_eq]
  obtain ⟨M, hM⟩ := pmax_real (sc x wq wk) i
  rw [hM, EReal.toReal_coe, Ideal.hostUnary_exp_def, Ideal.subf_def]
  by_cases h : j ≤ i
  · rw [if_pos h, if_pos h, ← EReal.coe_sub, Ideal.exp_coe]
  · rw [if_neg h, if_neg h, EReal.bot_sub, Ideal.exp_bot]

/-- The row sum of the exponentials is the specification's denominator. -/
theorem den_eq (i : Fin 4096) :
    val_main_v19 (F := Ideal) (arr x) (arr wq) (arr wk) (ix1 i) = ((pden (sc x wq wk) i 4096 : ℝ) : EReal) := by
  rw [val_main_v19_apply, val_main_cst_4_apply, Ideal.ofBits_def, Ideal.ofBits_zero_f32, zero_add]
  have hidx : ∀ k : Fin 4096, idx_main_v19 (ix1 i) k = ix2 i k := fun k =>
    funext fun a => Fin.ext (by match a with | ⟨0, _⟩ => rfl | ⟨1, _⟩ => rfl)
  unfold pden cols
  rw [coe_sum, Finset.sum_filter]
  refine Finset.sum_congr rfl fun k _ => ?_
  rw [hidx, exp_eq]
  by_cases h : k ≤ i
  · rw [if_pos h, if_pos ⟨k.isLt, h⟩]
  · rw [if_neg h, if_neg (fun hh => h hh.2)]

/-- The softmax weight at `(i, j)`: the exponential over the row sum (a positive real). -/
theorem wgt_eq (i j : Fin 4096) :
    val_main_v22 (F := Ideal) (arr x) (arr wq) (arr wk) (ix2 i j)
      = (((if j ≤ i then Real.exp (sc x wq wk i j - (pmax (sc x wq wk) i 4096).toReal) else 0)
          / pden (sc x wq wk) i 4096 : ℝ) : EReal) := by
  rw [val_main_v22_apply, exp_eq, val_main_v21_apply, val_main_v20_apply]
  have hidx : idx_main_v20 (idx_main_v21 (ix2 i j)) = ix1 i :=
    funext fun a => Fin.ext (by match a with | ⟨0, _⟩ => rfl)
  rw [hidx, den_eq, Ideal.hostDivf_def, Ideal.div_coe (ne_of_gt (pden_pos _ i))]
  by_cases h : j ≤ i
  · rw [if_pos h, if_pos h, ← EReal.coe_mul, mul_one_div]
  · rw [if_neg h, if_neg h, zero_mul, zero_div, EReal.coe_zero]

/-- The result at `(i, d)`: the weights of row `i` against feature `d` of the value rows, the specification's
    attention. -/
theorem out_eq (i : Fin 4096) (d : Fin 1024) :
    val_main_v23 (F := Ideal) (arr x) (arr wq) (arr wk) (arr wv) (ix2 i d) = ((out x wq wk wv i d : ℝ) : EReal) := by
  rw [val_main_v23_apply]
  unfold out attn
  rw [coe_sum]
  refine Finset.sum_congr rfl fun k _ => ?_
  have hl : lidx_main_v23 (ix2 i d) k = ix2 i k :=
    funext fun a => Fin.ext (by match a with | ⟨0, _⟩ => rfl | ⟨1, _⟩ => rfl)
  have hr : ridx_main_v23 (ix2 i d) k = ix2 k d :=
    funext fun a => Fin.ext (by match a with | ⟨0, _⟩ => rfl | ⟨1, _⟩ => rfl)
  rw [EReal.coe_mul, hl, hr, wgt_eq, v_eq]

/-! ## The reference's result -/

/-- At real inputs the reference's result is, entry by entry, the specification's causal softmax attention. -/
theorem res_eq (m : (ℓ : Loc nD τ sig) → Buf (Elt Ideal) ℓ) (c : Dev nD)
    (x : Fin 4096 → Fin 1024 → ℝ) (wq wk wv : Fin 1024 → Fin 1024 → ℝ)
    (h0 : m ((c.tc : Thread nD τ).loc main_arg0) = Cert.Spec.arr x)
    (h1 : m ((c.tc : Thread nD τ).loc main_arg1) = Cert.Spec.arr wq)
    (h2 : m ((c.tc : Thread nD τ).loc main_arg2) = Cert.Spec.arr wk)
    (h3 : m ((c.tc : Thread nD τ).loc main_arg3) = Cert.Spec.arr wv) :
    Cert.ReferenceIdeal.Value.res_out0 (F := Ideal) m c = Cert.Spec.arr (Cert.Spec.out x wq wk wv) := by
  funext j
  obtain ⟨i, d, rfl⟩ : ∃ (i : Fin 4096) (d : Fin 1024), j = ix2 i d := ⟨j 0, j 1, eq_ix2 j⟩
  show Cert.ReferenceIdeal.Value.res_main_v23 m c (ix2 i d) = _
  rw [val_main_v23_eq, h0, h1, h2, h3]
  exact out_eq x wq wk wv i d

end Cert.ReferenceIdeal.RefValue

end
-- ==== Proof.Finite.lean ====
/-
  Finiteness of the inputs. The precondition says of each of the four input arrays that every entry
  `e` satisfies `|e| < +∞`, the absolute value being `max e (-e)` on the extended reals. Of the three
  kinds of extended real only a real number passes that test: `|⊥| = |⊤| = ⊤`. So every entry is the
  coercion of a real number, and each input array is the coercion of a real matrix.
-/
import proofs.«415724_j60610578481678_3_alg».proof.Defs
import proofs.«415724_j60610578481678_3_alg».proof.Proof.Gen.Pre_finite_inputs
import proofs.«415724_j60610578481678_3_alg».proof.Proof.Spec
import Idealize.ShloMosaic.Lib.ReduceAll
import Idealize.ShloMosaic.Lib.ValueIdx

noncomputable section

namespace Cert.Proof.Finite

open Idealize.ShloMosaic Idealize.ShloMosaic.TcCoe Idealize.SL.Sem

/-- An extended real whose absolute value `max x (-x)` stays below `⊤` is a real number:
    at `⊥` and at `⊤` the absolute value is `⊤`. -/
private theorem real_of_abs_lt_top (x : EReal) (h : max x (-x) < ⊤) : ∃ r : ℝ, x = (r : EReal) := by
  induction x using EReal.rec with
  | bot => simp at h
  | coe r => exact ⟨r, rfl⟩
  | top => simp at h

/-- The pattern with all exponent bits set, sign and fraction zero, denotes `+∞`. -/
private theorem inf_bits : Ideal.ofBits .f32 0x7F800000#32 = ⊤ := by
  simp [Ideal.ofBits, Ideal.ieee]

/-- The element test `|x| < +∞`, answered by the word 1, makes `x` a real number. -/
private theorem elt_real (x : EReal)
    (h : FloatOps.cmpf (F := Ideal) (φ := .f32) .olt (FloatOps.hostAbsf (F := Ideal) (φ := .f32) x)
      (FloatOps.ofBits (F := Ideal) .f32 0x7F800000#32) = 1#1) :
    ∃ r : ℝ, x = (r : EReal) := by
  apply real_of_abs_lt_top
  have h' : Ideal.cmp .olt (max x (-x)) (Ideal.ofBits .f32 0x7F800000#32) = 1#1 := h
  rw [inf_bits] at h'
  by_contra hlt
  have h0 : Ideal.cmp .olt (max x (-x)) ⊤ = 0#1 := by
    unfold Ideal.cmp
    simp only [decide_eq_false hlt]
    rfl
  rw [h0] at h'
  exact absurd h' (by decide)

/-- One array of a rank-2 shape: if every entry passes the test `|e| < +∞`, the array is a real matrix, coerced
    entry by entry. The matrix is read off the array: entry `(a, b)` is the real number the array holds there. -/
theorem arr_of_finite {n0 n1 : ℕ} (v : FVec Ideal (⟨2, ![n0, n1]⟩ : Shape) .f32)
    (h : ∀ j, FloatOps.cmpf (F := Ideal) (φ := .f32) .olt (FloatOps.hostAbsf (F := Ideal) (φ := .f32) (v j))
      (FloatOps.ofBits (F := Ideal) .f32 0x7F800000#32) = 1#1) :
    ∃ f : Fin n0 → Fin n1 → ℝ, v = Cert.Spec.arr f := by
  have hr : ∀ j, ∃ r : ℝ, v j = (r : EReal) := fun j => elt_real (v j) (h j)
  choose g hg using hr
  refine ⟨fun a b => g (ValueIdx.ix2 a b), funext fun j => ?_⟩
  rw [hg j]
  exact congrArg (fun k => ((g k : ℝ) : EReal)) (ValueIdx.eq_ix2 j)

/-- The shape of rank 0 has one index. -/
private instance : Subsingleton Cert.Pre_finite_inputs.S_.Idx := ⟨fun a b => funext fun d => d.elim0⟩

/-- Under the precondition each of the four inputs is a real matrix, coerced: the precondition is the conjunction
    of four conjunctions over all entries, each of which gives the element test at every index of its array. -/
theorem real_inputs [Cert.Pre_finite_inputs.Facts]
    (m : (ℓ : Loc Cert.KernelIdeal.nD Cert.KernelIdeal.τ Cert.KernelIdeal.sig) → Buf (Elt Ideal) ℓ)
    (h : Cert.Pre_KernelIdeal m) (c : Dev Cert.KernelIdeal.nD) :
    ∃ (x : Fin 4096 → Fin 1024 → ℝ) (wq wk wv : Fin 1024 → Fin 1024 → ℝ),
      m ((c.tc : Thread Cert.KernelIdeal.nD Cert.KernelIdeal.τ).loc Cert.KernelIdeal.main_arg0) = Cert.Spec.arr x
      ∧ m ((c.tc : Thread Cert.KernelIdeal.nD Cert.KernelIdeal.τ).loc Cert.KernelIdeal.main_arg1) = Cert.Spec.arr wq
      ∧ m ((c.tc : Thread Cert.KernelIdeal.nD Cert.KernelIdeal.τ).loc Cert.KernelIdeal.main_arg2) = Cert.Spec.arr wk
      ∧ m ((c.tc : Thread Cert.KernelIdeal.nD Cert.KernelIdeal.τ).loc Cert.KernelIdeal.main_arg3) = Cert.Spec.arr wv := by
  have h0 := congrFun (h c) ValueIdx.ix0
  dsimp only [Cert.Pre_finite_inputs.fn, Cert.Pre_finite_inputs.fn_part1] at h0
  obtain ⟨h012, h3⟩ := IntOp.andi_eq_one.1 h0
  obtain ⟨h01, h2⟩ := IntOp.andi_eq_one.1 h012
  obtain ⟨h0', h1⟩ := IntOp.andi_eq_one.1 h01
  obtain ⟨x, hx⟩ := arr_of_finite (n0 := 4096) (n1 := 1024)
    (m ((c.tc : Thread Cert.KernelIdeal.nD Cert.KernelIdeal.τ).loc Cert.KernelIdeal.main_arg0))
    (fun j => Host.reduce_andi_all _ _ _ _ _ h0' j)
  obtain ⟨wq, hq⟩ := arr_of_finite (n0 := 1024) (n1 := 1024)
    (m ((c.tc : Thread Cert.KernelIdeal.nD Cert.KernelIdeal.τ).loc Cert.KernelIdeal.main_arg1))
    (fun j => Host.reduce_andi_all _ _ _ _ _ h1 j)
  obtain ⟨wk, hk⟩ := arr_of_finite (n0 := 1024) (n1 := 1024)
    (m ((c.tc : Thread Cert.KernelIdeal.nD Cert.KernelIdeal.τ).loc Cert.KernelIdeal.main_arg2))
    (fun j => Host.reduce_andi_all _ _ _ _ _ h2 j)
  obtain ⟨wv, hv⟩ := arr_of_finite (n0 := 1024) (n1 := 1024)
    (m ((c.tc : Thread Cert.KernelIdeal.nD Cert.KernelIdeal.τ).loc Cert.KernelIdeal.main_arg3))
    (fun j => Host.reduce_andi_all _ _ _ _ _ h3 j)
  exact ⟨x, wq, wk, wv, hx, hq, hk, hv⟩

end Cert.Proof.Finite

end
-- ==== Proof.lean ====
/-
  Causal self-attention computed blockwise — the three projections as one matmul against the weights laid side by
  side, then an online softmax that walks, for every block of 1024 query rows, the key blocks up to the diagonal,
  carrying a running maximum, denominator and numerator — against the plain formulation: separate projections, the
  full score matrix masked below the diagonal with -∞, a row softmax, a product with the values.

  On the extended reals the two are one function. The projected array's three bands are the three projections. A
  masked score is `⊥` on both sides (the kernel's finite stand-in is named `⊥`), its exponential `0`. The online
  state after the key blocks up to the diagonal is the row maximum, the row's sum of exponentials and their weighted
  sum of value rows (rescaling by `exp (M - M')` moves a partial sum from one maximum to the next), and
  numerator / denominator is the softmax-weighted average, because on reals `(∑ w v) / L = ∑ (w / L) v`. The scale
  `1/32` is `1/√1024`. Finiteness of the inputs is what makes every score a real number.

  Both kernel programs run to the end with their arguments unchanged (the run of the two regions, the second pinned
  at the schedule tables the host writes), and so does the reference (its run, read back).
-/
import proofs.«415724_j60610578481678_3_alg».proof.Defs
import proofs.«415724_j60610578481678_3_alg».proof.Proof.Gen.Kernel
import proofs.«415724_j60610578481678_3_alg».proof.Proof.Gen.KernelIdeal
import proofs.«415724_j60610578481678_3_alg».proof.Proof.Gen.ReferenceIdeal
import proofs.«415724_j60610578481678_3_alg».proof.Proof.Gen.ReferenceIdeal.Run
import proofs.«415724_j60610578481678_3_alg».proof.Proof.Gen.Pre_finite_inputs
import proofs.«415724_j60610578481678_3_alg».proof.Proof.K.Launch
import proofs.«415724_j60610578481678_3_alg».proof.Proof.K.Args
import proofs.«415724_j60610578481678_3_alg».proof.Proof.KI.Launch
import proofs.«415724_j60610578481678_3_alg».proof.Proof.KI.Args
import proofs.«415724_j60610578481678_3_alg».proof.Proof.KI.Val0
import proofs.«415724_j60610578481678_3_alg».proof.Proof.KI.Val1
import proofs.«415724_j60610578481678_3_alg».proof.Proof.RefValue
import proofs.«415724_j60610578481678_3_alg».proof.Proof.Finite
import Idealize.ShloMosaic.Adequacy
import Idealize.ShloMosaic.Init

noncomputable section

namespace Cert.Proof

open Idealize.ShloMosaic Idealize.ShloMosaic.TcCoe Idealize.SL.Sem

/-- The word-level kernel runs and keeps its arguments: its run to the last boundary, read at the four arguments. -/
theorem frame_k [Cert.Kernel.Facts] [Cert.Pre_finite_inputs.Facts] : Cert.frame_Kernel := fun m ρ _ =>
  (θ_run Cert.Kernel.defs _ _).mono (fun _ h c =>
    ⟨(h c _ (Cert.Kernel.Hand.mem_uc Cert.Kernel.main_arg0 (by decide))).trans (Cert.Kernel.Hand.W3_main_arg0 m c),
     (h c _ (Cert.Kernel.Hand.mem_uc Cert.Kernel.main_arg1 (by decide))).trans (Cert.Kernel.Hand.W3_main_arg1 m c),
     (h c _ (Cert.Kernel.Hand.mem_uc Cert.Kernel.main_arg2 (by decide))).trans (Cert.Kernel.Hand.W3_main_arg2 m c),
     (h c _ (Cert.Kernel.Hand.mem_uc Cert.Kernel.main_arg3 (by decide))).trans (Cert.Kernel.Hand.W3_main_arg3 m c)⟩)
    (Cert.Kernel.Hand.run_all (F := Bits) m ρ)

/-- The idealized kernel likewise. -/
theorem frame_ki [Cert.KernelIdeal.Facts] [Cert.Pre_finite_inputs.Facts] : Cert.frame_KernelIdeal := fun m ρ _ =>
  (θ_run Cert.KernelIdeal.defs _ _).mono (fun _ h c =>
    ⟨(h c _ (Cert.KernelIdeal.Hand.mem_uc Cert.KernelIdeal.main_arg0 (by decide))).trans (Cert.KernelIdeal.Hand.W3_main_arg0 m c),
     (h c _ (Cert.KernelIdeal.Hand.mem_uc Cert.KernelIdeal.main_arg1 (by decide))).trans (Cert.KernelIdeal.Hand.W3_main_arg1 m c),
     (h c _ (Cert.KernelIdeal.Hand.mem_uc Cert.KernelIdeal.main_arg2 (by decide))).trans (Cert.KernelIdeal.Hand.W3_main_arg2 m c),
     (h c _ (Cert.KernelIdeal.Hand.mem_uc Cert.KernelIdeal.main_arg3 (by decide))).trans (Cert.KernelIdeal.Hand.W3_main_arg3 m c)⟩)
    (Cert.KernelIdeal.Hand.run_all (F := Ideal) m ρ)

/-- The reference is host operations only: its run, the result dropped. -/
theorem frame_ri [Cert.ReferenceIdeal.Facts] [Cert.Pre_finite_inputs.Facts] : Cert.frame_ReferenceIdeal := fun m ρ _ =>
  (θ_run Cert.ReferenceIdeal.defs _ _).mono (fun _ h c => (h c).2) (Cert.ReferenceIdeal.Value.run (F := Ideal) m ρ)

/-- The two ledger entries: the certificate's table gives the mask's name the value `⊥`. -/
theorem preserves : Cert.preserves_Kernel_KernelIdeal :=
  ⟨IdealRules.named_const.statement Cert.KernelIdeal.κ "neg_big" .f32 0xFF333332#32 ⊥ rfl,
   IdealRules.named_const.statement Cert.KernelIdeal.κ "neg_big" .f32 0xFF333332#32 ⊥ rfl⟩

/-- At finite inputs both programs end with the causal attention of the projected rows. -/
theorem algebraic [Cert.KernelIdeal.Facts] [Cert.ReferenceIdeal.Facts] [Cert.Pre_finite_inputs.Facts] :
    Cert.algebraic_KernelIdeal_ReferenceIdeal := by
  intro m ρ m' ρ' hpre hagree
  refine ⟨fun c => Cert.KernelIdeal.Hand.W3 (F := Ideal) m c Cert.KernelIdeal.main_v3, ?_, ?_⟩
  · exact (θ_run Cert.KernelIdeal.defs _ _).mono (fun _ h c =>
      ⟨h c _ (Cert.KernelIdeal.Hand.mem_uc Cert.KernelIdeal.main_v3 (by decide)),
       (h c _ (Cert.KernelIdeal.Hand.mem_uc Cert.KernelIdeal.main_arg0 (by decide))).trans (Cert.KernelIdeal.Hand.W3_main_arg0 m c),
       (h c _ (Cert.KernelIdeal.Hand.mem_uc Cert.KernelIdeal.main_arg1 (by decide))).trans (Cert.KernelIdeal.Hand.W3_main_arg1 m c),
       (h c _ (Cert.KernelIdeal.Hand.mem_uc Cert.KernelIdeal.main_arg2 (by decide))).trans (Cert.KernelIdeal.Hand.W3_main_arg2 m c),
       (h c _ (Cert.KernelIdeal.Hand.mem_uc Cert.KernelIdeal.main_arg3 (by decide))).trans (Cert.KernelIdeal.Hand.W3_main_arg3 m c)⟩)
      (Cert.KernelIdeal.Hand.run_all (F := Ideal) m ρ)
  · refine (θ_run Cert.ReferenceIdeal.defs _ _).mono (fun _ h c => ⟨(h c).1.trans ?_, (h c).2⟩)
      (Cert.ReferenceIdeal.Value.run (F := Ideal) m' ρ')
    obtain ⟨x, wq, wk, wv, h0, h1, h2, h3⟩ := Cert.Proof.Finite.real_inputs m hpre c
    have hr := Cert.ReferenceIdeal.RefValue.res_eq m' c x wq wk wv
      ((hagree c).1.trans h0) ((hagree c).2.1.trans h1) ((hagree c).2.2.1.trans h2) ((hagree c).2.2.2.trans h3)
    have hk : Cert.KernelIdeal.Hand.W3 (F := Ideal) m c Cert.KernelIdeal.main_v3
        = Cert.Spec.arr (Cert.Spec.out x wq wk wv) := by
      rw [Cert.KernelIdeal.Hand.W3_v3,
        Cert.KernelIdeal.Hand.final1 (Cert.KernelIdeal.Hand.V2 m) c (Cert.Spec.qkv x (Cert.Spec.wcat wq wk wv))
          (Cert.KernelIdeal.Hand.W2_v2_eq m c x wq wk wv h0 h1 h2 h3),
        Cert.Spec.attn_bands]
    exact hr.trans hk.symm

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
